-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x1x8192 : Shape := ⟨3, ![2, 1, 8192]⟩
abbrev S1x8192x3 : Shape := ⟨3, ![1, 8192, 3]⟩
abbrev S1x1x8192 : Shape := ⟨3, ![1, 1, 8192]⟩
abbrev S8192 : Shape := ⟨1, ![8192]⟩
abbrev S8192x3 : Shape := ⟨2, ![8192, 3]⟩
abbrev S1x128x3 : Shape := ⟨3, ![1, 128, 3]⟩
abbrev S128x3 : Shape := ⟨2, ![128, 3]⟩
abbrev S128 : Shape := ⟨1, ![128]⟩
abbrev S128x1 : Shape := ⟨2, ![128, 1]⟩
abbrev S1x128 : Shape := ⟨2, ![1, 128]⟩
abbrev S8192x128 : Shape := ⟨2, ![8192, 128]⟩
abbrev S8192x1 : Shape := ⟨2, ![8192, 1]⟩
abbrev S1x1x128 : Shape := ⟨3, ![1, 1, 128]⟩
abbrev S1x8192 : Shape := ⟨2, ![1, 8192]⟩
abbrev S2x8192 : Shape := ⟨2, ![2, 8192]⟩
abbrev S_ : Shape := ⟨0, ![]⟩
abbrev S2x3 : Shape := ⟨2, ![2, 3]⟩
abbrev S2x1x3 : Shape := ⟨3, ![2, 1, 3]⟩

abbrev nBuf : Space → Nat
  | .hbm => 59
  | .vmem => 18
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x1x8192, .f32⟩
  | .hbm, ⟨3, _⟩ => ⟨S2x1x8192, .f32⟩
  | .hbm, ⟨4, _⟩ => ⟨S2x8192, .f32⟩
  | .hbm, ⟨5, _⟩ => ⟨S2x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x8192x3, .i1⟩
  | .hbm, ⟨16, _⟩ => ⟨S_, .f32⟩
  | .hbm, ⟨17, _⟩ => ⟨S_, .f32⟩
  | .hbm, ⟨18, _⟩ => ⟨S2x8192x3, .f32⟩
  | .hbm, ⟨19, _⟩ => ⟨S2x8192x3, .f32⟩
  | .hbm, ⟨20, _⟩ => ⟨S_, .f32⟩
  | .hbm, ⟨21, _⟩ => ⟨S2x3, .f32⟩
  | .hbm, ⟨22, _⟩ => ⟨S2x1x3, .f32⟩
  | .hbm, ⟨23, _⟩ => ⟨S2x8192x3, .f32⟩
  | .hbm, ⟨24, _⟩ => ⟨S2x8192x3, .f32⟩
  | .hbm, ⟨25, _⟩ => ⟨S_, .f32⟩
  | .hbm, ⟨26, _⟩ => ⟨S2x8192x3, .f32⟩
  | .hbm, ⟨27, _⟩ => ⟨S2x8192x3, .f32⟩
  | .hbm, ⟨28, _⟩ => ⟨S2x8192x3, .i32⟩
  | .hbm, ⟨29, _⟩ => ⟨S2x8192x3, .f32⟩
  | .hbm, ⟨30, _⟩ => ⟨S2x8192x3, .i1⟩
  | .hbm, ⟨31, _⟩ => ⟨S_, .f32⟩
  | .hbm, ⟨32, _⟩ => ⟨S_, .f32⟩
  | .hbm, ⟨33, _⟩ => ⟨S2x8192x3, .f32⟩
  | .hbm, ⟨34, _⟩ => ⟨S2x8192x3, .f32⟩
  | .hbm, ⟨35, _⟩ => ⟨S_, .f32⟩
  | .hbm, ⟨36, _⟩ => ⟨S2x3, .f32⟩
  | .hbm, ⟨37, _⟩ => ⟨S2x1x3, .f32⟩
  | .hbm, ⟨38, _⟩ => ⟨S2x8192x3, .f32⟩
  | .hbm, ⟨39, _⟩ => ⟨S2x8192x3, .f32⟩
  | .hbm, ⟨40, _⟩ => ⟨S_, .f32⟩
  | .hbm, ⟨41, _⟩ => ⟨S2x8192x3, .f32⟩
  | .hbm, ⟨42, _⟩ => ⟨S2x8192x3, .f32⟩
  | .hbm, ⟨43, _⟩ => ⟨S2x8192x3, .i32⟩
  | .hbm, ⟨44, _⟩ => ⟨S2x8192x3, .f32⟩
  | .hbm, ⟨45, _⟩ => ⟨S2x1x8192, .f32⟩
  | .hbm, ⟨46, _⟩ => ⟨S2x1x8192, .f32⟩
  | .hbm, ⟨47, _⟩ => ⟨S2x8192, .f32⟩
  | .hbm, ⟨48, _⟩ => ⟨S2x8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x8192x3, .f32⟩
  | .local _ .vmem, ⟨1, _⟩ => ⟨S1x8192x3, .f32⟩
  | .local _ .vmem, ⟨2, _⟩ => ⟨S1x8192x3, .f32⟩
  | .local _ .vmem, ⟨3, _⟩ => ⟨S1x8192x3, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | .local _ .vmem, ⟨8, _⟩ => ⟨S8192, .f32⟩
  | .local _ .vmem, ⟨9, _⟩ => ⟨S1x8192x3, .f32⟩
  | .local _ .vmem, ⟨10, _⟩ => ⟨S1x8192x3, .f32⟩
  | .local _ .vmem, ⟨11, _⟩ => ⟨S1x8192x3, .f32⟩
  | .local _ .vmem, ⟨12, _⟩ => ⟨S1x8192x3, .f32⟩
  | .local _ .vmem, ⟨13, _⟩ => ⟨S1x1x8192, .f32⟩
  | .local _ .vmem, ⟨14, _⟩ => ⟨S1x1x8192, .f32⟩
  | .local _ .vmem, ⟨15, _⟩ => ⟨S1x1x8192, .f32⟩
  | .local _ .vmem, ⟨16, _⟩ => ⟨S1x1x8192, .f32⟩
  | .local _ .vmem, ⟨17, _⟩ => ⟨S8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k0_mult1 (k0_t1 : Fin k0_t1_loop.trips) : BitVec 32 :=
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v15 : BitVec 32 := Scalar.muli arg6 c1_i32_9
  let v16 : BitVec 32 := Scalar.addi c0_i32_10 v15
  let c128_i32 : BitVec 32 := 128#32
  let v17 : BitVec 32 := Scalar.muli v16 c128_i32
  v17
def k0_off1 (k0_t1 : Fin k0_t1_loop.trips) : Fin 3 → Nat :=
  let c0_11 : Index := 0#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v15 : BitVec 32 := Scalar.muli arg6 c1_i32_9
  let v16 : BitVec 32 := Scalar.addi c0_i32_10 v15
  let c128_i32 : BitVec 32 := 128#32
  let v17 : BitVec 32 := Scalar.muli v16 c128_i32
  let v18 : BitVec 32 := v17
  let v19 : Index := Scalar.indexCast v18
  let c0_12 : Index := 0#32
  ![0, v19.toNat, 0]
def k0_off2 (k0_t1 : Fin k0_t1_loop.trips) : Fin 3 → Nat :=
  let c0_20 : Index := 0#32
  let c0_21 : Index := 0#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v15 : BitVec 32 := Scalar.muli arg6 c1_i32_9
  let v16 : BitVec 32 := Scalar.addi c0_i32_10 v15
  let c128_i32 : BitVec 32 := 128#32
  let v17 : BitVec 32 := Scalar.muli v16 c128_i32
  let v18 : BitVec 32 := v17
  let v43 : Index := Scalar.indexCast v18
  ![0, 0, v43.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

@[reducible] def k1_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k1_mult1 (k1_t1 : Fin k1_t1_loop.trips) : BitVec 32 :=
  let c0_i32_10 : BitVec 32 := 0#32
  let c0_i32 : BitVec 32 := 0#32
  let c1_i32 : BitVec 32 := 1#32
  let arg6 : BitVec 32 := Scf.iv c0_i32 c1_i32 k1_t1
  let c1_i32_9 : BitVec 32 := 1#32
  let v15 : BitVec 32 := Scalar.muli arg6 c1_i32_9
  let v16 : BitVec 32 := Scalar.addi c0_i32_10 v15
  let c128_i32 : BitVec 32 := 128#32
  let v17 : BitVec 32 := Scalar.muli v16 c128_i32
  v17
def k1_off1 (k1_t1 : Fin k1_t1_loop.trips) : Fin 3 → Nat :=
  let c0_11 : Index := 0#32
  let c0_i32_10 : BitVec 32 := 0#32
  let c0_i32 : BitVec 32 := 0#32
  let c1_i32 : BitVec 32 := 1#32
  let arg6 : BitVec 32 := Scf.iv c0_i32 c1_i32 k1_t1
  let c1_i32_9 : BitVec 32 := 1#32
  let v15 : BitVec 32 := Scalar.muli arg6 c1_i32_9
  let v16 : BitVec 32 := Scalar.addi c0_i32_10 v15
  let c128_i32 : BitVec 32 := 128#32
  let v17 : BitVec 32 := Scalar.muli v16 c128_i32
  let v18 : BitVec 32 := v17
  let v19 : Index := Scalar.indexCast v18
  let c0_12 : Index := 0#32
  ![0, v19.toNat, 0]
def k1_off2 (k1_t1 : Fin k1_t1_loop.trips) : Fin 3 → Nat :=
  let c0_20 : Index := 0#32
  let c0_21 : Index := 0#32
  let c0_i32_10 : BitVec 32 := 0#32
  let c0_i32 : BitVec 32 := 0#32
  let c1_i32 : BitVec 32 := 1#32
  let arg6 : BitVec 32 := Scf.iv c0_i32 c1_i32 k1_t1
  let c1_i32_9 : BitVec 32 := 1#32
  let v15 : BitVec 32 := Scalar.muli arg6 c1_i32_9
  let v16 : BitVec 32 := Scalar.addi c0_i32_10 v15
  let c128_i32 : BitVec 32 := 128#32
  let v17 : BitVec 32 := Scalar.muli v16 c128_i32
  let v18 : BitVec 32 := v17
  let v43 : Index := Scalar.indexCast v18
  ![0, 0, v43.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  bitsLt_bf16_f32 : FTy.bits .bf16 < FTy.bits .f32
  reduces_S8192x3_S8192 : S8192x3.Reduces [1] S8192
  inb_S8192_S8192_0 : ∀ a, (![0] : Fin 1 → Nat) a + S8192.size a ≤ S8192.size a
  h_S8192 : 0 < S8192.numel
  shapeCasts_S8192_S8192 : S8192.ShapeCasts S8192
  h_S1x128x3 : 0 < S1x128x3.numel
  shapeCasts_S1x128x3_S128x3 : S1x128x3.ShapeCasts S128x3
  reduces_S128x3_S128 : S128x3.Reduces [1] S128
  shapeCasts_S128_S128x1 : S128.ShapeCasts S128x1
  transposes_S128x1_p1_0_S1x128 : S128x1.Transposes [1, 0] S1x128
  shapeCasts_S8192_S8192x1 : S8192.ShapeCasts S8192x1
  broadcasts_S8192x1_S8192x128 : S8192x1.Broadcasts S8192x128
  broadcasts_S1x128_S8192x128 : S1x128.Broadcasts S8192x128
  reduces_S8192x128_S8192 : S8192x128.Reduces [1] S8192
  reduces_S8192x128_S128 : S8192x128.Reduces [0] S128
  shapeCasts_S128_S1x128 : S128.ShapeCasts S1x128
  h_S1x1x128 : 0 < S1x1x128.numel
  shapeCasts_S1x1x128_S1x128 : S1x1x128.ShapeCasts S1x128
  shapeCasts_S1x128_S1x1x128 : S1x128.ShapeCasts S1x1x128
  shapeCasts_S8192_S1x8192 : S8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S2x1x8192_S2x8192 : S2x1x8192.ShapeCasts S2x8192
  reducesTo_S2x8192_S_d0_1 : S2x8192.ReducesTo [0, 1] S_
  h_S_ : 0 < S_.numel
  bcast_S_S2x8192x3 : S_.BroadcastsInDim S2x8192x3 (![] : Fin 0 → Fin S2x8192x3.rank)
  reducesTo_S2x8192x3_S2x3_d1 : S2x8192x3.ReducesTo [1] S2x3
  bcast_S2x3_S2x1x3_0_2 : S2x3.BroadcastsInDim S2x1x3 (![0, 2] : Fin 2 → Fin S2x1x3.rank)
  bcast_S2x1x3_S2x8192x3_0_1_2 : S2x1x3.BroadcastsInDim S2x8192x3 (![0, 1, 2] : Fin 3 → Fin S2x8192x3.rank)
  dot_S8192x3_S128x3_S8192x128_1_1_0_0_n_n_wf : DotDims.WF S8192x3 S128x3 S8192x128 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x3.size a ≤ S1x8192x3.size a
  k0_off2_inb : ∀ k0_t1 : Fin k0_t1_loop.trips, ∀ a, (k0_off2 k0_t1) a + S1x1x128.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S2x8192x3.size a
  hwx0_0 : ∀ i : grid0.Coords, EltTy.bits .f32 = 32 ∨ (Rect.block (s := S2x8192x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x3.size a ≤ S2x8192x3.size a
  hwx0_1 : ∀ i : grid0.Coords, EltTy.bits .f32 = 32 ∨ (Rect.block (s := S2x8192x3) S1x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S1x128x3.size a ≤ S1x8192x3.size a
  k1_off2_inb : ∀ k1_t1 : Fin k1_t1_loop.trips, ∀ a, (k1_off2 k1_t1) a + S1x1x128.size a ≤ S1x1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x3.size a ≤ S2x8192x3.size a
  hwx1_0 : ∀ i : grid1.Coords, EltTy.bits .f32 = 32 ∨ (Rect.block (s := S2x8192x3) S1x8192x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192x3.size a ≤ S2x8192x3.size a
  hwx1_1 : ∀ i : grid1.Coords, EltTy.bits .f32 = 32 ∨ (Rect.block (s := S2x8192x3) S1x8192x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x8192.size a ≤ S2x1x8192.size a
  hwx1_2 : ∀ i : grid1.Coords, EltTy.bits .f32 = 32 ∨ (Rect.block (s := S2x1x8192) S1x1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x8192.size a ≤ S2x1x8192.size a
  hwx1_3 : ∀ i : grid1.Coords, EltTy.bits .f32 = 32 ∨ (Rect.block (s := S2x1x8192) S1x1x8192.size (cc1_transform_3 i) (hinb1_3 i)).WholeWords (EltTy.packing .f32)

variable [Facts₀]

def dot_S8192x3_S128x3_S8192x128_1_1_0_0_n_n : DotDims S8192x3 S128x3 S8192x128 where
  lhsContracting := [1]
  rhsContracting := [1]
  lhsNonContracting := [0]
  rhsNonContracting := [0]
  lhsBatch := []
  rhsBatch := []
  wf := dot_S8192x3_S128x3_S8192x128_1_1_0_0_n_n_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S1x8192x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x8192x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28_0) S1x1x8192.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_1) S1x1x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2x3 : Shape := ⟨2, ![2, 3]⟩
abbrev S2x1x3 : Shape := ⟨3, ![2, 1, 3]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192, .f32⟩
  | .hbm, ⟨20, _⟩ => ⟨S_, .f32⟩
  | .hbm, ⟨21, _⟩ => ⟨S2x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S2x8192x3, .i1⟩
  | .hbm, ⟨32, _⟩ => ⟨S_, .f32⟩
  | .hbm, ⟨33, _⟩ => ⟨S_, .f32⟩
  | .hbm, ⟨34, _⟩ => ⟨S2x8192x3, .f32⟩
  | .hbm, ⟨35, _⟩ => ⟨S2x8192x3, .f32⟩
  | .hbm, ⟨36, _⟩ => ⟨S_, .f32⟩
  | .hbm, ⟨37, _⟩ => ⟨S2x3, .f32⟩
  | .hbm, ⟨38, _⟩ => ⟨S2x1x3, .f32⟩
  | .hbm, ⟨39, _⟩ => ⟨S2x8192x3, .f32⟩
  | .hbm, ⟨40, _⟩ => ⟨S2x8192x3, .f32⟩
  | .hbm, ⟨41, _⟩ => ⟨S_, .f32⟩
  | .hbm, ⟨42, _⟩ => ⟨S2x8192x3, .f32⟩
  | .hbm, ⟨43, _⟩ => ⟨S2x8192x3, .f32⟩
  | .hbm, ⟨44, _⟩ => ⟨S2x8192x3, .i32⟩
  | .hbm, ⟨45, _⟩ => ⟨S2x8192x3, .f32⟩
  | .hbm, ⟨46, _⟩ => ⟨S2x8192x3, .i1⟩
  | .hbm, ⟨47, _⟩ => ⟨S_, .f32⟩
  | .hbm, ⟨48, _⟩ => ⟨S_, .f32⟩
  | .hbm, ⟨49, _⟩ => ⟨S2x8192x3, .f32⟩
  | .hbm, ⟨50, _⟩ => ⟨S2x8192x3, .f32⟩
  | .hbm, ⟨51, _⟩ => ⟨S_, .f32⟩
  | .hbm, ⟨52, _⟩ => ⟨S2x3, .f32⟩
  | .hbm, ⟨53, _⟩ => ⟨S2x1x3, .f32⟩
  | .hbm, ⟨54, _⟩ => ⟨S2x8192x3, .f32⟩
  | .hbm, ⟨55, _⟩ => ⟨S2x8192x3, .f32⟩
  | .hbm, ⟨56, _⟩ => ⟨S_, .f32⟩
  | .hbm, ⟨57, _⟩ => ⟨S2x8192x3, .f32⟩
  | .hbm, ⟨58, _⟩ => ⟨S2x8192x3, .f32⟩
  | .hbm, ⟨59, _⟩ => ⟨S2x8192x3, .i32⟩
  | .hbm, ⟨60, _⟩ => ⟨S2x8192x3, .f32⟩
  | .hbm, ⟨61, _⟩ => ⟨S2x8192x3, .f32⟩
  | .hbm, ⟨62, _⟩ => ⟨S_, .f32⟩
  | .hbm, ⟨63, _⟩ => ⟨S2x8192, .f32⟩
  | .hbm, ⟨64, _⟩ => ⟨S2x8192x3, .f32⟩
  | .hbm, ⟨65, _⟩ => ⟨S_, .f32⟩
  | .hbm, ⟨66, _⟩ => ⟨S2x8192, .f32⟩
  | .hbm, ⟨67, _⟩ => ⟨S2x8192x8192, .f32⟩
  | .hbm, ⟨68, _⟩ => ⟨S2x8192x1, .f32⟩
  | .hbm, ⟨69, _⟩ => ⟨S2x1x8192, .f32⟩
  | .hbm, ⟨70, _⟩ => ⟨S2x8192x8192, .f32⟩
  | .hbm, ⟨71, _⟩ => ⟨S2x8192x8192, .f32⟩
  | .hbm, ⟨72, _⟩ => ⟨S2x8192x8192, .f32⟩
  | .hbm, ⟨73, _⟩ => ⟨S_, .f32⟩
  | .hbm, ⟨74, _⟩ => ⟨S2x8192x8192, .f32⟩
  | .hbm, ⟨75, _⟩ => ⟨S2x8192x8192, .f32⟩
  | .hbm, ⟨76, _⟩ => ⟨S2x8192x8192, .f32⟩
  | .hbm, ⟨77, _⟩ => ⟨S_, .f32⟩
  | .hbm, ⟨78, _⟩ => ⟨S2x8192, .f32⟩
  | .hbm, ⟨79, _⟩ => ⟨S_, .f32⟩
  | .hbm, ⟨80, _⟩ => ⟨S2x8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_9 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v31 : Ref sig .tc := ⟨.hbm, 50, rfl⟩
abbrev main_cst_12 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_13 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_14 : Ref sig .tc := ⟨.hbm, 62, rfl⟩
abbrev main_v41 : Ref sig .tc := ⟨.hbm, 63, rfl⟩
abbrev main_v42 : Ref sig .tc := ⟨.hbm, 64, rfl⟩
abbrev main_cst_15 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_cst_18 : Ref sig .tc := ⟨.hbm, 79, rfl⟩
abbrev main_v54 : Ref sig .tc := ⟨.hbm, 80, rfl⟩
abbrev main_cst_19 : Ref sig .tc := ⟨.hbm, 81, rfl⟩
abbrev main_v55 : Ref sig .tc := ⟨.hbm, 82, rfl⟩
abbrev main_cst_20 : Ref sig .tc := ⟨.hbm, 83, rfl⟩
abbrev main_v56 : Ref sig .tc := ⟨.hbm, 84, rfl⟩
abbrev main_cst_21 : Ref sig .tc := ⟨.hbm, 85, rfl⟩
abbrev main_v57 : Ref sig .tc := ⟨.hbm, 86, rfl⟩
abbrev main_cst_22 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S_d0_1 : S2x8192.ReducesTo [0, 1] S_
  bcast_S_S2x8192x3 : S_.BroadcastsInDim S2x8192x3 (![] : Fin 0 → Fin S2x8192x3.rank)
  reducesTo_S2x8192x3_S2x3_d1 : S2x8192x3.ReducesTo [1] S2x3
  bcast_S2x3_S2x1x3_0_2 : S2x3.BroadcastsInDim S2x1x3 (![0, 2] : Fin 2 → Fin S2x1x3.rank)
  bcast_S2x1x3_S2x8192x3_0_1_2 : S2x1x3.BroadcastsInDim S2x8192x3 (![0, 1, 2] : Fin 3 → Fin S2x8192x3.rank)
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.BitsBody0.lean ====
/-
  The body of the kernel (region 0) as pure data: what its loop of 64 trips leaves, in closed form.

  The body loads the block x of the first cloud (8192 points), fills a scratch row of 8192 entries with the word of
  +∞, and then runs 64 trips; trip k reads tile k of the second block y — its rows 128·k … 128·k + 127 — and makes two
  stores: into the row of column minima (the second output), at columns 128·k … 128·k + 127, the minimum over the 8192
  points of x of the scores against the tile's points; into the scratch row, whole, the minimum of what the row held
  with the minimum over the tile's points of the scores. After the loop the scratch row is stored, relaid, as the first
  output.

  `colList x y k` lists the stores of the first k trips into the row of column minima (last first); none of them
  depends on what any buffer held. `accFn x y k` is the scratch row after k trips, a pure function of x and y: the
  scratch is stored whole every trip, so what it held before the first fill never shows. The generated recursion over
  the trips (`pb_k0_t1`), whose pieces are stated over the buffers' contents at the loop's entry, is these two.
-/
import proofs.«176964_j13589276525289_1_alg».proof.Proof.Gen.Kernel.Loops
import Idealize.ShloMosaic.Lib.Pipeline.Value

set_option maxRecDepth 16384

noncomputable section

namespace Cert.Kernel.Body0

open Idealize.ShloMosaic Idealize.ShloMosaic.TcCoe Idealize.SL.Sem
open Cert.Kernel Cert.Kernel.Gen

variable {F : FTy → Type} [FloatOps F]

/-- Tile k of the second block: its rows 128·k … 128·k + 127. -/
abbrev tileOf (y : Vec F S1x8192x3 .f32) (k : Fin k0_t1_loop.trips) : Vec F S1x128x3 .f32 :=
  View.ld y (Rect.unit (s := S1x8192x3) (k0_off1 k) S1x128x3.size (k0_off1_inb k))

/-- The whole-row rectangle of the scratch. -/
abbrev accRect : Rect S8192 := Rect.unit (s := S8192) ![0] S8192.size inb_S8192_S8192_0

/-- Trip k's store into the row of column minima. -/
abbrev colPiece (x y : Vec F S1x8192x3 .f32) (k : Fin k0_t1_loop.trips) : View.Piece (Elt F) S1x1x8192 .f32 :=
  ⟨Rect.unit (s := S1x1x8192) (k0_off2 k) S1x1x128.size (k0_off2_inb k), k0_pay4 x (tileOf y k)⟩

/-- The stores of the first k trips into the row of column minima, last first. -/
def colList (x y : Vec F S1x8192x3 .f32) : ℕ → List (View.Piece (Elt F) S1x1x8192 .f32)
  | 0 => []
  | k + 1 => if h : k < k0_t1_loop.trips then colPiece x y ⟨k, h⟩ :: colList x y k else colList x y k

theorem colList_succ (x y : Vec F S1x8192x3 .f32) (k : Fin k0_t1_loop.trips) :
    colList x y (k.val + 1) = colPiece x y k :: colList x y k.val := by
  rw [colList]; exact dif_pos k.isLt

/-- The scratch row after the first k trips. -/
def accFn (x y : Vec F S1x8192x3 .f32) : ℕ → Vec F S8192 .f32
  | 0 => k0_pay1
  | k + 1 => if h : k < k0_t1_loop.trips then k0_pay3 x (tileOf y ⟨k, h⟩) (accFn x y k) else accFn x y k

theorem accFn_succ (x y : Vec F S1x8192x3 .f32) (k : Fin k0_t1_loop.trips) :
    accFn x y (k.val + 1) = k0_pay3 x (tileOf y k) (accFn x y k.val) := by
  rw [accFn]; exact dif_pos k.isLt

/-- The scratch row's rectangle starts at zero. -/
theorem hz1 : (![0] : Fin S8192.rank → Nat) = fun _ => 0 := funext fun a => by
  match a with
  | ⟨0, _⟩ => rfl

/-- A row stored whole reads back as what was stored, whatever lay under it. -/
theorem read_whole_cons (arg5 : Memref sig .tc .vmem S8192 .f32) (f : BufTy.Contents (Elt F) arg5.view.ty) (w : S8192.Idx → Elt F .f32)
    (L : List (View.Piece (Elt F) S8192 .f32)) :
    arg5.view.read (Elt F) (arg5.view.writes (Elt F) f ((⟨accRect, w⟩ : View.Piece (Elt F) S8192 .f32) :: L)) = w := by
  rw [View.read_writes_eq_canon _ _ _ (fun y => ⟨(⟨accRect, w⟩ : View.Piece (Elt F) S8192 .f32), List.mem_cons_self,
    View.mem_set_unit_zero hz1 inb_S8192_S8192_0 y⟩), View.canon_cons_unit_zero hz1]

section Trips

variable (𝒱 : Variants) (c : Dev nD) (bd : Option 𝒱.V) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty)

/-- What one trip writes into the row of column minima: one store, of the tile read through the second block's buffer. -/
theorem trip_col (k : Fin k0_t1_loop.trips) (f4 : BufTy.Contents (Elt F) arg4.view.ty) (f5 : BufTy.Contents (Elt F) arg5.view.ty) :
    (trip_k0_t1 (F := F) 𝒱 c bd i arg1 harg1 arg2 harg2 arg3 harg3 arg4 harg4 arg5 harg5 v0 X_arg2 k).1 f4 f5 = [colPiece v0 (arg2.view.read (Elt F) X_arg2) k] := by
  unfold trip_k0_t1
  rfl

/-- What one trip writes into the scratch row: one whole store, over what the trip finds there. -/
theorem trip_acc (k : Fin k0_t1_loop.trips) (f4 : BufTy.Contents (Elt F) arg4.view.ty) (f5 : BufTy.Contents (Elt F) arg5.view.ty) :
    (trip_k0_t1 (F := F) 𝒱 c bd i arg1 harg1 arg2 harg2 arg3 harg3 arg4 harg4 arg5 harg5 v0 X_arg2 k).2.1 f4 f5
      = [(⟨accRect, k0_pay3 v0 (tileOf (arg2.view.read (Elt F) X_arg2) k) (View.ld (arg5.view.read (Elt F) f5) accRect)⟩ : View.Piece (Elt F) S8192 .f32)] := by
  unfold trip_k0_t1
  rfl

variable (G4 : BufTy.Contents (Elt F) arg4.view.ty) (G5 : BufTy.Contents (Elt F) arg5.view.ty)

/-- The generated recursion's stores into the row of column minima are `colList`, whatever the buffers held. -/
theorem pb_col : ∀ (k : ℕ), k ≤ k0_t1_loop.trips →
    (pb_k0_t1 (F := F) 𝒱 c bd i arg1 harg1 arg2 harg2 arg3 harg3 arg4 harg4 arg5 harg5 v0 X_arg2 G4 G5 k).1 = colList v0 (arg2.view.read (Elt F) X_arg2) k
  | 0, _ => rfl
  | k + 1, hk => by
    have hk' : k < k0_t1_loop.trips := hk
    have e := pb_k0_t1_succ (F := F) 𝒱 c bd i arg1 harg1 arg2 harg2 arg3 harg3 arg4 harg4 arg5 harg5 v0 X_arg2 G4 G5 ⟨k, hk'⟩
    rw [show pb_k0_t1 (F := F) 𝒱 c bd i arg1 harg1 arg2 harg2 arg3 harg3 arg4 harg4 arg5 harg5 v0 X_arg2 G4 G5 (k + 1) = pb_k0_t1 (F := F) 𝒱 c bd i arg1 harg1 arg2 harg2 arg3 harg3 arg4 harg4 arg5 harg5 v0 X_arg2 G4 G5 ((⟨k, hk'⟩ : Fin k0_t1_loop.trips).val + 1) from rfl, e]
    dsimp only [tripL_k0_t1]
    rw [trip_col, colList_succ v0 _ ⟨k, hk'⟩, pb_col k (Nat.le_of_lt hk')]
    rfl

/-- The generated recursion's scratch row reads as `accFn`, once the row held the first fill at the loop's entry. -/
theorem pb_acc (hG5 : arg5.view.read (Elt F) G5 = k0_pay1 (F := F)) : ∀ (k : ℕ), k ≤ k0_t1_loop.trips →
    arg5.view.read (Elt F) (arg5.view.writes (Elt F) G5 (pb_k0_t1 (F := F) 𝒱 c bd i arg1 harg1 arg2 harg2 arg3 harg3 arg4 harg4 arg5 harg5 v0 X_arg2 G4 G5 k).2) = accFn v0 (arg2.view.read (Elt F) X_arg2) k
  | 0, _ => by
    show arg5.view.read (Elt F) (arg5.view.writes (Elt F) G5 []) = _
    rw [View.writes_nil, hG5]; rfl
  | k + 1, hk => by
    have hk' : k < k0_t1_loop.trips := hk
    have e := pb_k0_t1_succ (F := F) 𝒱 c bd i arg1 harg1 arg2 harg2 arg3 harg3 arg4 harg4 arg5 harg5 v0 X_arg2 G4 G5 ⟨k, hk'⟩
    rw [show pb_k0_t1 (F := F) 𝒱 c bd i arg1 harg1 arg2 harg2 arg3 harg3 arg4 harg4 arg5 harg5 v0 X_arg2 G4 G5 (k + 1) = pb_k0_t1 (F := F) 𝒱 c bd i arg1 harg1 arg2 harg2 arg3 harg3 arg4 harg4 arg5 harg5 v0 X_arg2 G4 G5 ((⟨k, hk'⟩ : Fin k0_t1_loop.trips).val + 1) from rfl, e]
    dsimp only [tripL_k0_t1]
    rw [trip_acc]
    show arg5.view.read (Elt F) (arg5.view.writes (Elt F) G5 ((⟨accRect, _⟩ : View.Piece (Elt F) S8192 .f32) :: _)) = _
    rw [read_whole_cons, accFn_succ v0 _ ⟨k, hk'⟩, View.ld_unit_zero hz1, pb_acc hG5 k (Nat.le_of_lt hk')]

end Trips

end Cert.Kernel.Body0

end
-- ==== Proof.BitsRun0.lean ====
/-
  The kernel body (region 0) run once on whole staging buffers, with what it leaves stated in closed form.

  On buffers holding the two blocks x and y — the outputs' and the scratch's at anything — the body runs to its end
  without a fault, leaves the two blocks in place, and leaves
    in the first output's buffer ONE whole store: the scratch row after all 64 trips, relaid [1, 1, 8192];
    in the second output's buffer the 64 stores of the trips, one per tile of 128 columns.
  Both are functions of x and y alone (Body0's `accFn` and `colList`): the loop's recursion over its trips is stated
  over what the second output's buffer held at the loop's entry, which the stores never read, and the scratch is filled
  whole before the loop. The stores of the 64 trips tile the row of column minima, so every entry of both outputs is
  covered.
-/
import proofs.«176964_j13589276525289_1_alg».proof.Proof.BitsBody0
import proofs.«176964_j13589276525289_1_alg».proof.Proof.Gen.Kernel.Launch
import proofs.«176964_j13589276525289_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- A block's rectangle starts at zero. -/
theorem hz3 : (![0, 0, 0] : Fin S1x8192x3.rank → Nat) = fun _ => 0 := funext fun a => by
  match a with
  | ⟨0, _⟩ => rfl
  | ⟨1, _⟩ => rfl
  | ⟨2, _⟩ => rfl

/-- The first output's one store: the scratch row after the last trip, relaid. -/
abbrev rowPiece (x y : Vec F S1x8192x3 .f32) : View.Piece (Elt F) S1x1x8192 .f32 :=
  ⟨Rect.unit (s := S1x1x8192) ![0, 0, 0] S1x1x8192.size inb_S1x1x8192_S1x1x8192_0_0_0, k0_pay5 (accFn x y k0_t1_loop.trips)⟩

/-- The scratch row as the body loads it after the loop: the row after the trips, the first fill beneath them. -/
theorem final_row (𝒱 : Variants) (c : Dev nD) (bd : Option 𝒱.V) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty) (G4 : BufTy.Contents (Elt F) arg4.view.ty) (k : ℕ) (hk : k ≤ k0_t1_loop.trips) :
    View.readAt (Elt F) arg5.view accRect.toLoadRect
        (arg5.view.writes (Elt F) arg5.view.junk
          ((pb_k0_t1 (F := F) 𝒱 c bd i arg1 harg1 arg2 harg2 arg3 harg3 arg4 harg4 arg5 harg5 v0 X_arg2 G4 (arg5.view.writes (Elt F) arg5.view.junk [(⟨accRect, k0_pay1⟩ : View.Piece (Elt F) S8192 .f32)]) k).2
            ++ [(⟨accRect, k0_pay1⟩ : View.Piece (Elt F) S8192 .f32)]))
      = accFn v0 (arg2.view.read (Elt F) X_arg2) k := by
  rw [View.readAt_eq_ld, View.writes_append, View.ld_unit_zero hz1]
  exact pb_acc 𝒱 c bd i arg1 harg1 arg2 harg2 arg3 harg3 arg4 harg4 arg5 harg5 v0 X_arg2 G4 _ (read_whole_cons arg5 _ _ []) k hk

set_option maxHeartbeats 4000000 in
/-- The body on whole staging buffers. -/
theorem body_run (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 : Vec F S1x8192x3 .f32) (x1 : Vec F S1x8192x3 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ (∃ f, arg3.view.loc (c : Thread nD τ) ↦[arg3.view.set]{fullShare} arg3.view.writes (Elt F) f [rowPiece x0 x1]) ∗ (∃ f, arg4.view.loc (c : Thread nD τ) ↦[arg4.view.set]{fullShare} arg4.view.writes (Elt F) f (colList x0 x1 k0_t1_loop.trips)) ∗ (∃ d, owns (c : Thread nD τ) arg5 fullShare d)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, ⟨%ds0, %fs0, -, HS0⟩, Hk⟩
  obtain rfl := harg1.eq_unread hf0; obtain rfl := harg2.eq_unread hf1
  sl_exec
  sl_step
  have hv0 : View.readAt (Elt F) arg1.view (Rect.unit (s := S1x8192x3) ![0, 0, 0] S1x8192x3.size inb_S1x8192x3_S1x8192x3_0_0_0).toLoadRect (harg1.unread x0) = x0 := by
    rw [View.readAt_eq_ld, hf0, View.ld_unit_zero hz3]
  sl_unfold_run_names
  rw [hv0]
  rw [pb_col (F := F) Variants.none c none i arg1 harg1 arg2 harg2 arg3 harg3 arg4 harg4 arg5 harg5 x0 (harg2.unread x1) f3 _
    (Scf.trips k0_t1_loop.lb k0_t1_loop.ub k0_t1_loop.st) (le_refl _)]
  rw [final_row (F := F) Variants.none c none i arg1 harg1 arg2 harg2 arg3 harg3 arg4 harg4 arg5 harg5 x0 (harg2.unread x1) f3
    (Scf.trips k0_t1_loop.lb k0_t1_loop.ub k0_t1_loop.st) (le_refl _)]
  rw [hf1]
  iapply Hk
  isplitl [H0]
  · iexists _; isplitr; · ipureintro; exact hf0
    iexact H0
  isplitl [H1]
  · iexists _; isplitr; · ipureintro; exact hf1
    iexact H1
  isplitl [H2]; · iexists _; iexact H2
  isplitl [H3]; · iexists _; iexact H3
  iexists _, _; isplitr; swap; · iexact HS0
  ipureintro; rfl

/-! ## Every entry of both outputs is stored -/

/-- The first output's one store covers its row. -/
theorem cover_row (x y : Vec F S1x8192x3 .f32) (yy : S1x1x8192.Idx) : ∃ pc ∈ [rowPiece x y], yy ∈ pc.1.set :=
  ⟨rowPiece x y, List.mem_singleton_self _, View.mem_set_unit_zero (S := S1x1x8192) hz3 inb_S1x1x8192_S1x1x8192_0_0_0 yy⟩

/-- The store of a trip before the K-th is in the list after K trips. -/
theorem colPiece_mem (x y : Vec F S1x8192x3 .f32) : ∀ (K : ℕ), K ≤ k0_t1_loop.trips → ∀ k : Fin k0_t1_loop.trips, k.val < K →
    colPiece x y k ∈ colList x y K
  | 0, _, k, h => absurd h (Nat.not_lt_zero _)
  | K + 1, hK, k, h => by
    have hK' : K < k0_t1_loop.trips := hK
    rw [show colList x y (K + 1) = colList x y ((⟨K, hK'⟩ : Fin k0_t1_loop.trips).val + 1) from rfl, colList_succ]
    by_cases e : k.val = K
    · have : k = ⟨K, hK'⟩ := Fin.ext e
      subst this
      exact List.mem_cons_self
    · exact List.mem_cons_of_mem _ (colPiece_mem x y K (Nat.le_of_lt hK') k (by omega))

/-- The loop runs 64 trips. -/
theorem trips_eq : k0_t1_loop.trips = 64 := by decide +kernel

/-- The 64 stores of the trips tile the row of column minima: column m lies in the store of trip m / 128. -/
theorem cover_col (x y : Vec F S1x8192x3 .f32) (yy : S1x1x8192.Idx) : ∃ pc ∈ colList x y k0_t1_loop.trips, yy ∈ pc.1.set := by
  have h0 : (yy 0).val < 1 := (yy 0).isLt
  have h1 : (yy 1).val < 1 := (yy 1).isLt
  have h2 : (yy 2).val < 8192 := (yy 2).isLt
  have hk : (yy 2).val / 128 < k0_t1_loop.trips := by rw [trips_eq]; omega
  refine ⟨colPiece x y ⟨(yy 2).val / 128, hk⟩, colPiece_mem x y _ (le_refl _) _ hk, ?_⟩
  rw [Rect.mem_set_unit, k0_off2_eq]
  intro a
  match a with
  | ⟨0, _⟩ => exact ⟨Nat.zero_le _, by show (yy 0).val < 0 + 1; omega⟩
  | ⟨1, _⟩ => exact ⟨Nat.zero_le _, by show (yy 1).val < 0 + 1; omega⟩
  | ⟨2, _⟩ => exact ⟨by show 128 * ((yy 2).val / 128) ≤ (yy 2).val; omega, by show (yy 2).val < 128 * ((yy 2).val / 128) + 128; omega⟩

end Cert.Kernel.Body0

end
-- ==== Proof.BitsBody1.lean ====
/-
  The body of the kernel (region 1) as pure data: what its loop of 64 trips leaves, in closed form.

  The body loads the block x of the first cloud (8192 points), fills a scratch row of 8192 entries with the word of
  +∞, and then runs 64 trips; trip k reads tile k of the second block y — its rows 128·k … 128·k + 127 — and makes two
  stores: into the row of column minima (the second output), at columns 128·k … 128·k + 127, the minimum over the 8192
  points of x of the scores against the tile's points; into the scratch row, whole, the minimum of what the row held
  with the minimum over the tile's points of the scores. After the loop the scratch row is stored, relaid, as the first
  output.

  `colList x y k` lists the stores of the first k trips into the row of column minima (last first); none of them
  depends on what any buffer held. `accFn x y k` is the scratch row after k trips, a pure function of x and y: the
  scratch is stored whole every trip, so what it held before the first fill never shows. The generated recursion over
  the trips (`pb_k1_t1`), whose pieces are stated over the buffers' contents at the loop's entry, is these two.
-/
import proofs.«176964_j13589276525289_1_alg».proof.Proof.Gen.Kernel.Loops
import Idealize.ShloMosaic.Lib.Pipeline.Value

set_option maxRecDepth 16384

noncomputable section

namespace Cert.Kernel.Body1

open Idealize.ShloMosaic Idealize.ShloMosaic.TcCoe Idealize.SL.Sem
open Cert.Kernel Cert.Kernel.Gen

variable {F : FTy → Type} [FloatOps F]

/-- Tile k of the second block: its rows 128·k … 128·k + 127. -/
abbrev tileOf (y : Vec F S1x8192x3 .f32) (k : Fin k1_t1_loop.trips) : Vec F S1x128x3 .f32 :=
  View.ld y (Rect.unit (s := S1x8192x3) (k1_off1 k) S1x128x3.size (k1_off1_inb k))

/-- The whole-row rectangle of the scratch. -/
abbrev accRect : Rect S8192 := Rect.unit (s := S8192) ![0] S8192.size inb_S8192_S8192_0

/-- Trip k's store into the row of column minima. -/
abbrev colPiece (x y : Vec F S1x8192x3 .f32) (k : Fin k1_t1_loop.trips) : View.Piece (Elt F) S1x1x8192 .f32 :=
  ⟨Rect.unit (s := S1x1x8192) (k1_off2 k) S1x1x128.size (k1_off2_inb k), k1_pay4 x (tileOf y k)⟩

/-- The stores of the first k trips into the row of column minima, last first. -/
def colList (x y : Vec F S1x8192x3 .f32) : ℕ → List (View.Piece (Elt F) S1x1x8192 .f32)
  | 0 => []
  | k + 1 => if h : k < k1_t1_loop.trips then colPiece x y ⟨k, h⟩ :: colList x y k else colList x y k

theorem colList_succ (x y : Vec F S1x8192x3 .f32) (k : Fin k1_t1_loop.trips) :
    colList x y (k.val + 1) = colPiece x y k :: colList x y k.val := by
  rw [colList]; exact dif_pos k.isLt

/-- The scratch row after the first k trips. -/
def accFn (x y : Vec F S1x8192x3 .f32) : ℕ → Vec F S8192 .f32
  | 0 => k1_pay1
  | k + 1 => if h : k < k1_t1_loop.trips then k1_pay3 x (tileOf y ⟨k, h⟩) (accFn x y k) else accFn x y k

theorem accFn_succ (x y : Vec F S1x8192x3 .f32) (k : Fin k1_t1_loop.trips) :
    accFn x y (k.val + 1) = k1_pay3 x (tileOf y k) (accFn x y k.val) := by
  rw [accFn]; exact dif_pos k.isLt

/-- The scratch row's rectangle starts at zero. -/
theorem hz1 : (![0] : Fin S8192.rank → Nat) = fun _ => 0 := funext fun a => by
  match a with
  | ⟨0, _⟩ => rfl

/-- A row stored whole reads back as what was stored, whatever lay under it. -/
theorem read_whole_cons (arg5 : Memref sig .tc .vmem S8192 .f32) (f : BufTy.Contents (Elt F) arg5.view.ty) (w : S8192.Idx → Elt F .f32)
    (L : List (View.Piece (Elt F) S8192 .f32)) :
    arg5.view.read (Elt F) (arg5.view.writes (Elt F) f ((⟨accRect, w⟩ : View.Piece (Elt F) S8192 .f32) :: L)) = w := by
  rw [View.read_writes_eq_canon _ _ _ (fun y => ⟨(⟨accRect, w⟩ : View.Piece (Elt F) S8192 .f32), List.mem_cons_self,
    View.mem_set_unit_zero hz1 inb_S8192_S8192_0 y⟩), View.canon_cons_unit_zero hz1]

section Trips

variable (𝒱 : Variants) (c : Dev nD) (bd : Option 𝒱.V) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty)

/-- What one trip writes into the row of column minima: one store, of the tile read through the second block's buffer. -/
theorem trip_col (k : Fin k1_t1_loop.trips) (f4 : BufTy.Contents (Elt F) arg4.view.ty) (f5 : BufTy.Contents (Elt F) arg5.view.ty) :
    (trip_k1_t1 (F := F) 𝒱 c bd i arg1 harg1 arg2 harg2 arg3 harg3 arg4 harg4 arg5 harg5 v0 X_arg2 k).1 f4 f5 = [colPiece v0 (arg2.view.read (Elt F) X_arg2) k] := by
  unfold trip_k1_t1
  rfl

/-- What one trip writes into the scratch row: one whole store, over what the trip finds there. -/
theorem trip_acc (k : Fin k1_t1_loop.trips) (f4 : BufTy.Contents (Elt F) arg4.view.ty) (f5 : BufTy.Contents (Elt F) arg5.view.ty) :
    (trip_k1_t1 (F := F) 𝒱 c bd i arg1 harg1 arg2 harg2 arg3 harg3 arg4 harg4 arg5 harg5 v0 X_arg2 k).2.1 f4 f5
      = [(⟨accRect, k1_pay3 v0 (tileOf (arg2.view.read (Elt F) X_arg2) k) (View.ld (arg5.view.read (Elt F) f5) accRect)⟩ : View.Piece (Elt F) S8192 .f32)] := by
  unfold trip_k1_t1
  rfl

variable (G4 : BufTy.Contents (Elt F) arg4.view.ty) (G5 : BufTy.Contents (Elt F) arg5.view.ty)

/-- The generated recursion's stores into the row of column minima are `colList`, whatever the buffers held. -/
theorem pb_col : ∀ (k : ℕ), k ≤ k1_t1_loop.trips →
    (pb_k1_t1 (F := F) 𝒱 c bd i arg1 harg1 arg2 harg2 arg3 harg3 arg4 harg4 arg5 harg5 v0 X_arg2 G4 G5 k).1 = colList v0 (arg2.view.read (Elt F) X_arg2) k
  | 0, _ => rfl
  | k + 1, hk => by
    have hk' : k < k1_t1_loop.trips := hk
    have e := pb_k1_t1_succ (F := F) 𝒱 c bd i arg1 harg1 arg2 harg2 arg3 harg3 arg4 harg4 arg5 harg5 v0 X_arg2 G4 G5 ⟨k, hk'⟩
    rw [show pb_k1_t1 (F := F) 𝒱 c bd i arg1 harg1 arg2 harg2 arg3 harg3 arg4 harg4 arg5 harg5 v0 X_arg2 G4 G5 (k + 1) = pb_k1_t1 (F := F) 𝒱 c bd i arg1 harg1 arg2 harg2 arg3 harg3 arg4 harg4 arg5 harg5 v0 X_arg2 G4 G5 ((⟨k, hk'⟩ : Fin k1_t1_loop.trips).val + 1) from rfl, e]
    dsimp only [tripL_k1_t1]
    rw [trip_col, colList_succ v0 _ ⟨k, hk'⟩, pb_col k (Nat.le_of_lt hk')]
    rfl

/-- The generated recursion's scratch row reads as `accFn`, once the row held the first fill at the loop's entry. -/
theorem pb_acc (hG5 : arg5.view.read (Elt F) G5 = k1_pay1 (F := F)) : ∀ (k : ℕ), k ≤ k1_t1_loop.trips →
    arg5.view.read (Elt F) (arg5.view.writes (Elt F) G5 (pb_k1_t1 (F := F) 𝒱 c bd i arg1 harg1 arg2 harg2 arg3 harg3 arg4 harg4 arg5 harg5 v0 X_arg2 G4 G5 k).2) = accFn v0 (arg2.view.read (Elt F) X_arg2) k
  | 0, _ => by
    show arg5.view.read (Elt F) (arg5.view.writes (Elt F) G5 []) = _
    rw [View.writes_nil, hG5]; rfl
  | k + 1, hk => by
    have hk' : k < k1_t1_loop.trips := hk
    have e := pb_k1_t1_succ (F := F) 𝒱 c bd i arg1 harg1 arg2 harg2 arg3 harg3 arg4 harg4 arg5 harg5 v0 X_arg2 G4 G5 ⟨k, hk'⟩
    rw [show pb_k1_t1 (F := F) 𝒱 c bd i arg1 harg1 arg2 harg2 arg3 harg3 arg4 harg4 arg5 harg5 v0 X_arg2 G4 G5 (k + 1) = pb_k1_t1 (F := F) 𝒱 c bd i arg1 harg1 arg2 harg2 arg3 harg3 arg4 harg4 arg5 harg5 v0 X_arg2 G4 G5 ((⟨k, hk'⟩ : Fin k1_t1_loop.trips).val + 1) from rfl, e]
    dsimp only [tripL_k1_t1]
    rw [trip_acc]
    show arg5.view.read (Elt F) (arg5.view.writes (Elt F) G5 ((⟨accRect, _⟩ : View.Piece (Elt F) S8192 .f32) :: _)) = _
    rw [read_whole_cons, accFn_succ v0 _ ⟨k, hk'⟩, View.ld_unit_zero hz1, pb_acc hG5 k (Nat.le_of_lt hk')]

end Trips

end Cert.Kernel.Body1

end
-- ==== Proof.BitsRun1.lean ====
/-
  The kernel body (region 1) run once on whole staging buffers, with what it leaves stated in closed form.

  On buffers holding the two blocks x and y — the outputs' and the scratch's at anything — the body runs to its end
  without a fault, leaves the two blocks in place, and leaves
    in the first output's buffer ONE whole store: the scratch row after all 64 trips, relaid [1, 1, 8192];
    in the second output's buffer the 64 stores of the trips, one per tile of 128 columns.
  Both are functions of x and y alone (Body1's `accFn` and `colList`): the loop's recursion over its trips is stated
  over what the second output's buffer held at the loop's entry, which the stores never read, and the scratch is filled
  whole before the loop. The stores of the 64 trips tile the row of column minima, so every entry of both outputs is
  covered.
-/
import proofs.«176964_j13589276525289_1_alg».proof.Proof.BitsBody1
import proofs.«176964_j13589276525289_1_alg».proof.Proof.Gen.Kernel.Launch
import proofs.«176964_j13589276525289_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- A block's rectangle starts at zero. -/
theorem hz3 : (![0, 0, 0] : Fin S1x8192x3.rank → Nat) = fun _ => 0 := funext fun a => by
  match a with
  | ⟨0, _⟩ => rfl
  | ⟨1, _⟩ => rfl
  | ⟨2, _⟩ => rfl

/-- The first output's one store: the scratch row after the last trip, relaid. -/
abbrev rowPiece (x y : Vec F S1x8192x3 .f32) : View.Piece (Elt F) S1x1x8192 .f32 :=
  ⟨Rect.unit (s := S1x1x8192) ![0, 0, 0] S1x1x8192.size inb_S1x1x8192_S1x1x8192_0_0_0, k1_pay5 (accFn x y k1_t1_loop.trips)⟩

/-- The scratch row as the body loads it after the loop: the row after the trips, the first fill beneath them. -/
theorem final_row (𝒱 : Variants) (c : Dev nD) (bd : Option 𝒱.V) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty) (G4 : BufTy.Contents (Elt F) arg4.view.ty) (k : ℕ) (hk : k ≤ k1_t1_loop.trips) :
    View.readAt (Elt F) arg5.view accRect.toLoadRect
        (arg5.view.writes (Elt F) arg5.view.junk
          ((pb_k1_t1 (F := F) 𝒱 c bd i arg1 harg1 arg2 harg2 arg3 harg3 arg4 harg4 arg5 harg5 v0 X_arg2 G4 (arg5.view.writes (Elt F) arg5.view.junk [(⟨accRect, k1_pay1⟩ : View.Piece (Elt F) S8192 .f32)]) k).2
            ++ [(⟨accRect, k1_pay1⟩ : View.Piece (Elt F) S8192 .f32)]))
      = accFn v0 (arg2.view.read (Elt F) X_arg2) k := by
  rw [View.readAt_eq_ld, View.writes_append, View.ld_unit_zero hz1]
  exact pb_acc 𝒱 c bd i arg1 harg1 arg2 harg2 arg3 harg3 arg4 harg4 arg5 harg5 v0 X_arg2 G4 _ (read_whole_cons arg5 _ _ []) k hk

set_option maxHeartbeats 4000000 in
/-- The body on whole staging buffers. -/
theorem body_run (c : Dev nD) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 : Vec F S1x8192x3 .f32) (x1 : Vec F S1x8192x3 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ (∃ f, arg3.view.loc (c : Thread nD τ) ↦[arg3.view.set]{fullShare} arg3.view.writes (Elt F) f [rowPiece x0 x1]) ∗ (∃ f, arg4.view.loc (c : Thread nD τ) ↦[arg4.view.set]{fullShare} arg4.view.writes (Elt F) f (colList x0 x1 k1_t1_loop.trips)) ∗ (∃ d, owns (c : Thread nD τ) arg5 fullShare d)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%ds0, %fs0, -, HS0⟩, Hk⟩
  obtain rfl := harg1.eq_unread hf0; obtain rfl := harg2.eq_unread hf1
  sl_exec
  sl_step
  have hv0 : View.readAt (Elt F) arg1.view (Rect.unit (s := S1x8192x3) ![0, 0, 0] S1x8192x3.size inb_S1x8192x3_S1x8192x3_0_0_0).toLoadRect (harg1.unread x0) = x0 := by
    rw [View.readAt_eq_ld, hf0, View.ld_unit_zero hz3]
  sl_unfold_run_names
  rw [hv0]
  rw [pb_col (F := F) Variants.none c none i arg1 harg1 arg2 harg2 arg3 harg3 arg4 harg4 arg5 harg5 x0 (harg2.unread x1) f3 _
    (Scf.trips k1_t1_loop.lb k1_t1_loop.ub k1_t1_loop.st) (le_refl _)]
  rw [final_row (F := F) Variants.none c none i arg1 harg1 arg2 harg2 arg3 harg3 arg4 harg4 arg5 harg5 x0 (harg2.unread x1) f3
    (Scf.trips k1_t1_loop.lb k1_t1_loop.ub k1_t1_loop.st) (le_refl _)]
  rw [hf1]
  iapply Hk
  isplitl [H0]
  · iexists _; isplitr; · ipureintro; exact hf0
    iexact H0
  isplitl [H1]
  · iexists _; isplitr; · ipureintro; exact hf1
    iexact H1
  isplitl [H2]; · iexists _; iexact H2
  isplitl [H3]; · iexists _; iexact H3
  iexists _, _; isplitr; swap; · iexact HS0
  ipureintro; rfl

/-! ## Every entry of both outputs is stored -/

/-- The first output's one store covers its row. -/
theorem cover_row (x y : Vec F S1x8192x3 .f32) (yy : S1x1x8192.Idx) : ∃ pc ∈ [rowPiece x y], yy ∈ pc.1.set :=
  ⟨rowPiece x y, List.mem_singleton_self _, View.mem_set_unit_zero (S := S1x1x8192) hz3 inb_S1x1x8192_S1x1x8192_0_0_0 yy⟩

/-- The store of a trip before the K-th is in the list after K trips. -/
theorem colPiece_mem (x y : Vec F S1x8192x3 .f32) : ∀ (K : ℕ), K ≤ k1_t1_loop.trips → ∀ k : Fin k1_t1_loop.trips, k.val < K →
    colPiece x y k ∈ colList x y K
  | 0, _, k, h => absurd h (Nat.not_lt_zero _)
  | K + 1, hK, k, h => by
    have hK' : K < k1_t1_loop.trips := hK
    rw [show colList x y (K + 1) = colList x y ((⟨K, hK'⟩ : Fin k1_t1_loop.trips).val + 1) from rfl, colList_succ]
    by_cases e : k.val = K
    · have : k = ⟨K, hK'⟩ := Fin.ext e
      subst this
      exact List.mem_cons_self
    · exact List.mem_cons_of_mem _ (colPiece_mem x y K (Nat.le_of_lt hK') k (by omega))

/-- The loop runs 64 trips. -/
theorem trips_eq : k1_t1_loop.trips = 64 := by decide +kernel

/-- The 64 stores of the trips tile the row of column minima: column m lies in the store of trip m / 128. -/
theorem cover_col (x y : Vec F S1x8192x3 .f32) (yy : S1x1x8192.Idx) : ∃ pc ∈ colList x y k1_t1_loop.trips, yy ∈ pc.1.set := by
  have h0 : (yy 0).val < 1 := (yy 0).isLt
  have h1 : (yy 1).val < 1 := (yy 1).isLt
  have h2 : (yy 2).val < 8192 := (yy 2).isLt
  have hk : (yy 2).val / 128 < k1_t1_loop.trips := by rw [trips_eq]; omega
  refine ⟨colPiece x y ⟨(yy 2).val / 128, hk⟩, colPiece_mem x y _ (le_refl _) _ hk, ?_⟩
  rw [Rect.mem_set_unit, k1_off2_eq]
  intro a
  match a with
  | ⟨0, _⟩ => exact ⟨Nat.zero_le _, by show (yy 0).val < 0 + 1; omega⟩
  | ⟨1, _⟩ => exact ⟨Nat.zero_le _, by show (yy 1).val < 0 + 1; omega⟩
  | ⟨2, _⟩ => exact ⟨by show 128 * ((yy 2).val / 128) ≤ (yy 2).val; omega, by show (yy 2).val < 128 * ((yy 2).val / 128) + 128; omega⟩

end Cert.Kernel.Body1

end
-- ==== Proof.Body0.lean ====
/-
  The body of the kernel (region 0) as pure data: what its loop of 64 trips leaves, in closed form.

  The body loads the block x of the first cloud (8192 points), fills a scratch row of 8192 entries with the word of
  +∞, and then runs 64 trips; trip k reads tile k of the second block y — its rows 128·k … 128·k + 127 — and makes two
  stores: into the row of column minima (the second output), at columns 128·k … 128·k + 127, the minimum over the 8192
  points of x of the scores against the tile's points; into the scratch row, whole, the minimum of what the row held
  with the minimum over the tile's points of the scores. After the loop the scratch row is stored, relaid, as the first
  output.

  `colList x y k` lists the stores of the first k trips into the row of column minima (last first); none of them
  depends on what any buffer held. `accFn x y k` is the scratch row after k trips, a pure function of x and y: the
  scratch is stored whole every trip, so what it held before the first fill never shows. The generated recursion over
  the trips (`pb_k0_t1`), whose pieces are stated over the buffers' contents at the loop's entry, is these two.
-/
import proofs.«176964_j13589276525289_1_alg».proof.Proof.Gen.KernelIdeal.Loops
import Idealize.ShloMosaic.Lib.Pipeline.Value

set_option maxRecDepth 16384

noncomputable section

namespace Cert.KernelIdeal.Body0

open Idealize.ShloMosaic Idealize.ShloMosaic.TcCoe Idealize.SL.Sem
open Cert.KernelIdeal Cert.KernelIdeal.Gen

variable {F : FTy → Type} [FloatOps F]

/-- Tile k of the second block: its rows 128·k … 128·k + 127. -/
abbrev tileOf (y : Vec F S1x8192x3 .f32) (k : Fin k0_t1_loop.trips) : Vec F S1x128x3 .f32 :=
  View.ld y (Rect.unit (s := S1x8192x3) (k0_off1 k) S1x128x3.size (k0_off1_inb k))

/-- The whole-row rectangle of the scratch. -/
abbrev accRect : Rect S8192 := Rect.unit (s := S8192) ![0] S8192.size inb_S8192_S8192_0

/-- Trip k's store into the row of column minima. -/
abbrev colPiece (x y : Vec F S1x8192x3 .f32) (k : Fin k0_t1_loop.trips) : View.Piece (Elt F) S1x1x8192 .f32 :=
  ⟨Rect.unit (s := S1x1x8192) (k0_off2 k) S1x1x128.size (k0_off2_inb k), k0_pay4 x (tileOf y k)⟩

/-- The stores of the first k trips into the row of column minima, last first. -/
def colList (x y : Vec F S1x8192x3 .f32) : ℕ → List (View.Piece (Elt F) S1x1x8192 .f32)
  | 0 => []
  | k + 1 => if h : k < k0_t1_loop.trips then colPiece x y ⟨k, h⟩ :: colList x y k else colList x y k

theorem colList_succ (x y : Vec F S1x8192x3 .f32) (k : Fin k0_t1_loop.trips) :
    colList x y (k.val + 1) = colPiece x y k :: colList x y k.val := by
  rw [colList]; exact dif_pos k.isLt

/-- The scratch row after the first k trips. -/
def accFn (x y : Vec F S1x8192x3 .f32) : ℕ → Vec F S8192 .f32
  | 0 => k0_pay1
  | k + 1 => if h : k < k0_t1_loop.trips then k0_pay3 x (tileOf y ⟨k, h⟩) (accFn x y k) else accFn x y k

theorem accFn_succ (x y : Vec F S1x8192x3 .f32) (k : Fin k0_t1_loop.trips) :
    accFn x y (k.val + 1) = k0_pay3 x (tileOf y k) (accFn x y k.val) := by
  rw [accFn]; exact dif_pos k.isLt

/-- The scratch row's rectangle starts at zero. -/
theorem hz1 : (![0] : Fin S8192.rank → Nat) = fun _ => 0 := funext fun a => by
  match a with
  | ⟨0, _⟩ => rfl

/-- A row stored whole reads back as what was stored, whatever lay under it. -/
theorem read_whole_cons (arg5 : Memref sig .tc .vmem S8192 .f32) (f : BufTy.Contents (Elt F) arg5.view.ty) (w : S8192.Idx → Elt F .f32)
    (L : List (View.Piece (Elt F) S8192 .f32)) :
    arg5.view.read (Elt F) (arg5.view.writes (Elt F) f ((⟨accRect, w⟩ : View.Piece (Elt F) S8192 .f32) :: L)) = w := by
  rw [View.read_writes_eq_canon _ _ _ (fun y => ⟨(⟨accRect, w⟩ : View.Piece (Elt F) S8192 .f32), List.mem_cons_self,
    View.mem_set_unit_zero hz1 inb_S8192_S8192_0 y⟩), View.canon_cons_unit_zero hz1]

section Trips

variable (𝒱 : Variants) (c : Dev nD) (bd : Option 𝒱.V) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty)

/-- What one trip writes into the row of column minima: one store, of the tile read through the second block's buffer. -/
theorem trip_col (k : Fin k0_t1_loop.trips) (f4 : BufTy.Contents (Elt F) arg4.view.ty) (f5 : BufTy.Contents (Elt F) arg5.view.ty) :
    (trip_k0_t1 (F := F) 𝒱 c bd i arg1 harg1 arg2 harg2 arg3 harg3 arg4 harg4 arg5 harg5 v0 X_arg2 k).1 f4 f5 = [colPiece v0 (arg2.view.read (Elt F) X_arg2) k] := by
  unfold trip_k0_t1
  rfl

/-- What one trip writes into the scratch row: one whole store, over what the trip finds there. -/
theorem trip_acc (k : Fin k0_t1_loop.trips) (f4 : BufTy.Contents (Elt F) arg4.view.ty) (f5 : BufTy.Contents (Elt F) arg5.view.ty) :
    (trip_k0_t1 (F := F) 𝒱 c bd i arg1 harg1 arg2 harg2 arg3 harg3 arg4 harg4 arg5 harg5 v0 X_arg2 k).2.1 f4 f5
      = [(⟨accRect, k0_pay3 v0 (tileOf (arg2.view.read (Elt F) X_arg2) k) (View.ld (arg5.view.read (Elt F) f5) accRect)⟩ : View.Piece (Elt F) S8192 .f32)] := by
  unfold trip_k0_t1
  rfl

variable (G4 : BufTy.Contents (Elt F) arg4.view.ty) (G5 : BufTy.Contents (Elt F) arg5.view.ty)

/-- The generated recursion's stores into the row of column minima are `colList`, whatever the buffers held. -/
theorem pb_col : ∀ (k : ℕ), k ≤ k0_t1_loop.trips →
    (pb_k0_t1 (F := F) 𝒱 c bd i arg1 harg1 arg2 harg2 arg3 harg3 arg4 harg4 arg5 harg5 v0 X_arg2 G4 G5 k).1 = colList v0 (arg2.view.read (Elt F) X_arg2) k
  | 0, _ => rfl
  | k + 1, hk => by
    have hk' : k < k0_t1_loop.trips := hk
    have e := pb_k0_t1_succ (F := F) 𝒱 c bd i arg1 harg1 arg2 harg2 arg3 harg3 arg4 harg4 arg5 harg5 v0 X_arg2 G4 G5 ⟨k, hk'⟩
    rw [show pb_k0_t1 (F := F) 𝒱 c bd i arg1 harg1 arg2 harg2 arg3 harg3 arg4 harg4 arg5 harg5 v0 X_arg2 G4 G5 (k + 1) = pb_k0_t1 (F := F) 𝒱 c bd i arg1 harg1 arg2 harg2 arg3 harg3 arg4 harg4 arg5 harg5 v0 X_arg2 G4 G5 ((⟨k, hk'⟩ : Fin k0_t1_loop.trips).val + 1) from rfl, e]
    dsimp only [tripL_k0_t1]
    rw [trip_col, colList_succ v0 _ ⟨k, hk'⟩, pb_col k (Nat.le_of_lt hk')]
    rfl

/-- The generated recursion's scratch row reads as `accFn`, once the row held the first fill at the loop's entry. -/
theorem pb_acc (hG5 : arg5.view.read (Elt F) G5 = k0_pay1 (F := F)) : ∀ (k : ℕ), k ≤ k0_t1_loop.trips →
    arg5.view.read (Elt F) (arg5.view.writes (Elt F) G5 (pb_k0_t1 (F := F) 𝒱 c bd i arg1 harg1 arg2 harg2 arg3 harg3 arg4 harg4 arg5 harg5 v0 X_arg2 G4 G5 k).2) = accFn v0 (arg2.view.read (Elt F) X_arg2) k
  | 0, _ => by
    show arg5.view.read (Elt F) (arg5.view.writes (Elt F) G5 []) = _
    rw [View.writes_nil, hG5]; rfl
  | k + 1, hk => by
    have hk' : k < k0_t1_loop.trips := hk
    have e := pb_k0_t1_succ (F := F) 𝒱 c bd i arg1 harg1 arg2 harg2 arg3 harg3 arg4 harg4 arg5 harg5 v0 X_arg2 G4 G5 ⟨k, hk'⟩
    rw [show pb_k0_t1 (F := F) 𝒱 c bd i arg1 harg1 arg2 harg2 arg3 harg3 arg4 harg4 arg5 harg5 v0 X_arg2 G4 G5 (k + 1) = pb_k0_t1 (F := F) 𝒱 c bd i arg1 harg1 arg2 harg2 arg3 harg3 arg4 harg4 arg5 harg5 v0 X_arg2 G4 G5 ((⟨k, hk'⟩ : Fin k0_t1_loop.trips).val + 1) from rfl, e]
    dsimp only [tripL_k0_t1]
    rw [trip_acc]
    show arg5.view.read (Elt F) (arg5.view.writes (Elt F) G5 ((⟨accRect, _⟩ : View.Piece (Elt F) S8192 .f32) :: _)) = _
    rw [read_whole_cons, accFn_succ v0 _ ⟨k, hk'⟩, View.ld_unit_zero hz1, pb_acc hG5 k (Nat.le_of_lt hk')]

end Trips

end Cert.KernelIdeal.Body0

end
-- ==== Proof.Run0.lean ====
/-
  The kernel body (region 0) run once on whole staging buffers, with what it leaves stated in closed form.

  On buffers holding the two blocks x and y — the outputs' and the scratch's at anything — the body runs to its end
  without a fault, leaves the two blocks in place, and leaves
    in the first output's buffer ONE whole store: the scratch row after all 64 trips, relaid [1, 1, 8192];
    in the second output's buffer the 64 stores of the trips, one per tile of 128 columns.
  Both are functions of x and y alone (Body0's `accFn` and `colList`): the loop's recursion over its trips is stated
  over what the second output's buffer held at the loop's entry, which the stores never read, and the scratch is filled
  whole before the loop. The stores of the 64 trips tile the row of column minima, so every entry of both outputs is
  covered.
-/
import proofs.«176964_j13589276525289_1_alg».proof.Proof.Body0
import proofs.«176964_j13589276525289_1_alg».proof.Proof.Gen.KernelIdeal.Launch
import proofs.«176964_j13589276525289_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A block's rectangle starts at zero. -/
theorem hz3 : (![0, 0, 0] : Fin S1x8192x3.rank → Nat) = fun _ => 0 := funext fun a => by
  match a with
  | ⟨0, _⟩ => rfl
  | ⟨1, _⟩ => rfl
  | ⟨2, _⟩ => rfl

/-- The first output's one store: the scratch row after the last trip, relaid. -/
abbrev rowPiece (x y : Vec F S1x8192x3 .f32) : View.Piece (Elt F) S1x1x8192 .f32 :=
  ⟨Rect.unit (s := S1x1x8192) ![0, 0, 0] S1x1x8192.size inb_S1x1x8192_S1x1x8192_0_0_0, k0_pay5 (accFn x y k0_t1_loop.trips)⟩

/-- The scratch row as the body loads it after the loop: the row after the trips, the first fill beneath them. -/
theorem final_row (𝒱 : Variants) (c : Dev nD) (bd : Option 𝒱.V) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty) (G4 : BufTy.Contents (Elt F) arg4.view.ty) (k : ℕ) (hk : k ≤ k0_t1_loop.trips) :
    View.readAt (Elt F) arg5.view accRect.toLoadRect
        (arg5.view.writes (Elt F) arg5.view.junk
          ((pb_k0_t1 (F := F) 𝒱 c bd i arg1 harg1 arg2 harg2 arg3 harg3 arg4 harg4 arg5 harg5 v0 X_arg2 G4 (arg5.view.writes (Elt F) arg5.view.junk [(⟨accRect, k0_pay1⟩ : View.Piece (Elt F) S8192 .f32)]) k).2
            ++ [(⟨accRect, k0_pay1⟩ : View.Piece (Elt F) S8192 .f32)]))
      = accFn v0 (arg2.view.read (Elt F) X_arg2) k := by
  rw [View.readAt_eq_ld, View.writes_append, View.ld_unit_zero hz1]
  exact pb_acc 𝒱 c bd i arg1 harg1 arg2 harg2 arg3 harg3 arg4 harg4 arg5 harg5 v0 X_arg2 G4 _ (read_whole_cons arg5 _ _ []) k hk

set_option maxHeartbeats 4000000 in
/-- The body on whole staging buffers. -/
theorem body_run (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 : Vec F S1x8192x3 .f32) (x1 : Vec F S1x8192x3 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ (∃ f, arg3.view.loc (c : Thread nD τ) ↦[arg3.view.set]{fullShare} arg3.view.writes (Elt F) f [rowPiece x0 x1]) ∗ (∃ f, arg4.view.loc (c : Thread nD τ) ↦[arg4.view.set]{fullShare} arg4.view.writes (Elt F) f (colList x0 x1 k0_t1_loop.trips)) ∗ (∃ d, owns (c : Thread nD τ) arg5 fullShare d)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, ⟨%ds0, %fs0, -, HS0⟩, Hk⟩
  obtain rfl := harg1.eq_unread hf0; obtain rfl := harg2.eq_unread hf1
  sl_exec
  sl_step
  have hv0 : View.readAt (Elt F) arg1.view (Rect.unit (s := S1x8192x3) ![0, 0, 0] S1x8192x3.size inb_S1x8192x3_S1x8192x3_0_0_0).toLoadRect (harg1.unread x0) = x0 := by
    rw [View.readAt_eq_ld, hf0, View.ld_unit_zero hz3]
  sl_unfold_run_names
  rw [hv0]
  rw [pb_col (F := F) Variants.none c none i arg1 harg1 arg2 harg2 arg3 harg3 arg4 harg4 arg5 harg5 x0 (harg2.unread x1) f3 _
    (Scf.trips k0_t1_loop.lb k0_t1_loop.ub k0_t1_loop.st) (le_refl _)]
  rw [final_row (F := F) Variants.none c none i arg1 harg1 arg2 harg2 arg3 harg3 arg4 harg4 arg5 harg5 x0 (harg2.unread x1) f3
    (Scf.trips k0_t1_loop.lb k0_t1_loop.ub k0_t1_loop.st) (le_refl _)]
  rw [hf1]
  iapply Hk
  isplitl [H0]
  · iexists _; isplitr; · ipureintro; exact hf0
    iexact H0
  isplitl [H1]
  · iexists _; isplitr; · ipureintro; exact hf1
    iexact H1
  isplitl [H2]; · iexists _; iexact H2
  isplitl [H3]; · iexists _; iexact H3
  iexists _, _; isplitr; swap; · iexact HS0
  ipureintro; rfl

/-! ## Every entry of both outputs is stored -/

/-- The first output's one store covers its row. -/
theorem cover_row (x y : Vec F S1x8192x3 .f32) (yy : S1x1x8192.Idx) : ∃ pc ∈ [rowPiece x y], yy ∈ pc.1.set :=
  ⟨rowPiece x y, List.mem_singleton_self _, View.mem_set_unit_zero (S := S1x1x8192) hz3 inb_S1x1x8192_S1x1x8192_0_0_0 yy⟩

/-- The store of a trip before the K-th is in the list after K trips. -/
theorem colPiece_mem (x y : Vec F S1x8192x3 .f32) : ∀ (K : ℕ), K ≤ k0_t1_loop.trips → ∀ k : Fin k0_t1_loop.trips, k.val < K →
    colPiece x y k ∈ colList x y K
  | 0, _, k, h => absurd h (Nat.not_lt_zero _)
  | K + 1, hK, k, h => by
    have hK' : K < k0_t1_loop.trips := hK
    rw [show colList x y (K + 1) = colList x y ((⟨K, hK'⟩ : Fin k0_t1_loop.trips).val + 1) from rfl, colList_succ]
    by_cases e : k.val = K
    · have : k = ⟨K, hK'⟩ := Fin.ext e
      subst this
      exact List.mem_cons_self
    · exact List.mem_cons_of_mem _ (colPiece_mem x y K (Nat.le_of_lt hK') k (by omega))

/-- The loop runs 64 trips. -/
theorem trips_eq : k0_t1_loop.trips = 64 := by decide +kernel

/-- The 64 stores of the trips tile the row of column minima: column m lies in the store of trip m / 128. -/
theorem cover_col (x y : Vec F S1x8192x3 .f32) (yy : S1x1x8192.Idx) : ∃ pc ∈ colList x y k0_t1_loop.trips, yy ∈ pc.1.set := by
  have h0 : (yy 0).val < 1 := (yy 0).isLt
  have h1 : (yy 1).val < 1 := (yy 1).isLt
  have h2 : (yy 2).val < 8192 := (yy 2).isLt
  have hk : (yy 2).val / 128 < k0_t1_loop.trips := by rw [trips_eq]; omega
  refine ⟨colPiece x y ⟨(yy 2).val / 128, hk⟩, colPiece_mem x y _ (le_refl _) _ hk, ?_⟩
  rw [Rect.mem_set_unit, k0_off2_eq]
  intro a
  match a with
  | ⟨0, _⟩ => exact ⟨Nat.zero_le _, by show (yy 0).val < 0 + 1; omega⟩
  | ⟨1, _⟩ => exact ⟨Nat.zero_le _, by show (yy 1).val < 0 + 1; omega⟩
  | ⟨2, _⟩ => exact ⟨by show 128 * ((yy 2).val / 128) ≤ (yy 2).val; omega, by show (yy 2).val < 128 * ((yy 2).val / 128) + 128; omega⟩

end Cert.KernelIdeal.Body0

end
-- ==== Proof.Body1.lean ====
/-
  The body of the kernel (region 1) as pure data: what its loop of 64 trips leaves, in closed form.

  The body loads the block x of the first cloud (8192 points), fills a scratch row of 8192 entries with the word of
  +∞, and then runs 64 trips; trip k reads tile k of the second block y — its rows 128·k … 128·k + 127 — and makes two
  stores: into the row of column minima (the second output), at columns 128·k … 128·k + 127, the minimum over the 8192
  points of x of the scores against the tile's points; into the scratch row, whole, the minimum of what the row held
  with the minimum over the tile's points of the scores. After the loop the scratch row is stored, relaid, as the first
  output.

  `colList x y k` lists the stores of the first k trips into the row of column minima (last first); none of them
  depends on what any buffer held. `accFn x y k` is the scratch row after k trips, a pure function of x and y: the
  scratch is stored whole every trip, so what it held before the first fill never shows. The generated recursion over
  the trips (`pb_k1_t1`), whose pieces are stated over the buffers' contents at the loop's entry, is these two.
-/
import proofs.«176964_j13589276525289_1_alg».proof.Proof.Gen.KernelIdeal.Loops
import Idealize.ShloMosaic.Lib.Pipeline.Value

set_option maxRecDepth 16384

noncomputable section

namespace Cert.KernelIdeal.Body1

open Idealize.ShloMosaic Idealize.ShloMosaic.TcCoe Idealize.SL.Sem
open Cert.KernelIdeal Cert.KernelIdeal.Gen

variable {F : FTy → Type} [FloatOps F]

/-- Tile k of the second block: its rows 128·k … 128·k + 127. -/
abbrev tileOf (y : Vec F S1x8192x3 .f32) (k : Fin k1_t1_loop.trips) : Vec F S1x128x3 .f32 :=
  View.ld y (Rect.unit (s := S1x8192x3) (k1_off1 k) S1x128x3.size (k1_off1_inb k))

/-- The whole-row rectangle of the scratch. -/
abbrev accRect : Rect S8192 := Rect.unit (s := S8192) ![0] S8192.size inb_S8192_S8192_0

/-- Trip k's store into the row of column minima. -/
abbrev colPiece (x y : Vec F S1x8192x3 .f32) (k : Fin k1_t1_loop.trips) : View.Piece (Elt F) S1x1x8192 .f32 :=
  ⟨Rect.unit (s := S1x1x8192) (k1_off2 k) S1x1x128.size (k1_off2_inb k), k1_pay4 x (tileOf y k)⟩

/-- The stores of the first k trips into the row of column minima, last first. -/
def colList (x y : Vec F S1x8192x3 .f32) : ℕ → List (View.Piece (Elt F) S1x1x8192 .f32)
  | 0 => []
  | k + 1 => if h : k < k1_t1_loop.trips then colPiece x y ⟨k, h⟩ :: colList x y k else colList x y k

theorem colList_succ (x y : Vec F S1x8192x3 .f32) (k : Fin k1_t1_loop.trips) :
    colList x y (k.val + 1) = colPiece x y k :: colList x y k.val := by
  rw [colList]; exact dif_pos k.isLt

/-- The scratch row after the first k trips. -/
def accFn (x y : Vec F S1x8192x3 .f32) : ℕ → Vec F S8192 .f32
  | 0 => k1_pay1
  | k + 1 => if h : k < k1_t1_loop.trips then k1_pay3 x (tileOf y ⟨k, h⟩) (accFn x y k) else accFn x y k

theorem accFn_succ (x y : Vec F S1x8192x3 .f32) (k : Fin k1_t1_loop.trips) :
    accFn x y (k.val + 1) = k1_pay3 x (tileOf y k) (accFn x y k.val) := by
  rw [accFn]; exact dif_pos k.isLt

/-- The scratch row's rectangle starts at zero. -/
theorem hz1 : (![0] : Fin S8192.rank → Nat) = fun _ => 0 := funext fun a => by
  match a with
  | ⟨0, _⟩ => rfl

/-- A row stored whole reads back as what was stored, whatever lay under it. -/
theorem read_whole_cons (arg5 : Memref sig .tc .vmem S8192 .f32) (f : BufTy.Contents (Elt F) arg5.view.ty) (w : S8192.Idx → Elt F .f32)
    (L : List (View.Piece (Elt F) S8192 .f32)) :
    arg5.view.read (Elt F) (arg5.view.writes (Elt F) f ((⟨accRect, w⟩ : View.Piece (Elt F) S8192 .f32) :: L)) = w := by
  rw [View.read_writes_eq_canon _ _ _ (fun y => ⟨(⟨accRect, w⟩ : View.Piece (Elt F) S8192 .f32), List.mem_cons_self,
    View.mem_set_unit_zero hz1 inb_S8192_S8192_0 y⟩), View.canon_cons_unit_zero hz1]

section Trips

variable (𝒱 : Variants) (c : Dev nD) (bd : Option 𝒱.V) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty)

/-- What one trip writes into the row of column minima: one store, of the tile read through the second block's buffer. -/
theorem trip_col (k : Fin k1_t1_loop.trips) (f4 : BufTy.Contents (Elt F) arg4.view.ty) (f5 : BufTy.Contents (Elt F) arg5.view.ty) :
    (trip_k1_t1 (F := F) 𝒱 c bd i arg1 harg1 arg2 harg2 arg3 harg3 arg4 harg4 arg5 harg5 v0 X_arg2 k).1 f4 f5 = [colPiece v0 (arg2.view.read (Elt F) X_arg2) k] := by
  unfold trip_k1_t1
  rfl

/-- What one trip writes into the scratch row: one whole store, over what the trip finds there. -/
theorem trip_acc (k : Fin k1_t1_loop.trips) (f4 : BufTy.Contents (Elt F) arg4.view.ty) (f5 : BufTy.Contents (Elt F) arg5.view.ty) :
    (trip_k1_t1 (F := F) 𝒱 c bd i arg1 harg1 arg2 harg2 arg3 harg3 arg4 harg4 arg5 harg5 v0 X_arg2 k).2.1 f4 f5
      = [(⟨accRect, k1_pay3 v0 (tileOf (arg2.view.read (Elt F) X_arg2) k) (View.ld (arg5.view.read (Elt F) f5) accRect)⟩ : View.Piece (Elt F) S8192 .f32)] := by
  unfold trip_k1_t1
  rfl

variable (G4 : BufTy.Contents (Elt F) arg4.view.ty) (G5 : BufTy.Contents (Elt F) arg5.view.ty)

/-- The generated recursion's stores into the row of column minima are `colList`, whatever the buffers held. -/
theorem pb_col : ∀ (k : ℕ), k ≤ k1_t1_loop.trips →
    (pb_k1_t1 (F := F) 𝒱 c bd i arg1 harg1 arg2 harg2 arg3 harg3 arg4 harg4 arg5 harg5 v0 X_arg2 G4 G5 k).1 = colList v0 (arg2.view.read (Elt F) X_arg2) k
  | 0, _ => rfl
  | k + 1, hk => by
    have hk' : k < k1_t1_loop.trips := hk
    have e := pb_k1_t1_succ (F := F) 𝒱 c bd i arg1 harg1 arg2 harg2 arg3 harg3 arg4 harg4 arg5 harg5 v0 X_arg2 G4 G5 ⟨k, hk'⟩
    rw [show pb_k1_t1 (F := F) 𝒱 c bd i arg1 harg1 arg2 harg2 arg3 harg3 arg4 harg4 arg5 harg5 v0 X_arg2 G4 G5 (k + 1) = pb_k1_t1 (F := F) 𝒱 c bd i arg1 harg1 arg2 harg2 arg3 harg3 arg4 harg4 arg5 harg5 v0 X_arg2 G4 G5 ((⟨k, hk'⟩ : Fin k1_t1_loop.trips).val + 1) from rfl, e]
    dsimp only [tripL_k1_t1]
    rw [trip_col, colList_succ v0 _ ⟨k, hk'⟩, pb_col k (Nat.le_of_lt hk')]
    rfl

/-- The generated recursion's scratch row reads as `accFn`, once the row held the first fill at the loop's entry. -/
theorem pb_acc (hG5 : arg5.view.read (Elt F) G5 = k1_pay1 (F := F)) : ∀ (k : ℕ), k ≤ k1_t1_loop.trips →
    arg5.view.read (Elt F) (arg5.view.writes (Elt F) G5 (pb_k1_t1 (F := F) 𝒱 c bd i arg1 harg1 arg2 harg2 arg3 harg3 arg4 harg4 arg5 harg5 v0 X_arg2 G4 G5 k).2) = accFn v0 (arg2.view.read (Elt F) X_arg2) k
  | 0, _ => by
    show arg5.view.read (Elt F) (arg5.view.writes (Elt F) G5 []) = _
    rw [View.writes_nil, hG5]; rfl
  | k + 1, hk => by
    have hk' : k < k1_t1_loop.trips := hk
    have e := pb_k1_t1_succ (F := F) 𝒱 c bd i arg1 harg1 arg2 harg2 arg3 harg3 arg4 harg4 arg5 harg5 v0 X_arg2 G4 G5 ⟨k, hk'⟩
    rw [show pb_k1_t1 (F := F) 𝒱 c bd i arg1 harg1 arg2 harg2 arg3 harg3 arg4 harg4 arg5 harg5 v0 X_arg2 G4 G5 (k + 1) = pb_k1_t1 (F := F) 𝒱 c bd i arg1 harg1 arg2 harg2 arg3 harg3 arg4 harg4 arg5 harg5 v0 X_arg2 G4 G5 ((⟨k, hk'⟩ : Fin k1_t1_loop.trips).val + 1) from rfl, e]
    dsimp only [tripL_k1_t1]
    rw [trip_acc]
    show arg5.view.read (Elt F) (arg5.view.writes (Elt F) G5 ((⟨accRect, _⟩ : View.Piece (Elt F) S8192 .f32) :: _)) = _
    rw [read_whole_cons, accFn_succ v0 _ ⟨k, hk'⟩, View.ld_unit_zero hz1, pb_acc hG5 k (Nat.le_of_lt hk')]

end Trips

end Cert.KernelIdeal.Body1

end
-- ==== Proof.Run1.lean ====
/-
  The kernel body (region 1) run once on whole staging buffers, with what it leaves stated in closed form.

  On buffers holding the two blocks x and y — the outputs' and the scratch's at anything — the body runs to its end
  without a fault, leaves the two blocks in place, and leaves
    in the first output's buffer ONE whole store: the scratch row after all 64 trips, relaid [1, 1, 8192];
    in the second output's buffer the 64 stores of the trips, one per tile of 128 columns.
  Both are functions of x and y alone (Body1's `accFn` and `colList`): the loop's recursion over its trips is stated
  over what the second output's buffer held at the loop's entry, which the stores never read, and the scratch is filled
  whole before the loop. The stores of the 64 trips tile the row of column minima, so every entry of both outputs is
  covered.
-/
import proofs.«176964_j13589276525289_1_alg».proof.Proof.Body1
import proofs.«176964_j13589276525289_1_alg».proof.Proof.Gen.KernelIdeal.Launch
import proofs.«176964_j13589276525289_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- A block's rectangle starts at zero. -/
theorem hz3 : (![0, 0, 0] : Fin S1x8192x3.rank → Nat) = fun _ => 0 := funext fun a => by
  match a with
  | ⟨0, _⟩ => rfl
  | ⟨1, _⟩ => rfl
  | ⟨2, _⟩ => rfl

/-- The first output's one store: the scratch row after the last trip, relaid. -/
abbrev rowPiece (x y : Vec F S1x8192x3 .f32) : View.Piece (Elt F) S1x1x8192 .f32 :=
  ⟨Rect.unit (s := S1x1x8192) ![0, 0, 0] S1x1x8192.size inb_S1x1x8192_S1x1x8192_0_0_0, k1_pay5 (accFn x y k1_t1_loop.trips)⟩

/-- The scratch row as the body loads it after the loop: the row after the trips, the first fill beneath them. -/
theorem final_row (𝒱 : Variants) (c : Dev nD) (bd : Option 𝒱.V) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole) (v0 : Vec F S1x8192x3 .f32) (X_arg2 : BufTy.Contents (Elt F) arg2.view.ty) (G4 : BufTy.Contents (Elt F) arg4.view.ty) (k : ℕ) (hk : k ≤ k1_t1_loop.trips) :
    View.readAt (Elt F) arg5.view accRect.toLoadRect
        (arg5.view.writes (Elt F) arg5.view.junk
          ((pb_k1_t1 (F := F) 𝒱 c bd i arg1 harg1 arg2 harg2 arg3 harg3 arg4 harg4 arg5 harg5 v0 X_arg2 G4 (arg5.view.writes (Elt F) arg5.view.junk [(⟨accRect, k1_pay1⟩ : View.Piece (Elt F) S8192 .f32)]) k).2
            ++ [(⟨accRect, k1_pay1⟩ : View.Piece (Elt F) S8192 .f32)]))
      = accFn v0 (arg2.view.read (Elt F) X_arg2) k := by
  rw [View.readAt_eq_ld, View.writes_append, View.ld_unit_zero hz1]
  exact pb_acc 𝒱 c bd i arg1 harg1 arg2 harg2 arg3 harg3 arg4 harg4 arg5 harg5 v0 X_arg2 G4 _ (read_whole_cons arg5 _ _ []) k hk

set_option maxHeartbeats 4000000 in
/-- The body on whole staging buffers. -/
theorem body_run (c : Dev nD) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 : Vec F S1x8192x3 .f32) (x1 : Vec F S1x8192x3 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ (∃ f, arg3.view.loc (c : Thread nD τ) ↦[arg3.view.set]{fullShare} arg3.view.writes (Elt F) f [rowPiece x0 x1]) ∗ (∃ f, arg4.view.loc (c : Thread nD τ) ↦[arg4.view.set]{fullShare} arg4.view.writes (Elt F) f (colList x0 x1 k1_t1_loop.trips)) ∗ (∃ d, owns (c : Thread nD τ) arg5 fullShare d)) -∗ K ⟨⟩))
      ⊢ wp frame (wpE (defs₀ (F := F)) Variants.none c none) E (cc1_kernel i arg1 harg1 arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%ds0, %fs0, -, HS0⟩, Hk⟩
  obtain rfl := harg1.eq_unread hf0; obtain rfl := harg2.eq_unread hf1
  sl_exec
  sl_step
  have hv0 : View.readAt (Elt F) arg1.view (Rect.unit (s := S1x8192x3) ![0, 0, 0] S1x8192x3.size inb_S1x8192x3_S1x8192x3_0_0_0).toLoadRect (harg1.unread x0) = x0 := by
    rw [View.readAt_eq_ld, hf0, View.ld_unit_zero hz3]
  sl_unfold_run_names
  rw [hv0]
  rw [pb_col (F := F) Variants.none c none i arg1 harg1 arg2 harg2 arg3 harg3 arg4 harg4 arg5 harg5 x0 (harg2.unread x1) f3 _
    (Scf.trips k1_t1_loop.lb k1_t1_loop.ub k1_t1_loop.st) (le_refl _)]
  rw [final_row (F := F) Variants.none c none i arg1 harg1 arg2 harg2 arg3 harg3 arg4 harg4 arg5 harg5 x0 (harg2.unread x1) f3
    (Scf.trips k1_t1_loop.lb k1_t1_loop.ub k1_t1_loop.st) (le_refl _)]
  rw [hf1]
  iapply Hk
  isplitl [H0]
  · iexists _; isplitr; · ipureintro; exact hf0
    iexact H0
  isplitl [H1]
  · iexists _; isplitr; · ipureintro; exact hf1
    iexact H1
  isplitl [H2]; · iexists _; iexact H2
  isplitl [H3]; · iexists _; iexact H3
  iexists _, _; isplitr; swap; · iexact HS0
  ipureintro; rfl

/-! ## Every entry of both outputs is stored -/

/-- The first output's one store covers its row. -/
theorem cover_row (x y : Vec F S1x8192x3 .f32) (yy : S1x1x8192.Idx) : ∃ pc ∈ [rowPiece x y], yy ∈ pc.1.set :=
  ⟨rowPiece x y, List.mem_singleton_self _, View.mem_set_unit_zero (S := S1x1x8192) hz3 inb_S1x1x8192_S1x1x8192_0_0_0 yy⟩

/-- The store of a trip before the K-th is in the list after K trips. -/
theorem colPiece_mem (x y : Vec F S1x8192x3 .f32) : ∀ (K : ℕ), K ≤ k1_t1_loop.trips → ∀ k : Fin k1_t1_loop.trips, k.val < K →
    colPiece x y k ∈ colList x y K
  | 0, _, k, h => absurd h (Nat.not_lt_zero _)
  | K + 1, hK, k, h => by
    have hK' : K < k1_t1_loop.trips := hK
    rw [show colList x y (K + 1) = colList x y ((⟨K, hK'⟩ : Fin k1_t1_loop.trips).val + 1) from rfl, colList_succ]
    by_cases e : k.val = K
    · have : k = ⟨K, hK'⟩ := Fin.ext e
      subst this
      exact List.mem_cons_self
    · exact List.mem_cons_of_mem _ (colPiece_mem x y K (Nat.le_of_lt hK') k (by omega))

/-- The loop runs 64 trips. -/
theorem trips_eq : k1_t1_loop.trips = 64 := by decide +kernel

/-- The 64 stores of the trips tile the row of column minima: column m lies in the store of trip m / 128. -/
theorem cover_col (x y : Vec F S1x8192x3 .f32) (yy : S1x1x8192.Idx) : ∃ pc ∈ colList x y k1_t1_loop.trips, yy ∈ pc.1.set := by
  have h0 : (yy 0).val < 1 := (yy 0).isLt
  have h1 : (yy 1).val < 1 := (yy 1).isLt
  have h2 : (yy 2).val < 8192 := (yy 2).isLt
  have hk : (yy 2).val / 128 < k1_t1_loop.trips := by rw [trips_eq]; omega
  refine ⟨colPiece x y ⟨(yy 2).val / 128, hk⟩, colPiece_mem x y _ (le_refl _) _ hk, ?_⟩
  rw [Rect.mem_set_unit, k1_off2_eq]
  intro a
  match a with
  | ⟨0, _⟩ => exact ⟨Nat.zero_le _, by show (yy 0).val < 0 + 1; omega⟩
  | ⟨1, _⟩ => exact ⟨Nat.zero_le _, by show (yy 1).val < 0 + 1; omega⟩
  | ⟨2, _⟩ => exact ⟨by show 128 * ((yy 2).val / 128) ≤ (yy 2).val; omega, by show (yy 2).val < 128 * ((yy 2).val / 128) + 128; omega⟩

end Cert.KernelIdeal.Body1

end
-- ==== Proof.Shared.lean ====
/-
  The host arithmetic both programs share, as functions over the extended reals.

  `meanOf` is the mean of a [2, 8192] array: its sum from the zero word, divided by the word of 16384.
  `vox` is the voxel coordinate of every point of a cloud: the cloud with its unordered entries (those not equal to
  themselves) replaced by +∞, reduced by min over the 8192 points of each batch and coordinate, is subtracted from the
  cloud, the difference divided by the word of 0.1, converted to a 32-bit integer and back to a float. Both programs
  apply exactly these operations with exactly these words, so neither function is ever opened: the proof only needs
  that equal arrays have equal means and equal voxel coordinates.
  `total` combines the four rows of nearest distances — of the voxel clouds first, of the raw clouds second —
  (mean + mean) + (mean + mean).
-/
import proofs.«176964_j13589276525289_1_alg».proof.Proof.Gen.KernelIdeal
import Idealize.ShloMosaic.PureOps.Ideal

noncomputable section

namespace Cert.KernelIdeal.Shared

open Idealize.ShloMosaic Cert.KernelIdeal Cert.KernelIdeal.Facts₀ Cert.KernelIdeal.Facts

/-- The mean of a [2, 8192] array. -/
def meanOf (x : FVec Ideal S2x8192 .f32) : FVec Ideal S_ .f32 :=
  Host.divf (Host.reduceAdd x (constant (F := Ideal) S_ .f32 0x00000000#32) reducesTo_S2x8192_S_d0_1 h_S_)
    (constant (F := Ideal) S_ .f32 0x46800000#32)

/-- A cloud with its unordered entries replaced by +∞. -/
def masked (a : FVec Ideal S2x8192x3 .f32) : FVec Ideal S2x8192x3 .f32 :=
  select (cmpf .une a a) (broadcastInDim S2x8192x3 ![] bcast_S_S2x8192x3 (id (constant (F := Ideal) S_ .f32 0x7F800000#32))) a

/-- The voxel coordinates of a cloud. -/
def vox (a : FVec Ideal S2x8192x3 .f32) : FVec Ideal S2x8192x3 .f32 :=
  sitofp .f32 (fptosi 32 (Host.divf
    (subf a (broadcastInDim S2x8192x3 ![0, 1, 2] bcast_S2x1x3_S2x8192x3_0_1_2 (broadcastInDim S2x1x3 ![0, 2] bcast_S2x3_S2x1x3_0_2
      (Host.reduce FloatOps.minimumf (masked a) (constant (F := Ideal) S_ .f32 0x7F800000#32) reducesTo_S2x8192x3_S2x3_d1 h_S_))))
    (broadcastInDim S2x8192x3 ![] bcast_S_S2x8192x3 (constant (F := Ideal) S_ .f32 0x3DCCCCCD#32))))

/-- (mean + mean) of the voxel clouds' two rows, plus (mean + mean) of the raw clouds' two rows. -/
def total (d1v d2v d1 d2 : FVec Ideal S2x8192 .f32) : FVec Ideal S_ .f32 :=
  addf (addf (meanOf d1v) (meanOf d2v)) (addf (meanOf d1) (meanOf d2))

end Cert.KernelIdeal.Shared

end
-- ==== Proof.Spec.lean ====
/-
  Nearest-neighbour squared distances between two clouds of 8192 points in three dimensions, batch by batch (two
  batches), over the extended reals.

  For clouds X, Y : [2, 8192, 3] the squared distance of point n of X to point m of Y in batch b is written the way
  both programs compute it,
      score b n m = (|X b n|² + |Y b m|²) − 2 · ⟨X b n, Y b m⟩,
  with |·|² and ⟨·,·⟩ the sums over the three coordinates. Each point of X keeps its least score over the points of Y
  (`toY`), each point of Y its least score over the points of X (`toX`); a least value is the fold of min from the
  start value both programs use (the word of +∞, never evaluated here). Nothing below needs a finite input: sums
  and minima of extended reals are taken in any order and any grouping.

-/
import Idealize.ShloMosaic.PureOps.Ideal
import Idealize.ShloMosaic.Lib.ValueIdx

noncomputable section

namespace Cert.Chamfer

open Idealize.ShloMosaic Idealize.ShloMosaic.ValueIdx

/-- A cloud of 8192 points in three dimensions per batch. -/
abbrev Pts : Shape := ⟨3, ![2, 8192, 3]⟩
/-- One value per point and batch, laid out [2, 1, 8192]. -/
abbrev Row : Shape := ⟨3, ![2, 1, 8192]⟩

/-- The start value of every minimum: the word of +∞. -/
def top : EReal := Ideal.ofBits .f32 0x7F800000#32
/-- The factor of the cross term: the word of 2. -/
def two : EReal := Ideal.ofBits .f32 0x40000000#32

/-- |X b n|². -/
def sq (X : Pts.Idx → EReal) (b : Fin 2) (n : Fin 8192) : EReal := ∑ d : Fin 3, X (ix3 b n d) * X (ix3 b n d)
/-- ⟨X b n, Y b m⟩. -/
def dotp (X Y : Pts.Idx → EReal) (b : Fin 2) (n m : Fin 8192) : EReal := ∑ d : Fin 3, X (ix3 b n d) * Y (ix3 b m d)
/-- The squared distance in the programs' spelling. -/
def score (X Y : Pts.Idx → EReal) (b : Fin 2) (n m : Fin 8192) : EReal := (sq X b n + sq Y b m) - two * dotp X Y b n m

/-- The least score of point n of X over the points of Y. -/
def toY (X Y : Pts.Idx → EReal) (b : Fin 2) (n : Fin 8192) : EReal :=
  (Finset.univ : Finset (Fin 8192)).fold min top fun m => score X Y b n m
/-- The least score of point m of Y over the points of X. -/
def toX (X Y : Pts.Idx → EReal) (b : Fin 2) (m : Fin 8192) : EReal :=
  (Finset.univ : Finset (Fin 8192)).fold min top fun n => score X Y b n m

/-- `toY` laid out [2, 1, 8192]. -/
def toYRow (X Y : Pts.Idx → EReal) : Row.Idx → EReal := fun i => toY X Y ⟨(i 0).val, (i 0).isLt⟩ ⟨(i 2).val, (i 2).isLt⟩
/-- `toX` laid out [2, 1, 8192]. -/
def toXRow (X Y : Pts.Idx → EReal) : Row.Idx → EReal := fun i => toX X Y ⟨(i 0).val, (i 0).isLt⟩ ⟨(i 2).val, (i 2).isLt⟩

/-! ## One batch's blocks

A region of the kernel sees one batch at a time: a block [1, R, 3] of R points. The same three quantities over blocks. -/

/-- R points of one batch. -/
abbrev Blk (R : Nat) : Shape := ⟨3, ![1, R, 3]⟩

/-- |x r|² of point r of a block. -/
def bsq {R : Nat} (x : (Blk R).Idx → EReal) (r : Fin R) : EReal := ∑ d : Fin 3, x (ix3 0 r d) * x (ix3 0 r d)
/-- ⟨x r, y j⟩ of two blocks' points. -/
def bdot {R T : Nat} (x : (Blk R).Idx → EReal) (y : (Blk T).Idx → EReal) (r : Fin R) (j : Fin T) : EReal :=
  ∑ d : Fin 3, x (ix3 0 r d) * y (ix3 0 j d)
/-- The squared distance of point r of x to point j of y, in the programs' spelling. -/
def bscore {R T : Nat} (x : (Blk R).Idx → EReal) (y : (Blk T).Idx → EReal) (r : Fin R) (j : Fin T) : EReal :=
  (bsq x r + bsq y j) - two * bdot x y r j

/-- Batch b of a cloud, as a block. -/
def batch (X : Pts.Idx → EReal) (b : Fin 2) : (Blk 8192).Idx → EReal :=
  fun i => X (ix3 b ⟨(i 1).val, (i 1).isLt⟩ ⟨(i 2).val, (i 2).isLt⟩)

theorem batch_apply (X : Pts.Idx → EReal) (b : Fin 2) (z : Fin 1) (n : Fin 8192) (d : Fin 3) :
    batch X b (ix3 z n d) = X (ix3 b n d) := rfl

theorem score_eq_bscore (X Y : Pts.Idx → EReal) (b : Fin 2) (n m : Fin 8192) :
    score X Y b n m = bscore (batch X b) (batch Y b) n m := rfl

/-- One value per batch and point, laid out [2, 8192]. -/
abbrev Flat : Shape := ⟨2, ![2, 8192]⟩

/-- `toY` laid out [2, 8192]. -/
def toYFlat (X Y : Pts.Idx → EReal) : Flat.Idx → EReal := fun i => toY X Y ⟨(i 0).val, (i 0).isLt⟩ ⟨(i 1).val, (i 1).isLt⟩
/-- `toX` laid out [2, 8192]. -/
def toXFlat (X Y : Pts.Idx → EReal) : Flat.Idx → EReal := fun i => toX X Y ⟨(i 0).val, (i 0).isLt⟩ ⟨(i 1).val, (i 1).isLt⟩

theorem toYFlat_apply (X Y : Pts.Idx → EReal) (b : Fin 2) (n : Fin 8192) : toYFlat X Y (ix2 b n) = toY X Y b n := rfl
theorem toXFlat_apply (X Y : Pts.Idx → EReal) (b : Fin 2) (m : Fin 8192) : toXFlat X Y (ix2 b m) = toX X Y b m := rfl

theorem toYRow_apply (X Y : Pts.Idx → EReal) (b : Fin 2) (z : Fin 1) (n : Fin 8192) : toYRow X Y (ix3 b z n) = toY X Y b n := rfl
theorem toXRow_apply (X Y : Pts.Idx → EReal) (b : Fin 2) (z : Fin 1) (m : Fin 8192) : toXRow X Y (ix3 b z m) = toX X Y b m := rfl

end Cert.Chamfer

end
-- ==== Proof.HostChain.lean ====
/-
  The kernel program's host operations read back, over the extended reals: from what the two regions leave to the result.

  After the first region the host relays each of its two rows [2, 1, 8192] to [2, 8192], takes the two means and adds
  them; it computes the voxel coordinates of each argument cloud (the shared function `vox`), on which the second
  region runs; after the second region it relays, averages and adds its two rows the same way, and adds the two sums —
  the voxel clouds' first. So the result buffer ends at the shared `total` of the four relaid rows, and the second
  region is entered on the voxel coordinates of the two arguments.
-/
import proofs.«176964_j13589276525289_1_alg».proof.Proof.FrameIdeal
import proofs.«176964_j13589276525289_1_alg».proof.Proof.Shared
import proofs.«176964_j13589276525289_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostChain

open Idealize.ShloMosaic Idealize.ShloMosaic.TcCoe Idealize.SL.Sem Idealize.ShloMosaic.ValueIdx
open Cert.KernelIdeal Cert.KernelIdeal.Gen Cert.KernelIdeal.GenP Cert.KernelIdeal.Shared Cert.Chamfer

variable (m : (ℓ : Loc nD τ sig) → Buf (Elt Ideal) ℓ) (ρ : Dev nD → PrngReg)

/-- A row [2, 1, 8192] relaid [2, 8192], as the host's reshape does it. -/
def relay (x : FVec Ideal S2x1x8192 .f32) : FVec Ideal S2x8192 .f32 := shapeCast S2x8192 x Facts₀.shapeCasts_S2x1x8192_S2x8192

/-- Relaying the row of each first-cloud point's least score gives it in the flat layout. -/
theorem relay_toYRow (X Y : Pts.Idx → EReal) : relay (toYRow X Y) = toYFlat X Y := by
  funext i
  obtain ⟨b, n, rfl⟩ : ∃ b n, i = ix2 b n := ⟨i 0, i 1, eq_ix2 i⟩
  -- entry (b, n) of the flat layout and entry (b, 0, n) of the row layout have the same row-major position
  refine (shapeCast_apply (toYRow X Y) Facts₀.shapeCasts_S2x1x8192_S2x8192 (ix2 b n) (ix3 b (0 : Fin 1) n) ?_).trans rfl
  rw [Shape.rowMajor_val_three, Shape.rowMajor_val_two]
  show (b.val * 1 + 0) * 8192 + n.val = b.val * 8192 + n.val
  omega

/-- The same for the second cloud's points. -/
theorem relay_toXRow (X Y : Pts.Idx → EReal) : relay (toXRow X Y) = toXFlat X Y := by
  funext i
  obtain ⟨b, n, rfl⟩ : ∃ b n, i = ix2 b n := ⟨i 0, i 1, eq_ix2 i⟩
  refine (shapeCast_apply (toXRow X Y) Facts₀.shapeCasts_S2x1x8192_S2x8192 (ix2 b n) (ix3 b (0 : Fin 1) n) ?_).trans rfl
  rw [Shape.rowMajor_val_three, Shape.rowMajor_val_two]
  show (b.val * 1 + 0) * 8192 + n.val = b.val * 8192 + n.val
  omega

/-- Each argument's buffer still holds the launch contents when the first region is left: the region only reads it. -/
theorem W1_arg0 (c : Dev nD) : W1 (F := Ideal) m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 (F := Ideal) m ρ c (Proc.devRef .tc main_arg1) = m ((c : Thread nD τ).loc main_arg1) :=
  (W1_arr m ρ c 1).trans (((dat0 (V0 m ρ) c).arrAt_in 1 rfl _).trans (A_eq0 (V0 m ρ) c 1))

/-- The second region is entered on the voxel coordinates of the first argument … -/
theorem entry_v17 (c : Dev nD) :
    W6 (F := Ideal) m ρ c (Proc.devRef .tc main_v17) = vox (m ((c : Thread nD τ).loc main_arg0)) := by
  -- the five host stretches between the two regions, folded from what the first region leaves
  show StableHlo.after hostOps1_4 (StableHlo.after hostOps1_3 (StableHlo.after hostOps1_2 (StableHlo.after hostOps1_1
    (StableHlo.after hostOps1 (W1 (F := Ideal) m ρ c))))) (Proc.devRef .tc main_v17) = _
  after_results_simp
  rw [W1_arg0]
  rfl

/-- … and of the second. -/
theorem entry_v27 (c : Dev nD) :
    W6 (F := Ideal) m ρ c (Proc.devRef .tc main_v27) = vox (m ((c : Thread nD τ).loc main_arg1)) := by
  show StableHlo.after hostOps1_4 (StableHlo.after hostOps1_3 (StableHlo.after hostOps1_2 (StableHlo.after hostOps1_1
    (StableHlo.after hostOps1 (W1 (F := Ideal) m ρ c))))) (Proc.devRef .tc main_v27) = _
  after_results_simp
  rw [W1_arg1]
  rfl

/-- The first region's two means, added: written by the first host stretch, and carried unchanged through the other
    stretches and the second region to the last stretch, which reads it. -/
theorem W7_v7 (c : Dev nD) :
    W7 (F := Ideal) m ρ c (Proc.devRef .tc main_v7)
      = addf (meanOf (relay (W1 (F := Ideal) m ρ c (Proc.devRef .tc main_v0_0))))
          (meanOf (relay (W1 (F := Ideal) m ρ c (Proc.devRef .tc main_v0_1)))) := by
  rw [W7_of_ne m ρ c main_v7 (by decide)]
  show StableHlo.after hostOps1_4 (StableHlo.after hostOps1_3 (StableHlo.after hostOps1_2 (StableHlo.after hostOps1_1
    (StableHlo.after hostOps1 (W1 (F := Ideal) m ρ c))))) (Proc.devRef .tc main_v7) = _
  after_results_simp
  rfl

/-- THE RESULT BUFFER at the last boundary: the shared combination of the four relaid rows — the second region's two
    (as that region leaves them) first, the first region's two (as that region leaves them) second. -/
theorem result_eq (c : Dev nD) :
    W8 (F := Ideal) m ρ c (Proc.devRef .tc main_v36)
      = total (relay (W7 (F := Ideal) m ρ c (Proc.devRef .tc main_v28_0))) (relay (W7 (F := Ideal) m ρ c (Proc.devRef .tc main_v28_1)))
          (relay (W1 (F := Ideal) m ρ c (Proc.devRef .tc main_v0_0))) (relay (W1 (F := Ideal) m ρ c (Proc.devRef .tc main_v0_1))) := by
  have h8 : W8 (F := Ideal) m ρ c (Proc.devRef .tc main_v36)
      = addf (addf (meanOf (relay (W7 (F := Ideal) m ρ c (Proc.devRef .tc main_v28_0))))
          (meanOf (relay (W7 (F := Ideal) m ρ c (Proc.devRef .tc main_v28_1)))))
          (W7 (F := Ideal) m ρ c (Proc.devRef .tc main_v7)) := by
    show StableHlo.after hostOps2 (W7 (F := Ideal) m ρ c) (Proc.devRef .tc main_v36) = _
    after_results_simp
    rfl
  rw [h8, W7_v7]
  rfl

end Cert.KernelIdeal.HostChain

end
-- ==== Proof.LibDotRows.lean ====
/-
  A matrix product whose two operands are BOTH contracted over their axis 1: an [M, K] array against an [N, K] array
  (the right operand stored output-major, so that the product is A · Bᵀ without a transposition being computed).
  The library states the product's value as a sum over the dimension numbers' contraction index set of the operands at
  two computed operand indices. Here the contraction index is one coordinate `k`, and the operand indices are (r, k) and
  (c, k): entry (r, c) of the product is the sum over k of A (r, k) · B (c, k), the inner product of row r of A with
  row c of B. Stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.Payload.lean ====
/-
  The kernel body's five stored values, read at an index over the extended reals.

  With x the block of the first cloud (8192 points) and y a tile of 128 points of the second:
  the score array is  (|x n|² + |y j|²) − 2·⟨x n, y j⟩  at (n, j) — the narrowing of the two operands before the
  product is the identity on extended reals, the product into the zero accumulator contracts the three coordinates,
  and each squared norm is a sum over the three coordinates from the zero word;
  the scratch update is, at n, the minimum of what the scratch held with the fold of min over the tile's 128 scores
  of row n, from the word of +∞; the column store is, at column j, the fold of min over the 8192 scores of column j;
  the scratch is first filled with the word of +∞; the first output is the scratch row relaid [1, 1, 8192].
  The second region's kernel has the same text, so its five values are the same functions.
-/
import proofs.«176964_j13589276525289_1_alg».proof.Proof.Gen.KernelIdeal.Skeleton
import proofs.«176964_j13589276525289_1_alg».proof.Proof.Spec
import proofs.«176964_j13589276525289_1_alg».proof.Proof.LibDotRows
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.TcCoe Idealize.ShloMosaic.ValueIdx
open Cert.KernelIdeal Cert.KernelIdeal.Gen Cert.Chamfer

/-! ## The operations that are not pointwise, each read at explicit coordinates -/

/-- The sum over the three coordinates of the squares of row r of an [R, 3] array: the lane sum of the pointwise
    square, from the zero word (the neutral element of the sum). -/
theorem sumsq_apply {R : ℕ} (v : FVec Ideal ⟨2, ![R, 3]⟩ .f32) (h : (⟨2, ![R, 3]⟩ : Shape).Reduces [1] ⟨1, ![R]⟩)
    (hφ : FKind.Formats .f32) (hacc : (0x00000000#32 : BitVec (FTy.bits .f32)) = FKind.add.neutral .f32 hφ) (r : Fin R) :
    multiReduction (F := Ideal) .add [1] ⟨1, ![R]⟩ (mulf v v) 0x00000000#32 h hφ hacc (ix1 r)
      = ∑ d : Fin 3, v (ix2 r d) * v (ix2 r d) := by
  refine (Ideal.multiReduction_add_single (mulf v v) _ h hφ hacc (ix1 r)).trans ?_
  refine Finset.sum_congr rfl fun d _ => ?_
  have e : h.lift (ix1 r) d = ix2 r d := funext fun a => Fin.ext (by
    match a with
    | ⟨0, _⟩ => rfl
    | ⟨1, _⟩ => rfl)
  rw [e]
  rfl

/-- A column [a] relaid [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [8192, 1] column broadcast over 128 lanes reads, at (n, j), the column at n. -/
theorem broadcastTo_col_apply {α : Type} (v : S8192x1.Idx → α) (h : S8192x1.Broadcasts S8192x128) (n : Fin 8192) (j : Fin 128) :
    broadcastTo S8192x128 v h (ix2 n j) = v (ix2 n (0 : Fin 1)) := by
  refine broadcastTo_apply v h (ix2 n j) (ix2 n (0 : Fin 1)) fun ax => ?_
  match ax with
  | ⟨0, _⟩ => rfl
  | ⟨1, _⟩ => rfl

/-- The least value of row n of an [8192, 128] array: the fold of min over the row's 128 lanes, from the word of +∞. -/
theorem rowMin_apply (w : FVec Ideal S8192x128 .f32) (h : S8192x128.Reduces [1] S8192) (hφ : FKind.Formats .f32)
    (hacc : (0x7F800000#32 : BitVec (FTy.bits .f32)) = FKind.minimumf.neutral .f32 hφ) (n : Fin 8192) :
    multiReduction (F := Ideal) .minimumf [1] S8192 w 0x7F800000#32 h hφ hacc (ix1 n)
      = (Finset.univ : Finset (Fin 128)).fold min top fun j => w (ix2 n j) := by
  refine (multiReduction_minimumf_eq_fold w _ h hφ hacc (ix1 n)).trans ?_
  refine (h.fold_filter_drop_single _ _ w (ix1 n)).trans ?_
  have e : (w ∘ h.lift (ix1 n)) = fun j : Fin 128 => w (ix2 n j) := funext fun j => congrArg w (funext fun a => Fin.ext (by
    match a with
    | ⟨0, _⟩ => rfl
    | ⟨1, _⟩ => rfl))
  rw [e]
  rfl

/-- The least value of column j of an [8192, 128] array: the fold of min over the column's 8192 rows, from the word
    of +∞. -/
theorem colMin_apply (w : FVec Ideal S8192x128 .f32) (h : S8192x128.Reduces [0] S128) (hφ : FKind.Formats .f32)
    (hacc : (0x7F800000#32 : BitVec (FTy.bits .f32)) = FKind.minimumf.neutral .f32 hφ) (j : Fin 128) :
    multiReduction (F := Ideal) .minimumf [0] S128 w 0x7F800000#32 h hφ hacc (ix1 j)
      = (Finset.univ : Finset (Fin 8192)).fold min top fun n => w (ix2 n j) := by
  refine (multiReduction_minimumf_eq_fold w _ h hφ hacc (ix1 j)).trans ?_
  refine (h.fold_filter_drop_single _ _ w (ix1 j)).trans ?_
  have e : (w ∘ h.lift (ix1 j)) = fun n : Fin 8192 => w (ix2 n j) := funext fun n => congrArg w (funext fun a => Fin.ext (by
    match a with
    | ⟨0, _⟩ => rfl
    | ⟨1, _⟩ => rfl))
  rw [e]
  rfl

/-! ## The five stored values -/

/-- The score array of a block against a tile, at (n, j). -/
theorem pay2_apply (x : Vec Ideal S1x8192x3 .f32) (y : Vec Ideal S1x128x3 .f32) (n : Fin 8192) (j : Fin 128) :
    k0_pay2 (F := Ideal) x y (ix2 n j) = bscore (R := 8192) (T := 128) x y n j := by
  unfold k0_pay2
  -- the squared norm of point n of the block, through the column relaid [8192, 1] and broadcast over the lanes
  have e1 : ∀ (v4 : FVec Ideal S8192 .f32) (h28 : S8192.ShapeCasts S8192x1) (h29 : S8192x1.Broadcasts S8192x128),
      broadcastTo S8192x128 (shapeCast S8192x1 v4 h28) h29 (ix2 n j) = v4 (ix1 n) := fun v4 h28 h29 =>
    (broadcastTo_col_apply _ h29 n j).trans (shapeCast_a_a1_apply v4 h28 n 0)
  -- the squared norm of point j of the tile, through the column relaid [128, 1], transposed and broadcast over the rows
  have e2 : ∀ (v23 : FVec Ideal S128 .f32) (h24 : S128.ShapeCasts S128x1) (h25 : S128x1.Transposes [1, 0] S1x128)
      (h30 : S1x128.Broadcasts S8192x128),
      broadcastTo S8192x128 (transpose S1x128 [1, 0] (shapeCast S128x1 v23 h24) h25) h30 (ix2 n j) = v23 (ix1 j) :=
    fun v23 h24 h25 h30 =>
      (broadcastTo_1b_ab_apply _ h30 n j).trans
        ((transpose_ix2_apply (shapeCast S128x1 v23 h24) h25 (0 : Fin 1) j).trans (shapeCast_a_a1_apply v23 h24 j 0))
  show (_ + _) - (_ * _) = (bsq x n + bsq y j) - two * bdot x y n j
  refine congrArg₂ (· - ·) (congrArg₂ (· + ·) ?_ ?_) (congrArg₂ (· * ·) rfl ?_)
  · refine (e1 _ _ _).trans ?_
    refine (sumsq_apply _ _ _ _ n).trans ?_
    refine Finset.sum_congr rfl fun d _ => ?_
    rw [shapeCast_1ab_ab_apply]
  · refine (e2 _ _ _ _).trans ?_
    refine (sumsq_apply _ _ _ _ j).trans ?_
    refine Finset.sum_congr rfl fun d _ => ?_
    rw [shapeCast_1ab_ab_apply]
  · refine (Cert.Lib.matmul_rr_apply _ rfl rfl rfl rfl rfl rfl none _ _ n j).trans ?_
    refine Finset.sum_congr rfl fun d _ => ?_
    show shapeCast S8192x3 x _ (ix2 n d) * shapeCast S128x3 y _ (ix2 j d) = _
    rw [shapeCast_1ab_ab_apply, shapeCast_1ab_ab_apply]

/-- The scratch update at n: the scratch's value against the least score of row n over the tile. -/
theorem pay3_apply (x : Vec Ideal S1x8192x3 .f32) (y : Vec Ideal S1x128x3 .f32) (a : Vec Ideal S8192 .f32) (n : Fin 8192) :
    k0_pay3 (F := Ideal) x y a (ix1 n)
      = min (a (ix1 n)) ((Finset.univ : Finset (Fin 128)).fold min top fun j => bscore (R := 8192) (T := 128) x y n j) := by
  unfold k0_pay3
  rw [shapeCast_self]
  refine (minimumf_apply _ _ _).trans ?_
  refine congrArg (min (a (ix1 n))) ?_
  refine (rowMin_apply _ _ _ _ n).trans ?_
  exact congrArg (Finset.fold min top · Finset.univ) (funext fun j => pay2_apply x y n j)

/-- The column store at j: the least score of column j over the block's 8192 points. -/
theorem pay4_apply (x : Vec Ideal S1x8192x3 .f32) (y : Vec Ideal S1x128x3 .f32) (z z' : Fin 1) (j : Fin 128) :
    k0_pay4 (F := Ideal) x y (ix3 z z' j)
      = (Finset.univ : Finset (Fin 8192)).fold min top fun n => bscore (R := 8192) (T := 128) x y n j := by
  unfold k0_pay4
  refine (shapeCast_ab_1ab_apply _ _ z z' j).trans ?_
  refine (shapeCast_a_1a_apply _ _ z' j).trans ?_
  refine (colMin_apply _ _ _ _ j).trans ?_
  exact congrArg (Finset.fold min top · Finset.univ) (funext fun n => pay2_apply x y n j)

/-- The scratch's first fill. -/
theorem pay1_apply (n : Fin 8192) : k0_pay1 (F := Ideal) (ix1 n) = top := by
  unfold k0_pay1
  rw [shapeCast_self]
  rfl

/-- The first output's store: the scratch row relaid. -/
theorem pay5_apply (a : Vec Ideal S8192 .f32) (z z' : Fin 1) (n : Fin 8192) : k0_pay5 (F := Ideal) a (ix3 z z' n) = a (ix1 n) := by
  unfold k0_pay5
  exact (shapeCast_ab_1ab_apply _ _ z z' n).trans (shapeCast_a_1a_apply a _ z' n)

/-! The second region's kernel is the same text. -/
theorem k1_pay1_eq : k1_pay1 (F := Ideal) = k0_pay1 (F := Ideal) := rfl
theorem k1_pay2_eq : k1_pay2 (F := Ideal) = k0_pay2 (F := Ideal) := rfl
theorem k1_pay3_eq : k1_pay3 (F := Ideal) = k0_pay3 (F := Ideal) := rfl
theorem k1_pay4_eq : k1_pay4 (F := Ideal) = k0_pay4 (F := Ideal) := rfl
theorem k1_pay5_eq : k1_pay5 (F := Ideal) = k0_pay5 (F := Ideal) := rfl

/-! The readings under each region's own names. -/
theorem k0_pay1_apply (n : Fin 8192) : k0_pay1 (F := Ideal) (ix1 n) = top := pay1_apply n
theorem k1_pay1_apply (n : Fin 8192) : k1_pay1 (F := Ideal) (ix1 n) = top := pay1_apply n
theorem k0_pay3_apply (x : Vec Ideal S1x8192x3 .f32) (y : Vec Ideal S1x128x3 .f32) (a : Vec Ideal S8192 .f32) (n : Fin 8192) :
    k0_pay3 (F := Ideal) x y a (ix1 n)
      = min (a (ix1 n)) ((Finset.univ : Finset (Fin 128)).fold min top fun j => bscore (R := 8192) (T := 128) x y n j) := pay3_apply x y a n
theorem k1_pay3_apply (x : Vec Ideal S1x8192x3 .f32) (y : Vec Ideal S1x128x3 .f32) (a : Vec Ideal S8192 .f32) (n : Fin 8192) :
    k1_pay3 (F := Ideal) x y a (ix1 n)
      = min (a (ix1 n)) ((Finset.univ : Finset (Fin 128)).fold min top fun j => bscore (R := 8192) (T := 128) x y n j) := pay3_apply x y a n
theorem k0_pay4_apply (x : Vec Ideal S1x8192x3 .f32) (y : Vec Ideal S1x128x3 .f32) (z z' : Fin 1) (j : Fin 128) :
    k0_pay4 (F := Ideal) x y (ix3 z z' j)
      = (Finset.univ : Finset (Fin 8192)).fold min top fun n => bscore (R := 8192) (T := 128) x y n j := pay4_apply x y z z' j
theorem k1_pay4_apply (x : Vec Ideal S1x8192x3 .f32) (y : Vec Ideal S1x128x3 .f32) (z z' : Fin 1) (j : Fin 128) :
    k1_pay4 (F := Ideal) x y (ix3 z z' j)
      = (Finset.univ : Finset (Fin 8192)).fold min top fun n => bscore (R := 8192) (T := 128) x y n j := pay4_apply x y z z' j
theorem k0_pay5_apply (a : Vec Ideal S8192 .f32) (z z' : Fin 1) (n : Fin 8192) : k0_pay5 (F := Ideal) a (ix3 z z' n) = a (ix1 n) :=
  pay5_apply a z z' n
theorem k1_pay5_apply (a : Vec Ideal S8192 .f32) (z z' : Fin 1) (n : Fin 8192) : k1_pay5 (F := Ideal) a (ix3 z z' n) = a (ix1 n) :=
  pay5_apply a z z' n

end Cert.KernelIdeal.Pay

end
-- ==== Proof.LibMinTiles.lean ====
/-
  A minimum taken tile by tile.

  For a family f indexed by Fin N over a linear order, and a starting value I, the element
      fold min I f  =  min (I, f 0, f 1, …, f (N-1))
  is determined by its lower bounds: c is below it exactly when c is below I and below every f k. A running minimum that has
  absorbed the first K members of the family is described the same way, with "every k" cut down to "every k below K".
  Absorbing one more tile of T consecutive members — the minimum of the running value with the fold, again from I, over the
  tile — moves K to K + T; nothing is asked of I (it need not be a top element: it is a lower-bounded member like the others,
  and min is idempotent). After all N members the running value is the whole fold.
-/
import Mathlib.Data.Finset.Fold
import Mathlib.Data.Fintype.Basic
import Mathlib.Order.Basic

namespace Cert.Lib

variable {α : Type} [LinearOrder α]

/-- The lower bounds of a fold of min over all of Fin n, from I: those of I that are below every member. -/
theorem le_foldMin_univ_iff {n : Nat} (I : α) (f : Fin n → α) (c : α) :
    c ≤ (Finset.univ : Finset (Fin n)).fold min I f ↔ c ≤ I ∧ ∀ k, c ≤ f k := by
  rw [Finset.le_fold_min]
  exact and_congr_right fun _ => ⟨fun h k => h k (Finset.mem_univ k), fun h k _ => h k⟩

/-- x is the minimum of I and the members f k with k below K, said through its lower bounds. -/
def MinUpTo {N : Nat} (I : α) (f : Fin N → α) (K : Nat) (x : α) : Prop :=
  ∀ c, c ≤ x ↔ c ≤ I ∧ ∀ k : Fin N, k.val < K → c ≤ f k

/-- Before any member is absorbed the running value is I. -/
theorem minUpTo_zero {N : Nat} (I : α) (f : Fin N → α) : MinUpTo I f 0 I :=
  fun _ => ⟨fun h => ⟨h, fun k hk => absurd hk (Nat.not_lt_zero _)⟩, fun h => h.1⟩

/-- Absorbing the tile g of T members that sit at positions K, K+1, …, K+T-1 of the family. -/
theorem MinUpTo.step {N : Nat} {I : α} {f : Fin N → α} {K : Nat} {x : α} (hx : MinUpTo I f K x) {T : Nat} (g : Fin T → α)
    (hKT : K + T ≤ N) (hg : ∀ (kk : Fin T) (k : Fin N), k.val = K + kk.val → g kk = f k) :
    MinUpTo I f (K + T) (min x ((Finset.univ : Finset (Fin T)).fold min I g)) := by
  intro c
  rw [le_min_iff, hx c, le_foldMin_univ_iff]
  constructor
  · rintro ⟨⟨hI, hlo⟩, -, hhi⟩
    refine ⟨hI, fun k hk => ?_⟩
    by_cases hkK : k.val < K
    · exact hlo k hkK
    · have hlt : k.val - K < T := by omega
      have := hhi ⟨k.val - K, hlt⟩
      rwa [hg ⟨k.val - K, hlt⟩ k (by show k.val = K + (k.val - K); omega)] at this
  · rintro ⟨hI, h⟩
    refine ⟨⟨hI, fun k hk => h k (by omega)⟩, hI, fun kk => ?_⟩
    have hlt : K + kk.val < N := by have := kk.isLt; omega
    rw [hg kk ⟨K + kk.val, hlt⟩ rfl]
    exact h ⟨K + kk.val, hlt⟩ (by show K + kk.val < K + T; have := kk.isLt; omega)

/-- Two bounds that count the same members describe the same running value. -/
theorem MinUpTo.of_eq {N : Nat} {I : α} {f : Fin N → α} {K K' : Nat} {x : α} (hx : MinUpTo I f K x) (h : K = K') :
    MinUpTo I f K' x := h ▸ hx

/-- Once every member is absorbed the running value is the whole fold. -/
theorem MinUpTo.eq_fold {N : Nat} {I : α} {f : Fin N → α} {K : Nat} {x : α} (hx : MinUpTo I f K x) (hK : N ≤ K) :
    x = (Finset.univ : Finset (Fin N)).fold min I f :=
  eq_of_forall_le_iff fun c => by
    rw [hx c, le_foldMin_univ_iff]
    exact and_congr_right fun _ => ⟨fun h k => h k (lt_of_lt_of_le k.isLt hK), fun h k _ => h k⟩

end Cert.Lib
-- ==== Proof.Rows0.lean ====
/-
  What the kernel's loop leaves (region 0), over the extended reals: the two rows of nearest distances of one batch.

  Write x for the block of the first cloud (8192 points) and y for the block of the second (8192 points); tile k of y
  is its rows 128·k … 128·k + 127, so the score of point n of x against point j of tile k is the score against point
  128·k + j of y.

  The scratch row starts at the word of +∞. After k trips its entry n is the minimum of that start value and the scores
  of n against the first 128·k points of y: trip k stores the minimum of what the row held with the minimum over tile k,
  and a running minimum described by its lower bounds absorbs a tile at a time. After the 64th trip entry n is the fold
  of min over all 8192 scores of row n.

  Every store into the row of column minima holds, at each entry, the least score of the column the entry lands on:
  trip k stores at columns 128·k … 128·k + 127 the fold of min, over the 8192 points of x, of the scores against tile
  k's points. So a row covered by these stores reads, at column m, the least score of point m of y.
-/
import proofs.«176964_j13589276525289_1_alg».proof.Proof.Body0
import proofs.«176964_j13589276525289_1_alg».proof.Proof.Payload
import proofs.«176964_j13589276525289_1_alg».proof.Proof.LibMinTiles
import proofs.«176964_j13589276525289_1_alg».proof.Proof.Spec
import Idealize.ShloMosaic.Lib.Pipeline.Value

set_option maxRecDepth 16384

noncomputable section

namespace Cert.KernelIdeal.Rows0

open Idealize.ShloMosaic Idealize.ShloMosaic.TcCoe Idealize.SL.Sem Idealize.ShloMosaic.ValueIdx
open Cert.KernelIdeal Cert.KernelIdeal.Gen Cert.KernelIdeal.Body0 Cert.Chamfer Cert.KernelIdeal.Pay Cert.Lib

/-- The loop runs 64 trips. -/
theorem trips_eq : k0_t1_loop.trips = 64 := by decide +kernel

/-- Row j of tile k is row 128·k + j of the second block. -/
theorem tileOf_apply (y : Vec Ideal S1x8192x3 .f32) (k : Fin k0_t1_loop.trips) (z : Fin 1) (j : Fin 128) (d : Fin 3)
    (h : 128 * k.val + j.val < 8192) :
    tileOf (F := Ideal) y k (ix3 z j d) = y (ix3 z ⟨128 * k.val + j.val, h⟩ d) := by
  show y ((Rect.unit (s := S1x8192x3) (k0_off1 k) S1x128x3.size (k0_off1_inb k)).toLoadRect.idx (ix3 z j d)) = _
  congr 1
  funext a
  apply Fin.ext
  rw [LoadRect.idx_apply]
  have e := k0_off1_eq k
  match a with
  | ⟨0, _⟩ => simp only [Rect.off_unit, Rect.stride_unit, e]; show 0 + 1 * z.val = z.val; omega
  | ⟨1, _⟩ => simp only [Rect.off_unit, Rect.stride_unit, e]; show 128 * k.val + 1 * j.val = 128 * k.val + j.val; omega
  | ⟨2, _⟩ => simp only [Rect.off_unit, Rect.stride_unit, e]; show 0 + 1 * d.val = d.val; omega

/-- The score against point j of tile k is the score against point 128·k + j of the second block. -/
theorem bscore_tile (x y : Vec Ideal S1x8192x3 .f32) (k : Fin k0_t1_loop.trips) (n : Fin 8192) (j : Fin 128)
    (h : 128 * k.val + j.val < 8192) :
    bscore (R := 8192) (T := 128) x (tileOf (F := Ideal) y k) n j = bscore (R := 8192) (T := 8192) x y n ⟨128 * k.val + j.val, h⟩ := by
  unfold bscore bsq bdot
  simp only [tileOf_apply y k (0 : Fin 1) j _ h]

/-- THE SCRATCH ROW after k trips: entry n is the minimum of +∞'s word and the scores of n against the first 128·k
    points of the second block. -/
theorem acc_after (x y : Vec Ideal S1x8192x3 .f32) : ∀ (k : ℕ), k ≤ k0_t1_loop.trips → ∀ n : Fin 8192,
    MinUpTo top (fun m : Fin 8192 => bscore (R := 8192) (T := 8192) x y n m) (128 * k) (accFn (F := Ideal) x y k (ix1 n))
  | 0, _, n => by
    show MinUpTo _ _ (128 * 0) (k0_pay1 (F := Ideal) (ix1 n))
    rw [k0_pay1_apply]
    exact minUpTo_zero _ _
  | k + 1, hk, n => by
    have hk' : k < k0_t1_loop.trips := hk
    have h64 : k < 64 := by have := trips_eq; omega
    have ih := acc_after x y k (Nat.le_of_lt hk') n
    rw [show accFn (F := Ideal) x y (k + 1) = accFn (F := Ideal) x y ((⟨k, hk'⟩ : Fin k0_t1_loop.trips).val + 1) from rfl,
      accFn_succ, k0_pay3_apply]
    refine (ih.step (T := 128) (fun j => bscore (R := 8192) (T := 128) x (tileOf (F := Ideal) y ⟨k, hk'⟩) n j) (by omega)
      (fun kk kf hkf => ?_)).of_eq (by omega)
    have hlt : 128 * k + kk.val < 8192 := by have := kk.isLt; omega
    rw [bscore_tile x y ⟨k, hk'⟩ n kk hlt]
    exact congrArg _ (Fin.ext hkf.symm)

/-- After the last trip entry n of the scratch row is the least score of point n over the second block. -/
theorem acc_final (x y : Vec Ideal S1x8192x3 .f32) (n : Fin 8192) :
    accFn (F := Ideal) x y k0_t1_loop.trips (ix1 n)
      = (Finset.univ : Finset (Fin 8192)).fold min top fun m => bscore (R := 8192) (T := 8192) x y n m :=
  (acc_after x y k0_t1_loop.trips (le_refl _) n).eq_fold (by rw [trips_eq])

/-- The least score of the column an index of the row lands on. -/
def colMin (x y : Vec Ideal S1x8192x3 .f32) : S1x1x8192.Idx → EReal :=
  fun i => (Finset.univ : Finset (Fin 8192)).fold min top fun n => bscore (R := 8192) (T := 8192) x y n ⟨(i 2).val, (i 2).isLt⟩

/-- Trip k's store holds, at each of its entries, the least score of the column the entry lands on. -/
theorem colPiece_value (x y : Vec Ideal S1x8192x3 .f32) (k : Fin k0_t1_loop.trips) (z z' : Fin 1) (j : Fin 128) :
    k0_pay4 (F := Ideal) x (tileOf (F := Ideal) y k) (ix3 z z' j)
      = colMin x y ((Rect.unit (s := S1x1x8192) (k0_off2 k) S1x1x128.size (k0_off2_inb k)).emb (ix3 z z' j)) := by
  have h64 : k.val < 64 := by have := trips_eq; have := k.isLt; omega
  have hlt : 128 * k.val + j.val < 8192 := by have := j.isLt; omega
  rw [k0_pay4_apply]
  unfold colMin
  refine congrArg (fun f => (Finset.univ : Finset (Fin 8192)).fold min top f) (funext fun n => ?_)
  rw [bscore_tile x y k n j hlt]
  refine congrArg _ (Fin.ext ?_)
  show 128 * k.val + j.val = (k0_off2 k) 2 + 1 * j.val
  rw [k0_off2_eq]
  show 128 * k.val + j.val = 128 * k.val + 1 * j.val
  omega

/-- So trip k's stored value IS the column function along the store's rectangle. -/
theorem colPiece_fun (x y : Vec Ideal S1x8192x3 .f32) (k : Fin k0_t1_loop.trips) :
    k0_pay4 (F := Ideal) x (tileOf (F := Ideal) y k)
      = fun xx : S1x1x128.Idx => colMin x y ((Rect.unit (s := S1x1x8192) (k0_off2 k) S1x1x128.size (k0_off2_inb k)).emb xx) := by
  funext xx
  obtain ⟨z, z', j, rfl⟩ : ∃ (z z' : Fin 1) (j : Fin 128), xx = ix3 z z' j := ⟨xx 0, xx 1, xx 2, eq_ix3 xx⟩
  exact colPiece_value x y k z z' j

/-- THE ROW OF COLUMN MINIMA: every store of the first k trips holds, at each of its entries, the least score of the
    column the entry lands on. -/
theorem col_after (x y : Vec Ideal S1x8192x3 .f32) : ∀ (k : ℕ), k ≤ k0_t1_loop.trips → ∀ p ∈ colList (F := Ideal) x y k,
    ∀ xx : p.1.shape.Idx, p.2 xx = colMin x y (p.1.emb xx)
  | 0, _ => fun p hp => absurd hp List.not_mem_nil
  | k + 1, hk => by
    have hk' : k < k0_t1_loop.trips := hk
    rw [show colList (F := Ideal) x y (k + 1) = colList (F := Ideal) x y ((⟨k, hk'⟩ : Fin k0_t1_loop.trips).val + 1) from rfl, colList_succ]
    intro p hp
    rcases List.mem_cons.mp hp with rfl | hp'
    · dsimp only [colPiece]
      intro xx
      exact congrFun (colPiece_fun x y ⟨k, hk'⟩) xx
    · exact col_after x y k (Nat.le_of_lt hk') p hp'

end Cert.KernelIdeal.Rows0

end
-- ==== Proof.Out0.lean ====
/-
  What the body leaves in the two outputs' staging buffers (region 0), read at an index over the extended reals.

  The first output's buffer holds one whole store, the scratch row after the last trip relaid [1, 1, 8192]: entry n is
  the least score of point n of the first block over the 8192 points of the second. The second output's buffer holds the
  64 stores of the trips, which tile it and agree, entry by entry, with the least score of the column they land on:
  entry m is the least score of point m of the second block over the 8192 points of the first.
-/
import proofs.«176964_j13589276525289_1_alg».proof.Proof.FrameIdeal
import proofs.«176964_j13589276525289_1_alg».proof.Proof.Rows0

set_option maxRecDepth 16384

noncomputable section

namespace Cert.KernelIdeal.Rows0

open Idealize.ShloMosaic Idealize.ShloMosaic.TcCoe Idealize.SL.Sem Idealize.ShloMosaic.ValueIdx
open Cert.KernelIdeal Cert.KernelIdeal.Gen Cert.KernelIdeal.GenP Cert.KernelIdeal.Body0 Cert.Chamfer Cert.KernelIdeal.Pay

/-- The first output's buffer after the body, at column n. -/
theorem out_row (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 x1 : Vec Ideal S1x8192x3 .f32) (z z' : Fin 1) (n : Fin 8192) :
    out0_A_2 (F := Ideal) c i arg1 harg1 arg2 harg2 arg3 harg3 arg4 harg4 arg5 harg5 x0 x1 (ix3 z z' n)
      = (Finset.univ : Finset (Fin 8192)).fold min top fun m => bscore (R := 8192) (T := 8192) x0 x1 n m := by
  unfold out0_A_2
  rw [View.read_writes_eq_canon _ _ _ (cover0_A_2 c i arg1 harg1 arg2 harg2 arg3 harg3 arg4 harg4 arg5 harg5 x0 x1)]
  show View.canon [rowPiece (F := Ideal) x0 x1] (ix3 z z' n) = _
  rw [View.canon_unit_zero (S := S1x1x8192) hz3, k0_pay5_apply, acc_final]

/-- The second output's buffer after the body, at column m. -/
theorem out_col (c : Dev nD) (i : grid0.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 x1 : Vec Ideal S1x8192x3 .f32) (z z' : Fin 1) (m : Fin 8192) :
    out0_A_3 (F := Ideal) c i arg1 harg1 arg2 harg2 arg3 harg3 arg4 harg4 arg5 harg5 x0 x1 (ix3 z z' m)
      = (Finset.univ : Finset (Fin 8192)).fold min top fun n => bscore (R := 8192) (T := 8192) x0 x1 n m := by
  unfold out0_A_3
  rw [View.read_writes_eq_canon _ _ _ (cover0_A_3 c i arg1 harg1 arg2 harg2 arg3 harg3 arg4 harg4 arg5 harg5 x0 x1)]
  exact View.canon_apply_of_pieces (colMin x0 x1) (colList (F := Ideal) x0 x1 k0_t1_loop.trips)
    (col_after x0 x1 k0_t1_loop.trips (le_refl _)) (ix3 z z' m) (cover_col x0 x1 (ix3 z z' m))

end Cert.KernelIdeal.Rows0

end
-- ==== Proof.Arr0.lean ====
/-
  What region 0 leaves in its two result arrays, over the extended reals.

  The region's grid has one point per batch. At point b the first input window's block is batch b of the first cloud,
  the second's batch b of the second, and each output window's block is row b of its [2, 1, 8192] array. The body
  leaves in the first output's block the least score of each point of the first cloud's batch over the second's, and in
  the second output's block the least score of each point of the second cloud's batch over the first's (Out0). The two
  blocks of each output cover its array, so after the region the first array is `toYRow` and the second `toXRow` of the
  two arrays the region was entered with.
-/
import proofs.«176964_j13589276525289_1_alg».proof.Proof.FrameIdeal
import proofs.«176964_j13589276525289_1_alg».proof.Proof.Out0
import proofs.«176964_j13589276525289_1_alg».proof.Proof.Spec
import Idealize.ShloMosaic.Lib.Pipeline.Value
import Idealize.ShloMosaic.Lib.ValueIdx

set_option maxRecDepth 16384

noncomputable section

namespace Cert.KernelIdeal.Arr0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.KernelIdeal.Rows0 Cert.Chamfer

variable (V : (c : Dev nD) → (b : Ref sig .tc) → Buf (Elt Ideal) ((c : Thread nD τ).loc b))

/-! ## The grid's points and the windows' index maps -/

/-- A point of the two-point grid is a batch number. -/
def bat (t : Fin cfg0.N) : Fin 2 := ⟨t.val, lt_of_lt_of_eq t.isLt N_0⟩

/-- The four index maps, decided over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks are the clouds' batches -/

/-- The first cloud's block at a point. -/
abbrev xblk (c : Dev nD) (t : Fin cfg0.N) : Vec Ideal S1x8192x3 .f32 := iblk0 V c 0 t
/-- The second cloud's block at a point. -/
abbrev yblk (c : Dev nD) (t : Fin cfg0.N) : Vec Ideal S1x8192x3 .f32 := iblk0 V c 1 t

/-- At point t the first window's block is batch t of the first cloud: entry (0, n, d) of the block is entry
    (t·1 + 0, 0·8192 + n, 0·3 + d) of the array. -/
theorem xblk_eq (c : Dev nD) (t : Fin cfg0.N) : xblk V c t = batch (V c main_arg0) (bat t) := by
  obtain ⟨e0, e1, e2, -⟩ := idx_facts t
  funext j
  show V c main_arg0 (((cfg0.win 0).blk t).view.emb j)
      = V c main_arg0 (ix3 (bat t) ⟨(j 1).val, (j 1).isLt⟩ ⟨(j 2).val, (j 2).isLt⟩)
  refine congrArg _ ?_
  funext a
  apply Fin.ext
  have h0 : (j 0).val < 1 := (j 0).isLt
  match a with
  | ⟨0, _⟩ => show win0_0.index t (0 : Fin 3) * 1 + 1 * (j 0).val = t.val; omega
  | ⟨1, _⟩ => show win0_0.index t (1 : Fin 3) * 8192 + 1 * (j 1).val = (j 1).val; omega
  | ⟨2, _⟩ => show win0_0.index t (2 : Fin 3) * 3 + 1 * (j 2).val = (j 2).val; omega

/-- At point t the second window's block is batch t of the second cloud. -/
theorem yblk_eq (c : Dev nD) (t : Fin cfg0.N) : yblk V c t = batch (V c main_arg1) (bat t) := by
  obtain ⟨-, -, -, e0, e1, e2, -⟩ := idx_facts t
  funext j
  show V c main_arg1 (((cfg0.win 1).blk t).view.emb j)
      = V c main_arg1 (ix3 (bat t) ⟨(j 1).val, (j 1).isLt⟩ ⟨(j 2).val, (j 2).isLt⟩)
  refine congrArg _ ?_
  funext a
  apply Fin.ext
  have h0 : (j 0).val < 1 := (j 0).isLt
  match a with
  | ⟨0, _⟩ => show win0_1.index t (0 : Fin 3) * 1 + 1 * (j 0).val = t.val; omega
  | ⟨1, _⟩ => show win0_1.index t (1 : Fin 3) * 8192 + 1 * (j 1).val = (j 1).val; omega
  | ⟨2, _⟩ => show win0_1.index t (2 : Fin 3) * 3 + 1 * (j 2).val = (j 2).val; omega

/-! ## What each point leaves in the outputs' blocks -/

/-- The first output's block after point t, at column n: the least score of point n of the first cloud's batch t. -/
theorem row_at (c : Dev nD) (t : Fin cfg0.N) (z z' : Fin 1) (n : Fin 8192) :
    (outsAt0 V c t).1 (ix3 z z' n) = toY (V c main_arg0) (V c main_arg1) (bat t) n := by
  unfold outsAt0
  dsimp only
  refine (out_row c _ _ _ _ _ _ _ _ _ _ _ (xblk V c t) (yblk V c t) z z' n).trans ?_
  rw [xblk_eq, yblk_eq]
  rfl

/-- The second output's block after point t, at column m: the least score of point m of the second cloud's batch t. -/
theorem col_at (c : Dev nD) (t : Fin cfg0.N) (z z' : Fin 1) (m : Fin 8192) :
    (outsAt0 V c t).2 (ix3 z z' m) = toX (V c main_arg0) (V c main_arg1) (bat t) m := by
  unfold outsAt0
  dsimp only
  refine (out_col c _ _ _ _ _ _ _ _ _ _ _ (xblk V c t) (yblk V c t) z z' m).trans ?_
  rw [xblk_eq, yblk_eq]
  rfl

/-! ## What each point writes back -/

/-- Entry (z, z', n) of an output block at point t sits at (t, z', n) of its array: window 2. -/
theorem emb_row (t : Fin cfg0.N) (z z' : Fin 1) (n : Fin 8192) :
    ((cfg0.win 2).blk t).view.emb (ix3 z z' n) = ix3 (bat t) z' n := by
  obtain ⟨-, -, -, -, -, -, e0, e1, e2, -⟩ := idx_facts t
  funext a
  apply Fin.ext
  have h0 : z.val < 1 := z.isLt
  match a with
  | ⟨0, _⟩ => show win0_2.index t (0 : Fin 3) * 1 + 1 * z.val = t.val; omega
  | ⟨1, _⟩ => show win0_2.index t (1 : Fin 3) * 1 + 1 * z'.val = z'.val; omega
  | ⟨2, _⟩ => show win0_2.index t (2 : Fin 3) * 8192 + 1 * n.val = n.val; omega

/-- The same for window 3. -/
theorem emb_col (t : Fin cfg0.N) (z z' : Fin 1) (m : Fin 8192) :
    ((cfg0.win 3).blk t).view.emb (ix3 z z' m) = ix3 (bat t) z' m := by
  obtain ⟨-, -, -, -, -, -, -, -, -, e0, e1, e2⟩ := idx_facts t
  funext a
  apply Fin.ext
  have h0 : z.val < 1 := z.isLt
  match a with
  | ⟨0, _⟩ => show win0_3.index t (0 : Fin 3) * 1 + 1 * z.val = t.val; omega
  | ⟨1, _⟩ => show win0_3.index t (1 : Fin 3) * 1 + 1 * z'.val = z'.val; omega
  | ⟨2, _⟩ => show win0_3.index t (2 : Fin 3) * 8192 + 1 * m.val = m.val; omega

/-- What point t writes back through window 2 is block t of `toYRow` of the two clouds. -/
theorem flushed_row (c : Dev nD) (t : Fin cfg0.N) :
    (dat0 (F := Ideal) V c).flushed 2 t
      = ((cfg0.win 2).blk t).view.read (Elt Ideal) (toYRow (V c main_arg0) (V c main_arg1)) := by
  show (cfg0.win 2).cut (grid0.coords t) ((dat0 V c).after 2 t) = _
  rw [after0_2]
  funext j
  obtain ⟨z, z', n, rfl⟩ : ∃ (z z' : Fin 1) (n : Fin 8192), j = ix3 z z' n := ⟨j 0, j 1, j 2, eq_ix3 j⟩
  show (outsAt0 V c t).1 (ix3 z z' n)
      = toYRow (V c main_arg0) (V c main_arg1) (((cfg0.win 2).blk t).view.emb (ix3 z z' n))
  rw [row_at, emb_row]
  rfl

/-- What point t writes back through window 3 is block t of `toXRow` of the two clouds. -/
theorem flushed_col (c : Dev nD) (t : Fin cfg0.N) :
    (dat0 (F := Ideal) V c).flushed 3 t
      = ((cfg0.win 3).blk t).view.read (Elt Ideal) (toXRow (V c main_arg0) (V c main_arg1)) := by
  show (cfg0.win 3).cut (grid0.coords t) ((dat0 V c).after 3 t) = _
  rw [after0_3]
  funext j
  obtain ⟨z, z', m, rfl⟩ : ∃ (z z' : Fin 1) (m : Fin 8192), j = ix3 z z' m := ⟨j 0, j 1, j 2, eq_ix3 j⟩
  show (outsAt0 V c t).2 (ix3 z z' m)
      = toXRow (V c main_arg0) (V c main_arg1) (((cfg0.win 3).blk t).view.emb (ix3 z z' m))
  rw [col_at, emb_col]
  rfl

/-! ## The blocks cover the arrays -/

/-- An index of the first result array is in point t's block iff each coordinate is in the block's range. -/
theorem mem_row (t : Fin cfg0.N) (i : S2x1x8192.Idx) :
    i ∈ ((cfg0.win 2).blk t).view.set ↔ ∀ a : Fin 3, win0_2.index t a * S1x1x8192.size a ≤ (i a).val
      ∧ (i a).val < win0_2.index t a * S1x1x8192.size a + S1x1x8192.size a := by
  show i ∈ ((View.whole main_v0_0).slice (win0_2.rect t)).set ↔ _
  rw [View.set_slice_whole, Rect.mem_set_unit]
  exact Iff.rfl

/-- The same for the second result array. -/
theorem mem_col (t : Fin cfg0.N) (i : S2x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Index (b, 0, n) of the first result array is in point b's block, which is written back. -/
theorem cover_row (i : S2x1x8192.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 8192 := (i 2).isLt
  obtain ⟨t, ht⟩ : ∃ t : Fin cfg0.N, t.val = (i 0).val := ⟨⟨(i 0).val, lt_of_lt_of_eq h0 N_0.symm⟩, rfl⟩
  obtain ⟨-, -, -, -, -, -, e0, e1, e2, -⟩ := idx_facts t
  refine ⟨t, flush0_2 t, ?_⟩
  rw [mem_row]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 8192 ≤ (i 2).val ∧ (i 2).val < win0_2.index t (2 : Fin 3) * 8192 + 8192; omega

/-- Index (b, 0, m) of the second result array is in point b's block, which is written back. -/
theorem cover_col (i : S2x1x8192.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 8192 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, e0, e1, e2⟩ := idx_facts t
  refine ⟨t, flush0_3 t, ?_⟩
  rw [mem_col]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

/-! ## The arrays after the region -/

/-- After the region the first result array holds each first-cloud point's least score. -/
theorem arr_toY (c : Dev nD) :
    (dat0 (F := Ideal) V c).arrAt 2 cfg0.N = toYRow (V c main_arg0) (V c main_arg1) :=
  (dat0 V c).arrAt_eq_of_cover 2 (toYRow (V c main_arg0) (V c main_arg1)) (fun t _ => flushed_row V c t) cover_row

/-- After the region the second result array holds each second-cloud point's least score. -/
theorem arr_toX (c : Dev nD) :
    (dat0 (F := Ideal) V c).arrAt 3 cfg0.N = toXRow (V c main_arg0) (V c main_arg1) :=
  (dat0 V c).arrAt_eq_of_cover 3 (toXRow (V c main_arg0) (V c main_arg1)) (fun t _ => flushed_col V c t) cover_col

end Cert.KernelIdeal.Arr0

end
-- ==== Proof.Rows1.lean ====
/-
  What the kernel's loop leaves (region 1), over the extended reals: the two rows of nearest distances of one batch.

  Write x for the block of the first cloud (8192 points) and y for the block of the second (8192 points); tile k of y
  is its rows 128·k … 128·k + 127, so the score of point n of x against point j of tile k is the score against point
  128·k + j of y.

  The scratch row starts at the word of +∞. After k trips its entry n is the minimum of that start value and the scores
  of n against the first 128·k points of y: trip k stores the minimum of what the row held with the minimum over tile k,
  and a running minimum described by its lower bounds absorbs a tile at a time. After the 64th trip entry n is the fold
  of min over all 8192 scores of row n.

  Every store into the row of column minima holds, at each entry, the least score of the column the entry lands on:
  trip k stores at columns 128·k … 128·k + 127 the fold of min, over the 8192 points of x, of the scores against tile
  k's points. So a row covered by these stores reads, at column m, the least score of point m of y.
-/
import proofs.«176964_j13589276525289_1_alg».proof.Proof.Body1
import proofs.«176964_j13589276525289_1_alg».proof.Proof.Payload
import proofs.«176964_j13589276525289_1_alg».proof.Proof.LibMinTiles
import proofs.«176964_j13589276525289_1_alg».proof.Proof.Spec
import Idealize.ShloMosaic.Lib.Pipeline.Value

set_option maxRecDepth 16384

noncomputable section

namespace Cert.KernelIdeal.Rows1

open Idealize.ShloMosaic Idealize.ShloMosaic.TcCoe Idealize.SL.Sem Idealize.ShloMosaic.ValueIdx
open Cert.KernelIdeal Cert.KernelIdeal.Gen Cert.KernelIdeal.Body1 Cert.Chamfer Cert.KernelIdeal.Pay Cert.Lib

/-- The loop runs 64 trips. -/
theorem trips_eq : k1_t1_loop.trips = 64 := by decide +kernel

/-- Row j of tile k is row 128·k + j of the second block. -/
theorem tileOf_apply (y : Vec Ideal S1x8192x3 .f32) (k : Fin k1_t1_loop.trips) (z : Fin 1) (j : Fin 128) (d : Fin 3)
    (h : 128 * k.val + j.val < 8192) :
    tileOf (F := Ideal) y k (ix3 z j d) = y (ix3 z ⟨128 * k.val + j.val, h⟩ d) := by
  show y ((Rect.unit (s := S1x8192x3) (k1_off1 k) S1x128x3.size (k1_off1_inb k)).toLoadRect.idx (ix3 z j d)) = _
  congr 1
  funext a
  apply Fin.ext
  rw [LoadRect.idx_apply]
  have e := k1_off1_eq k
  match a with
  | ⟨0, _⟩ => simp only [Rect.off_unit, Rect.stride_unit, e]; show 0 + 1 * z.val = z.val; omega
  | ⟨1, _⟩ => simp only [Rect.off_unit, Rect.stride_unit, e]; show 128 * k.val + 1 * j.val = 128 * k.val + j.val; omega
  | ⟨2, _⟩ => simp only [Rect.off_unit, Rect.stride_unit, e]; show 0 + 1 * d.val = d.val; omega

/-- The score against point j of tile k is the score against point 128·k + j of the second block. -/
theorem bscore_tile (x y : Vec Ideal S1x8192x3 .f32) (k : Fin k1_t1_loop.trips) (n : Fin 8192) (j : Fin 128)
    (h : 128 * k.val + j.val < 8192) :
    bscore (R := 8192) (T := 128) x (tileOf (F := Ideal) y k) n j = bscore (R := 8192) (T := 8192) x y n ⟨128 * k.val + j.val, h⟩ := by
  unfold bscore bsq bdot
  simp only [tileOf_apply y k (0 : Fin 1) j _ h]

/-- THE SCRATCH ROW after k trips: entry n is the minimum of +∞'s word and the scores of n against the first 128·k
    points of the second block. -/
theorem acc_after (x y : Vec Ideal S1x8192x3 .f32) : ∀ (k : ℕ), k ≤ k1_t1_loop.trips → ∀ n : Fin 8192,
    MinUpTo top (fun m : Fin 8192 => bscore (R := 8192) (T := 8192) x y n m) (128 * k) (accFn (F := Ideal) x y k (ix1 n))
  | 0, _, n => by
    show MinUpTo _ _ (128 * 0) (k1_pay1 (F := Ideal) (ix1 n))
    rw [k1_pay1_apply]
    exact minUpTo_zero _ _
  | k + 1, hk, n => by
    have hk' : k < k1_t1_loop.trips := hk
    have h64 : k < 64 := by have := trips_eq; omega
    have ih := acc_after x y k (Nat.le_of_lt hk') n
    rw [show accFn (F := Ideal) x y (k + 1) = accFn (F := Ideal) x y ((⟨k, hk'⟩ : Fin k1_t1_loop.trips).val + 1) from rfl,
      accFn_succ, k1_pay3_apply]
    refine (ih.step (T := 128) (fun j => bscore (R := 8192) (T := 128) x (tileOf (F := Ideal) y ⟨k, hk'⟩) n j) (by omega)
      (fun kk kf hkf => ?_)).of_eq (by omega)
    have hlt : 128 * k + kk.val < 8192 := by have := kk.isLt; omega
    rw [bscore_tile x y ⟨k, hk'⟩ n kk hlt]
    exact congrArg _ (Fin.ext hkf.symm)

/-- After the last trip entry n of the scratch row is the least score of point n over the second block. -/
theorem acc_final (x y : Vec Ideal S1x8192x3 .f32) (n : Fin 8192) :
    accFn (F := Ideal) x y k1_t1_loop.trips (ix1 n)
      = (Finset.univ : Finset (Fin 8192)).fold min top fun m => bscore (R := 8192) (T := 8192) x y n m :=
  (acc_after x y k1_t1_loop.trips (le_refl _) n).eq_fold (by rw [trips_eq])

/-- The least score of the column an index of the row lands on. -/
def colMin (x y : Vec Ideal S1x8192x3 .f32) : S1x1x8192.Idx → EReal :=
  fun i => (Finset.univ : Finset (Fin 8192)).fold min top fun n => bscore (R := 8192) (T := 8192) x y n ⟨(i 2).val, (i 2).isLt⟩

/-- Trip k's store holds, at each of its entries, the least score of the column the entry lands on. -/
theorem colPiece_value (x y : Vec Ideal S1x8192x3 .f32) (k : Fin k1_t1_loop.trips) (z z' : Fin 1) (j : Fin 128) :
    k1_pay4 (F := Ideal) x (tileOf (F := Ideal) y k) (ix3 z z' j)
      = colMin x y ((Rect.unit (s := S1x1x8192) (k1_off2 k) S1x1x128.size (k1_off2_inb k)).emb (ix3 z z' j)) := by
  have h64 : k.val < 64 := by have := trips_eq; have := k.isLt; omega
  have hlt : 128 * k.val + j.val < 8192 := by have := j.isLt; omega
  rw [k1_pay4_apply]
  unfold colMin
  refine congrArg (fun f => (Finset.univ : Finset (Fin 8192)).fold min top f) (funext fun n => ?_)
  rw [bscore_tile x y k n j hlt]
  refine congrArg _ (Fin.ext ?_)
  show 128 * k.val + j.val = (k1_off2 k) 2 + 1 * j.val
  rw [k1_off2_eq]
  show 128 * k.val + j.val = 128 * k.val + 1 * j.val
  omega

/-- So trip k's stored value IS the column function along the store's rectangle. -/
theorem colPiece_fun (x y : Vec Ideal S1x8192x3 .f32) (k : Fin k1_t1_loop.trips) :
    k1_pay4 (F := Ideal) x (tileOf (F := Ideal) y k)
      = fun xx : S1x1x128.Idx => colMin x y ((Rect.unit (s := S1x1x8192) (k1_off2 k) S1x1x128.size (k1_off2_inb k)).emb xx) := by
  funext xx
  obtain ⟨z, z', j, rfl⟩ : ∃ (z z' : Fin 1) (j : Fin 128), xx = ix3 z z' j := ⟨xx 0, xx 1, xx 2, eq_ix3 xx⟩
  exact colPiece_value x y k z z' j

/-- THE ROW OF COLUMN MINIMA: every store of the first k trips holds, at each of its entries, the least score of the
    column the entry lands on. -/
theorem col_after (x y : Vec Ideal S1x8192x3 .f32) : ∀ (k : ℕ), k ≤ k1_t1_loop.trips → ∀ p ∈ colList (F := Ideal) x y k,
    ∀ xx : p.1.shape.Idx, p.2 xx = colMin x y (p.1.emb xx)
  | 0, _ => fun p hp => absurd hp List.not_mem_nil
  | k + 1, hk => by
    have hk' : k < k1_t1_loop.trips := hk
    rw [show colList (F := Ideal) x y (k + 1) = colList (F := Ideal) x y ((⟨k, hk'⟩ : Fin k1_t1_loop.trips).val + 1) from rfl, colList_succ]
    intro p hp
    rcases List.mem_cons.mp hp with rfl | hp'
    · dsimp only [colPiece]
      intro xx
      exact congrFun (colPiece_fun x y ⟨k, hk'⟩) xx
    · exact col_after x y k (Nat.le_of_lt hk') p hp'

end Cert.KernelIdeal.Rows1

end
-- ==== Proof.Out1.lean ====
/-
  What the body leaves in the two outputs' staging buffers (region 1), read at an index over the extended reals.

  The first output's buffer holds one whole store, the scratch row after the last trip relaid [1, 1, 8192]: entry n is
  the least score of point n of the first block over the 8192 points of the second. The second output's buffer holds the
  64 stores of the trips, which tile it and agree, entry by entry, with the least score of the column they land on:
  entry m is the least score of point m of the second block over the 8192 points of the first.
-/
import proofs.«176964_j13589276525289_1_alg».proof.Proof.FrameIdeal
import proofs.«176964_j13589276525289_1_alg».proof.Proof.Rows1

set_option maxRecDepth 16384

noncomputable section

namespace Cert.KernelIdeal.Rows1

open Idealize.ShloMosaic Idealize.ShloMosaic.TcCoe Idealize.SL.Sem Idealize.ShloMosaic.ValueIdx
open Cert.KernelIdeal Cert.KernelIdeal.Gen Cert.KernelIdeal.GenP Cert.KernelIdeal.Body1 Cert.Chamfer Cert.KernelIdeal.Pay

/-- The first output's buffer after the body, at column n. -/
theorem out_row (c : Dev nD) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 x1 : Vec Ideal S1x8192x3 .f32) (z z' : Fin 1) (n : Fin 8192) :
    out1_A_2 (F := Ideal) c i arg1 harg1 arg2 harg2 arg3 harg3 arg4 harg4 arg5 harg5 x0 x1 (ix3 z z' n)
      = (Finset.univ : Finset (Fin 8192)).fold min top fun m => bscore (R := 8192) (T := 8192) x0 x1 n m := by
  unfold out1_A_2
  rw [View.read_writes_eq_canon _ _ _ (cover1_A_2 c i arg1 harg1 arg2 harg2 arg3 harg3 arg4 harg4 arg5 harg5 x0 x1)]
  show View.canon [rowPiece (F := Ideal) x0 x1] (ix3 z z' n) = _
  rw [View.canon_unit_zero (S := S1x1x8192) hz3, k1_pay5_apply, acc_final]

/-- The second output's buffer after the body, at column m. -/
theorem out_col (c : Dev nD) (i : grid1.Coords) (arg1 : Memref sig .tc .vmem S1x8192x3 .f32) (harg1 : arg1.IsWhole) (arg2 : Memref sig .tc .vmem S1x8192x3 .f32) (harg2 : arg2.IsWhole) (arg3 : Memref sig .tc .vmem S1x1x8192 .f32) (harg3 : arg3.IsWhole) (arg4 : Memref sig .tc .vmem S1x1x8192 .f32) (harg4 : arg4.IsWhole) (arg5 : Memref sig .tc .vmem S8192 .f32) (harg5 : arg5.IsWhole)
    (x0 x1 : Vec Ideal S1x8192x3 .f32) (z z' : Fin 1) (m : Fin 8192) :
    out1_A_3 (F := Ideal) c i arg1 harg1 arg2 harg2 arg3 harg3 arg4 harg4 arg5 harg5 x0 x1 (ix3 z z' m)
      = (Finset.univ : Finset (Fin 8192)).fold min top fun n => bscore (R := 8192) (T := 8192) x0 x1 n m := by
  unfold out1_A_3
  rw [View.read_writes_eq_canon _ _ _ (cover1_A_3 c i arg1 harg1 arg2 harg2 arg3 harg3 arg4 harg4 arg5 harg5 x0 x1)]
  exact View.canon_apply_of_pieces (colMin x0 x1) (colList (F := Ideal) x0 x1 k1_t1_loop.trips)
    (col_after x0 x1 k1_t1_loop.trips (le_refl _)) (ix3 z z' m) (cover_col x0 x1 (ix3 z z' m))

end Cert.KernelIdeal.Rows1

end
-- ==== Proof.Arr1.lean ====
/-
  What region 1 leaves in its two result arrays, over the extended reals.

  The region's grid has one point per batch. At point b the first input window's block is batch b of the first cloud,
  the second's batch b of the second, and each output window's block is row b of its [2, 1, 8192] array. The body
  leaves in the first output's block the least score of each point of the first cloud's batch over the second's, and in
  the second output's block the least score of each point of the second cloud's batch over the first's (Out1). The two
  blocks of each output cover its array, so after the region the first array is `toYRow` and the second `toXRow` of the
  two arrays the region was entered with.
-/
import proofs.«176964_j13589276525289_1_alg».proof.Proof.FrameIdeal
import proofs.«176964_j13589276525289_1_alg».proof.Proof.Out1
import proofs.«176964_j13589276525289_1_alg».proof.Proof.Spec
import Idealize.ShloMosaic.Lib.Pipeline.Value
import Idealize.ShloMosaic.Lib.ValueIdx

set_option maxRecDepth 16384

noncomputable section

namespace Cert.KernelIdeal.Arr1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.KernelIdeal.Rows1 Cert.Chamfer

variable (V : (c : Dev nD) → (b : Ref sig .tc) → Buf (Elt Ideal) ((c : Thread nD τ).loc b))

/-! ## The grid's points and the windows' index maps -/

/-- A point of the two-point grid is a batch number. -/
def bat (t : Fin cfg1.N) : Fin 2 := ⟨t.val, lt_of_lt_of_eq t.isLt N_1⟩

/-- The four index maps, decided over the grid: at point t every window's block index is (t, 0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-! ## The input blocks are the clouds' batches -/

/-- The first cloud's block at a point. -/
abbrev xblk (c : Dev nD) (t : Fin cfg1.N) : Vec Ideal S1x8192x3 .f32 := iblk1 V c 0 t
/-- The second cloud's block at a point. -/
abbrev yblk (c : Dev nD) (t : Fin cfg1.N) : Vec Ideal S1x8192x3 .f32 := iblk1 V c 1 t

/-- At point t the first window's block is batch t of the first cloud: entry (0, n, d) of the block is entry
    (t·1 + 0, 0·8192 + n, 0·3 + d) of the array. -/
theorem xblk_eq (c : Dev nD) (t : Fin cfg1.N) : xblk V c t = batch (V c main_v17) (bat t) := by
  obtain ⟨e0, e1, e2, -⟩ := idx_facts t
  funext j
  show V c main_v17 (((cfg1.win 0).blk t).view.emb j)
      = V c main_v17 (ix3 (bat t) ⟨(j 1).val, (j 1).isLt⟩ ⟨(j 2).val, (j 2).isLt⟩)
  refine congrArg _ ?_
  funext a
  apply Fin.ext
  have h0 : (j 0).val < 1 := (j 0).isLt
  match a with
  | ⟨0, _⟩ => show win1_0.index t (0 : Fin 3) * 1 + 1 * (j 0).val = t.val; omega
  | ⟨1, _⟩ => show win1_0.index t (1 : Fin 3) * 8192 + 1 * (j 1).val = (j 1).val; omega
  | ⟨2, _⟩ => show win1_0.index t (2 : Fin 3) * 3 + 1 * (j 2).val = (j 2).val; omega

/-- At point t the second window's block is batch t of the second cloud. -/
theorem yblk_eq (c : Dev nD) (t : Fin cfg1.N) : yblk V c t = batch (V c main_v27) (bat t) := by
  obtain ⟨-, -, -, e0, e1, e2, -⟩ := idx_facts t
  funext j
  show V c main_v27 (((cfg1.win 1).blk t).view.emb j)
      = V c main_v27 (ix3 (bat t) ⟨(j 1).val, (j 1).isLt⟩ ⟨(j 2).val, (j 2).isLt⟩)
  refine congrArg _ ?_
  funext a
  apply Fin.ext
  have h0 : (j 0).val < 1 := (j 0).isLt
  match a with
  | ⟨0, _⟩ => show win1_1.index t (0 : Fin 3) * 1 + 1 * (j 0).val = t.val; omega
  | ⟨1, _⟩ => show win1_1.index t (1 : Fin 3) * 8192 + 1 * (j 1).val = (j 1).val; omega
  | ⟨2, _⟩ => show win1_1.index t (2 : Fin 3) * 3 + 1 * (j 2).val = (j 2).val; omega

/-! ## What each point leaves in the outputs' blocks -/

/-- The first output's block after point t, at column n: the least score of point n of the first cloud's batch t. -/
theorem row_at (c : Dev nD) (t : Fin cfg1.N) (z z' : Fin 1) (n : Fin 8192) :
    (outsAt1 V c t).1 (ix3 z z' n) = toY (V c main_v17) (V c main_v27) (bat t) n := by
  unfold outsAt1
  dsimp only
  refine (out_row c _ _ _ _ _ _ _ _ _ _ _ (xblk V c t) (yblk V c t) z z' n).trans ?_
  rw [xblk_eq, yblk_eq]
  rfl

/-- The second output's block after point t, at column m: the least score of point m of the second cloud's batch t. -/
theorem col_at (c : Dev nD) (t : Fin cfg1.N) (z z' : Fin 1) (m : Fin 8192) :
    (outsAt1 V c t).2 (ix3 z z' m) = toX (V c main_v17) (V c main_v27) (bat t) m := by
  unfold outsAt1
  dsimp only
  refine (out_col c _ _ _ _ _ _ _ _ _ _ _ (xblk V c t) (yblk V c t) z z' m).trans ?_
  rw [xblk_eq, yblk_eq]
  rfl

/-! ## What each point writes back -/

/-- Entry (z, z', n) of an output block at point t sits at (t, z', n) of its array: window 2. -/
theorem emb_row (t : Fin cfg1.N) (z z' : Fin 1) (n : Fin 8192) :
    ((cfg1.win 2).blk t).view.emb (ix3 z z' n) = ix3 (bat t) z' n := by
  obtain ⟨-, -, -, -, -, -, e0, e1, e2, -⟩ := idx_facts t
  funext a
  apply Fin.ext
  have h0 : z.val < 1 := z.isLt
  match a with
  | ⟨0, _⟩ => show win1_2.index t (0 : Fin 3) * 1 + 1 * z.val = t.val; omega
  | ⟨1, _⟩ => show win1_2.index t (1 : Fin 3) * 1 + 1 * z'.val = z'.val; omega
  | ⟨2, _⟩ => show win1_2.index t (2 : Fin 3) * 8192 + 1 * n.val = n.val; omega

/-- The same for window 3. -/
theorem emb_col (t : Fin cfg1.N) (z z' : Fin 1) (m : Fin 8192) :
    ((cfg1.win 3).blk t).view.emb (ix3 z z' m) = ix3 (bat t) z' m := by
  obtain ⟨-, -, -, -, -, -, -, -, -, e0, e1, e2⟩ := idx_facts t
  funext a
  apply Fin.ext
  have h0 : z.val < 1 := z.isLt
  match a with
  | ⟨0, _⟩ => show win1_3.index t (0 : Fin 3) * 1 + 1 * z.val = t.val; omega
  | ⟨1, _⟩ => show win1_3.index t (1 : Fin 3) * 1 + 1 * z'.val = z'.val; omega
  | ⟨2, _⟩ => show win1_3.index t (2 : Fin 3) * 8192 + 1 * m.val = m.val; omega

/-- What point t writes back through window 2 is block t of `toYRow` of the two clouds. -/
theorem flushed_row (c : Dev nD) (t : Fin cfg1.N) :
    (dat1 (F := Ideal) V c).flushed 2 t
      = ((cfg1.win 2).blk t).view.read (Elt Ideal) (toYRow (V c main_v17) (V c main_v27)) := by
  show (cfg1.win 2).cut (grid1.coords t) ((dat1 V c).after 2 t) = _
  rw [after1_2]
  funext j
  obtain ⟨z, z', n, rfl⟩ : ∃ (z z' : Fin 1) (n : Fin 8192), j = ix3 z z' n := ⟨j 0, j 1, j 2, eq_ix3 j⟩
  show (outsAt1 V c t).1 (ix3 z z' n)
      = toYRow (V c main_v17) (V c main_v27) (((cfg1.win 2).blk t).view.emb (ix3 z z' n))
  rw [row_at, emb_row]
  rfl

/-- What point t writes back through window 3 is block t of `toXRow` of the two clouds. -/
theorem flushed_col (c : Dev nD) (t : Fin cfg1.N) :
    (dat1 (F := Ideal) V c).flushed 3 t
      = ((cfg1.win 3).blk t).view.read (Elt Ideal) (toXRow (V c main_v17) (V c main_v27)) := by
  show (cfg1.win 3).cut (grid1.coords t) ((dat1 V c).after 3 t) = _
  rw [after1_3]
  funext j
  obtain ⟨z, z', m, rfl⟩ : ∃ (z z' : Fin 1) (m : Fin 8192), j = ix3 z z' m := ⟨j 0, j 1, j 2, eq_ix3 j⟩
  show (outsAt1 V c t).2 (ix3 z z' m)
      = toXRow (V c main_v17) (V c main_v27) (((cfg1.win 3).blk t).view.emb (ix3 z z' m))
  rw [col_at, emb_col]
  rfl

/-! ## The blocks cover the arrays -/

/-- An index of the first result array is in point t's block iff each coordinate is in the block's range. -/
theorem mem_row (t : Fin cfg1.N) (i : S2x1x8192.Idx) :
    i ∈ ((cfg1.win 2).blk t).view.set ↔ ∀ a : Fin 3, win1_2.index t a * S1x1x8192.size a ≤ (i a).val
      ∧ (i a).val < win1_2.index t a * S1x1x8192.size a + S1x1x8192.size a := by
  show i ∈ ((View.whole main_v28_0).slice (win1_2.rect t)).set ↔ _
  rw [View.set_slice_whole, Rect.mem_set_unit]
  exact Iff.rfl

/-- The same for the second result array. -/
theorem mem_col (t : Fin cfg1.N) (i : S2x1x8192.Idx) :
    i ∈ ((cfg1.win 3).blk t).view.set ↔ ∀ a : Fin 3, win1_3.index t a * S1x1x8192.size a ≤ (i a).val
      ∧ (i a).val < win1_3.index t a * S1x1x8192.size a + S1x1x8192.size a := by
  show i ∈ ((View.whole main_v28_1).slice (win1_3.rect t)).set ↔ _
  rw [View.set_slice_whole, Rect.mem_set_unit]
  exact Iff.rfl

/-- Index (b, 0, n) of the first result array is in point b's block, which is written back. -/
theorem cover_row (i : S2x1x8192.Idx) :
    ∃ t : Fin cfg1.N, (cfg1.win 2).flush t = true ∧ i ∈ ((cfg1.win 2).blk t).view.set := by
  have h0 : (i 0).val < 2 := (i 0).isLt
  have h1 : (i 1).val < 1 := (i 1).isLt
  have h2 : (i 2).val < 8192 := (i 2).isLt
  obtain ⟨t, ht⟩ : ∃ t : Fin cfg1.N, t.val = (i 0).val := ⟨⟨(i 0).val, lt_of_lt_of_eq h0 N_1.symm⟩, rfl⟩
  obtain ⟨-, -, -, -, -, -, e0, e1, e2, -⟩ := idx_facts t
  refine ⟨t, flush1_2 t, ?_⟩
  rw [mem_row]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 8192 ≤ (i 2).val ∧ (i 2).val < win1_2.index t (2 : Fin 3) * 8192 + 8192; omega

/-- Index (b, 0, m) of the second result array is in point b's block, which is written back. -/
theorem cover_col (i : S2x1x8192.Idx) :
    ∃ t : Fin cfg1.N, (cfg1.win 3).flush t = true ∧ i ∈ ((cfg1.win 3).blk t).view.set := by
  have h0 : (i 0).val < 2 := (i 0).isLt
  have h1 : (i 1).val < 1 := (i 1).isLt
  have h2 : (i 2).val < 8192 := (i 2).isLt
  obtain ⟨t, ht⟩ : ∃ t : Fin cfg1.N, t.val = (i 0).val := ⟨⟨(i 0).val, lt_of_lt_of_eq h0 N_1.symm⟩, rfl⟩
  obtain ⟨-, -, -, -, -, -, -, -, -, e0, e1, e2⟩ := idx_facts t
  refine ⟨t, flush1_3 t, ?_⟩
  rw [mem_col]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1 ≤ (i 1).val ∧ (i 1).val < win1_3.index t (1 : Fin 3) * 1 + 1; omega
  | ⟨2, _⟩ => show win1_3.index t (2 : Fin 3) * 8192 ≤ (i 2).val ∧ (i 2).val < win1_3.index t (2 : Fin 3) * 8192 + 8192; omega

/-! ## The arrays after the region -/

/-- After the region the first result array holds each first-cloud point's least score. -/
theorem arr_toY (c : Dev nD) :
    (dat1 (F := Ideal) V c).arrAt 2 cfg1.N = toYRow (V c main_v17) (V c main_v27) :=
  (dat1 V c).arrAt_eq_of_cover 2 (toYRow (V c main_v17) (V c main_v27)) (fun t _ => flushed_row V c t) cover_row

/-- After the region the second result array holds each second-cloud point's least score. -/
theorem arr_toX (c : Dev nD) :
    (dat1 (F := Ideal) V c).arrAt 3 cfg1.N = toXRow (V c main_v17) (V c main_v27) :=
  (dat1 V c).arrAt_eq_of_cover 3 (toXRow (V c main_v17) (V c main_v27)) (fun t _ => flushed_col V c t) cover_col

end Cert.KernelIdeal.Arr1

end
-- ==== Proof.KernelValue.lean ====
/-
  The kernel program's result over the extended reals, as one function of its two argument clouds.

  Region 0 is entered on the two arguments and leaves the rows `toYRow`, `toXRow` of them; region 1 is entered on the
  voxel coordinates of the two arguments (the host operations between the regions) and leaves the rows of those; the
  host operations after region 1 relay the four rows to [2, 8192] and combine their means. So the result buffer ends at
      total (toYFlat (vox A) (vox B)) (toXFlat (vox A) (vox B)) (toYFlat A B) (toXFlat A B)
  of the launch contents A, B of the two arguments, and the arguments end as launched.
-/
import proofs.«176964_j13589276525289_1_alg».proof.Proof.RunResult
import proofs.«176964_j13589276525289_1_alg».proof.Proof.HostChain
import proofs.«176964_j13589276525289_1_alg».proof.Proof.Arr0
import proofs.«176964_j13589276525289_1_alg».proof.Proof.Arr1

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.GenP Cert.KernelIdeal.Shared Cert.KernelIdeal.HostChain Cert.Chamfer

/-- The result as a function of the two clouds. -/
def final (A B : FVec Ideal S2x8192x3 .f32) : FVec Ideal S_ .f32 :=
  total (toYFlat (vox A) (vox B)) (toXFlat (vox A) (vox B)) (toYFlat A B) (toXFlat A B)

variable (m : (ℓ : Loc nD τ sig) → Buf (Elt Ideal) ℓ) (ρ : Dev nD → PrngReg)

/-- What region 0 leaves in its two result arrays: the rows of the two arguments. -/
theorem region0_toY (c : Dev nD) :
    W1 (F := Ideal) m ρ c (Proc.devRef .tc main_v0_0) = toYRow (m ((c : Thread nD τ).loc main_arg0)) (m ((c : Thread nD τ).loc main_arg1)) :=
  (W1_arr m ρ c 2).trans (Arr0.arr_toY (V0 m ρ) c)
theorem region0_toX (c : Dev nD) :
    W1 (F := Ideal) m ρ c (Proc.devRef .tc main_v0_1) = toXRow (m ((c : Thread nD τ).loc main_arg0)) (m ((c : Thread nD τ).loc main_arg1)) :=
  (W1_arr m ρ c 3).trans (Arr0.arr_toX (V0 m ρ) c)

/-- What region 1 leaves in its two result arrays: the rows of the two arguments' voxel coordinates. -/
theorem region1_toY (c : Dev nD) :
    W7 (F := Ideal) m ρ c (Proc.devRef .tc main_v28_0)
      = toYRow (vox (m ((c : Thread nD τ).loc main_arg0))) (vox (m ((c : Thread nD τ).loc main_arg1))) := by
  refine ((W7_arr m ρ c 2).trans (Arr1.arr_toY (V6 m ρ) c)).trans ?_
  rw [show V6 m ρ c main_v17 = W6 (F := Ideal) m ρ c (Proc.devRef .tc main_v17) from rfl,
    show V6 m ρ c main_v27 = W6 (F := Ideal) m ρ c (Proc.devRef .tc main_v27) from rfl, entry_v17, entry_v27]
theorem region1_toX (c : Dev nD) :
    W7 (F := Ideal) m ρ c (Proc.devRef .tc main_v28_1)
      = toXRow (vox (m ((c : Thread nD τ).loc main_arg0))) (vox (m ((c : Thread nD τ).loc main_arg1))) := by
  refine ((W7_arr m ρ c 3).trans (Arr1.arr_toX (V6 m ρ) c)).trans ?_
  rw [show V6 m ρ c main_v17 = W6 (F := Ideal) m ρ c (Proc.devRef .tc main_v17) from rfl,
    show V6 m ρ c main_v27 = W6 (F := Ideal) m ρ c (Proc.devRef .tc main_v27) from rfl, entry_v17, entry_v27]

/-- The result buffer at the last boundary. -/
theorem last_boundary (c : Dev nD) :
    W8 (F := Ideal) m ρ c (Proc.devRef .tc main_v36) = final (m ((c : Thread nD τ).loc main_arg0)) (m ((c : Thread nD τ).loc main_arg1)) := by
  rw [result_eq m ρ c, region0_toY, region0_toX, region1_toY, region1_toX, relay_toYRow, relay_toXRow, relay_toYRow, relay_toXRow]
  rfl

/-- THE KERNEL PROGRAM'S RUN: every weakly fair execution terminates without a fault, the result is `final` of the two
    arguments as launched, and the arguments end as launched. -/
theorem run : θ_run defs (onTc (τ := τ) (main (F := Ideal))) ⟨m, fun _ => 0, ρ⟩ (fun r => ∀ c : Dev nD,
      r.2.mem ((c.tc : Thread nD τ).loc main_v36) = final (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (last_boundary m ρ c), (h c).2⟩) (run_result m ρ)

end Cert.KernelIdeal.KernelValue

end
-- ==== Proof.LibBatchDot.lean ====
/-
  A batched product A · Bᵀ, read at an output index.

  The operands are [Bt, M, K] and [Bt, N, K]: axis 0 of both is the batch, axis 2 of both is contracted, and the result is
  [Bt, M, N]. No transposition is computed: entry (b, r, c) of the result is
      Σ_k  A (b, r, k) · B (b, c, k).
  The library gives the product's value as a sum over the dimension numbers' contraction index set of the operands at two
  computed operand indices; with one contracted axis that index is the coordinate k, and the operand indices are
  (b, r, k) and (b, c, k). Stated for any extents and any dimension-numbers record with these axis lists, for the block
  product into the zero accumulator and for the host's product.
-/
import Idealize.ShloMosaic.PureOps.Ideal.Laws
import Idealize.ShloMosaic.Lib.ValueIdx

noncomputable section

namespace Cert.Lib

open Idealize.ShloMosaic Idealize.ShloMosaic.ValueIdx

variable {Bt M N K : Nat}

/-- The dimension numbers of a batched [Bt, M, K] · [Bt, N, K]ᵀ product. -/
def bnt (wf : DotDims.WF ⟨3, ![Bt, M, K]⟩ ⟨3, ![Bt, N, K]⟩ ⟨3, ![Bt, M, N]⟩ [2] [2] [1] [1] [0] [0]) :
    DotDims ⟨3, ![Bt, M, K]⟩ ⟨3, ![Bt, N, K]⟩ ⟨3, ![Bt, M, N]⟩ := ⟨[2], [2], [1], [1], [0], [0], wf⟩

variable (wf : DotDims.WF ⟨3, ![Bt, M, K]⟩ ⟨3, ![Bt, N, K]⟩ ⟨3, ![Bt, M, N]⟩ [2] [2] [1] [1] [0] [0])

theorem bnt_lhs_0 (i : (⟨3, ![Bt, M, N]⟩ : Shape).Idx) (q : (bnt wf).contr.Idx) : ((bnt wf).lhsIdx i q 0).val = (i 0).val := by
  unfold DotDims.lhsIdx
  rw [dif_pos (show (0 : Fin (⟨3, ![Bt, M, K]⟩ : Shape).rank) ∈ (bnt wf).lhsBatch by simp [bnt])]
  rfl
theorem bnt_lhs_1 (i : (⟨3, ![Bt, M, N]⟩ : Shape).Idx) (q : (bnt wf).contr.Idx) : ((bnt wf).lhsIdx i q 1).val = (i 1).val := by
  unfold DotDims.lhsIdx
  rw [dif_neg (show ¬(1 : Fin (⟨3, ![Bt, M, K]⟩ : Shape).rank) ∈ (bnt wf).lhsBatch by simp [bnt]),
    dif_pos (show (1 : Fin (⟨3, ![Bt, M, K]⟩ : Shape).rank) ∈ (bnt wf).lhsNonContracting by simp [bnt])]
  rfl
theorem bnt_lhs_2 (i : (⟨3, ![Bt, M, N]⟩ : Shape).Idx) (q : (bnt wf).contr.Idx) :
    ((bnt wf).lhsIdx i q 2).val = (q ⟨0, Nat.one_pos⟩).val :=
  (bnt wf).lhsIdx_val_of_single rfl i q
theorem bnt_rhs_0 (i : (⟨3, ![Bt, M, N]⟩ : Shape).Idx) (q : (bnt wf).contr.Idx) : ((bnt wf).rhsIdx i q 0).val = (i 0).val := by
  unfold DotDims.rhsIdx
  rw [dif_pos (show (0 : Fin (⟨3, ![Bt, N, K]⟩ : Shape).rank) ∈ (bnt wf).rhsBatch by simp [bnt])]
  rfl
theorem bnt_rhs_1 (i : (⟨3, ![Bt, M, N]⟩ : Shape).Idx) (q : (bnt wf).contr.Idx) : ((bnt wf).rhsIdx i q 1).val = (i 2).val := by
  unfold DotDims.rhsIdx
  rw [dif_neg (show ¬(1 : Fin (⟨3, ![Bt, N, K]⟩ : Shape).rank) ∈ (bnt wf).rhsBatch by simp [bnt]),
    dif_pos (show (1 : Fin (⟨3, ![Bt, N, K]⟩ : Shape).rank) ∈ (bnt wf).rhsNonContracting by simp [bnt])]
  rfl
theorem bnt_rhs_2 (i : (⟨3, ![Bt, M, N]⟩ : Shape).Idx) (q : (bnt wf).contr.Idx) :
    ((bnt wf).rhsIdx i q 2).val = (q ⟨0, Nat.one_pos⟩).val :=
  (bnt wf).rhsIdx_val_of_single rfl i q

/-- The contraction sum at (b, r, c) runs over the pairs (b, r, k), (b, c, k). -/
theorem sum_bnt {β : Type} [AddCommMonoid β] (f : (⟨3, ![Bt, M, K]⟩ : Shape).Idx → (⟨3, ![Bt, N, K]⟩ : Shape).Idx → β)
    (b : Fin Bt) (r : Fin M) (c : Fin N) :
    ∑ k : (bnt wf).contr.Idx, f ((bnt wf).lhsIdx (ix3 b r c) k) ((bnt wf).rhsIdx (ix3 b r c) k)
      = ∑ k : Fin K, f (ix3 b r k) (ix3 b c k) := by
  rw [← Equiv.sum_comp (contrEquiv1 (bnt wf) K rfl rfl).symm]
  refine Finset.sum_congr rfl fun k _ => ?_
  have hk := contrEquiv1_symm_val (bnt wf) K rfl rfl k
  have el : (bnt wf).lhsIdx (ix3 b r c) ((contrEquiv1 (bnt wf) K rfl rfl).symm k) = ix3 b r k := funext fun a => Fin.ext (by
    match a with
    | ⟨0, _⟩ => exact bnt_lhs_0 wf _ _
    | ⟨1, _⟩ => exact bnt_lhs_1 wf _ _
    | ⟨2, _⟩ => exact (bnt_lhs_2 wf _ _).trans hk)
  have er : (bnt wf).rhsIdx (ix3 b r c) ((contrEquiv1 (bnt wf) K rfl rfl).symm k) = ix3 b c k := funext fun a => Fin.ext (by
    match a with
    | ⟨0, _⟩ => exact bnt_rhs_0 wf _ _
    | ⟨1, _⟩ => exact bnt_rhs_1 wf _ _
    | ⟨2, _⟩ => exact (bnt_rhs_2 wf _ _).trans hk)
  rw [el, er]

/-- The same for any record with those axis lists. -/
theorem sum_contr_bnt {β : Type} [AddCommMonoid β] (d : DotDims ⟨3, ![Bt, M, K]⟩ ⟨3, ![Bt, N, K]⟩ ⟨3, ![Bt, M, N]⟩)
    (hlc : d.lhsContracting = [2]) (hrc : d.rhsContracting = [2])
    (hln : d.lhsNonContracting = [1]) (hrn : d.rhsNonContracting = [1])
    (hlb : d.lhsBatch = [0]) (hrb : d.rhsBatch = [0])
    (f : (⟨3, ![Bt, M, K]⟩ : Shape).Idx → (⟨3, ![Bt, N, K]⟩ : Shape).Idx → β) (b : Fin Bt) (r : Fin M) (c : Fin N) :
    ∑ k : d.contr.Idx, f (d.lhsIdx (ix3 b r c) k) (d.rhsIdx (ix3 b r c) k) = ∑ k : Fin K, f (ix3 b r k) (ix3 b c k) := by
  obtain ⟨lc, rc', ln, rn, lb, rb, wf'⟩ := d
  simp only at hlc hrc hln hrn hlb hrb
  subst hlc hrc hln hrn hlb hrb
  exact sum_bnt wf' f b r c

/-- The batched block product into the zero accumulator, at (b, r, c): the sum over k of A (b, r, k) · B (b, c, k). -/
theorem matmul_bnt_apply {φ₁ φ₂ : FTy} (d : DotDims ⟨3, ![Bt, M, K]⟩ ⟨3, ![Bt, N, K]⟩ ⟨3, ![Bt, M, N]⟩)
    (hlc : d.lhsContracting = [2]) (hrc : d.rhsContracting = [2])
    (hln : d.lhsNonContracting = [1]) (hrn : d.rhsNonContracting = [1])
    (hlb : d.lhsBatch = [0]) (hrb : d.rhsBatch = [0]) (prec : Option ContractPrecision)
    (A : FVec Ideal ⟨3, ![Bt, M, K]⟩ φ₁) (B : FVec Ideal ⟨3, ![Bt, N, K]⟩ φ₂) (b : Fin Bt) (r : Fin M) (c : Fin N) :
    matmul d prec A B (constant ⟨3, ![Bt, M, N]⟩ .f32 0x00000000#32) (ix3 b r c) = ∑ k : Fin K, A (ix3 b r k) * B (ix3 b c k) := by
  simp only [matmul]
  rw [Ideal.matmul_constant_zero_apply]
  exact sum_contr_bnt d hlc hrc hln hrn hlb hrb (fun a b' => A a * B b') b r c

/-- The host's batched product at (b, r, c): the same sum. -/
theorem dotGeneral_bnt_apply {φ₁ φ₂ : FTy} (d : DotDims ⟨3, ![Bt, M, K]⟩ ⟨3, ![Bt, N, K]⟩ ⟨3, ![Bt, M, N]⟩)
    (hlc : d.lhsContracting = [2]) (hrc : d.rhsContracting = [2])
    (hln : d.lhsNonContracting = [1]) (hrn : d.rhsNonContracting = [1])
    (hlb : d.lhsBatch = [0]) (hrb : d.rhsBatch = [0]) (prec : Option ContractPrecision)
    (A : FVec Ideal ⟨3, ![Bt, M, K]⟩ φ₁) (B : FVec Ideal ⟨3, ![Bt, N, K]⟩ φ₂) (b : Fin Bt) (r : Fin M) (c : Fin N) :
    Host.dotGeneral d prec A B (ix3 b r c) = ∑ k : Fin K, A (ix3 b r k) * B (ix3 b c k) := by
  simp only [Host.dotGeneral]
  rw [Ideal.dotGeneral_apply]
  exact sum_contr_bnt d hlc hrc hln hrn hlb hrb (fun a b' => A a * B b') b r c

end Cert.Lib

end
-- ==== Proof.RefValue.lean ====
/-
  The reference's result over the extended reals, as the shared host arithmetic of the four rows of nearest distances.

  The reference computes, for the raw clouds and again for their voxel coordinates: the squared norms of every point
  (sums over the three coordinates from the zero word), the batched products of the two clouds' points, the score array
  (|x n|² + |y m|²) − 2·⟨x n, y m⟩ over [2, 8192, 8192], and its minima over the last axis and over the middle axis from
  the word of +∞: entry (b, n) of the first is the least score of point n of the first cloud over the second cloud's
  points, entry (b, m) of the second the least score of point m of the second cloud over the first cloud's points.
  The voxel coordinates are the shared function `vox` of each cloud, the means and the final sums the shared `total`.
-/
import proofs.«176964_j13589276525289_1_alg».proof.Proof.Gen.ReferenceIdeal.Run
import proofs.«176964_j13589276525289_1_alg».proof.Proof.Gen.ReferenceIdeal.Read
import proofs.«176964_j13589276525289_1_alg».proof.Proof.Spec
import proofs.«176964_j13589276525289_1_alg».proof.Proof.Shared
import proofs.«176964_j13589276525289_1_alg».proof.Proof.LibBatchDot
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read Cert.Chamfer
open Cert.KernelIdeal.Shared (vox meanOf total)

/-! ## The score array at an index

Every stage below is read for ANY two clouds A, B: the voxel stage's score array is the same composition of the same
operations applied to the two voxel clouds. -/

/-- The first squared norm, broadcast over the third axis: |A b n|² at (b, n, m). -/
theorem sqA_apply (A : (⟨S2x8192x3, .f32⟩ : BufTy).Contents (Elt Ideal)) (b : Fin 2) (n m : Fin 8192) :
    val_main_v7 (F := Ideal) A (ix3 b n m) = sq A b n := by
  rw [val_main_v7_apply, val_main_v5_apply, val_main_v1_apply]
  show Ideal.ofBits .f32 0x00000000#32 + _ = _
  rw [Ideal.ofBits_zero_f32, zero_add]
  refine Finset.sum_congr rfl fun k _ => ?_
  have e : idx_main_v1 (idx_main_v5 (idx_main_v7 (ix3 b n m))) k = ix3 b n k := funext fun a => Fin.ext (by
    match a with
    | ⟨0, _⟩ => rfl
    | ⟨1, _⟩ => rfl
    | ⟨2, _⟩ => rfl)
  rw [e]
  rfl

/-- The second squared norm, broadcast over the middle axis: |B b m|² at (b, n, m). -/
theorem sqB_apply (B : (⟨S2x8192x3, .f32⟩ : BufTy).Contents (Elt Ideal)) (b : Fin 2) (n m : Fin 8192) :
    val_main_v8 (F := Ideal) B (ix3 b n m) = sq B b m := by
  rw [val_main_v8_apply, val_main_v6_apply, val_main_v3_apply]
  show Ideal.ofBits .f32 0x00000000#32 + _ = _
  rw [Ideal.ofBits_zero_f32, zero_add]
  refine Finset.sum_congr rfl fun k _ => ?_
  have e : idx_main_v3 (idx_main_v6 (idx_main_v8 (ix3 b n m))) k = ix3 b m k := funext fun a => Fin.ext (by
    match a with
    | ⟨0, _⟩ => rfl
    | ⟨1, _⟩ => rfl
    | ⟨2, _⟩ => rfl)
  rw [e]
  rfl

/-- The batched product at (b, n, m): ⟨A b n, B b m⟩. -/
theorem dot_apply (A B : (⟨S2x8192x3, .f32⟩ : BufTy).Contents (Elt Ideal)) (b : Fin 2) (n m : Fin 8192) :
    val_main_v4 (F := Ideal) A B (ix3 b n m) = dotp A B b n m := by
  rw [val_main_v4_apply]
  refine Finset.sum_congr rfl fun k _ => ?_
  have el : lidx_main_v4 (ix3 b n m) k = ix3 b n k := funext fun a => Fin.ext (by
    match a with
    | ⟨0, _⟩ => rfl
    | ⟨1, _⟩ => rfl
    | ⟨2, _⟩ => rfl)
  have er : ridx_main_v4 (ix3 b n m) k = ix3 b m k := funext fun a => Fin.ext (by
    match a with
    | ⟨0, _⟩ => rfl
    | ⟨1, _⟩ => rfl
    | ⟨2, _⟩ => rfl)
  rw [el, er]

/-- The score array at (b, n, m). -/
theorem score_apply (A B : (⟨S2x8192x3, .f32⟩ : BufTy).Contents (Elt Ideal)) (b : Fin 2) (n m : Fin 8192) :
    val_main_v12 (F := Ideal) A B (ix3 b n m) = score A B b n m := by
  rw [val_main_v12_apply, val_main_v9_apply, val_main_v11_apply, val_main_v10_apply, sqA_apply, sqB_apply, dot_apply]
  rfl

/-! ## The two minima -/

/-- The raw clouds' first row: each point of the first cloud against the second cloud. -/
theorem raw_toY (x0 x1 : (⟨S2x8192x3, .f32⟩ : BufTy).Contents (Elt Ideal)) :
    val_main_v13 (F := Ideal) x0 x1 = toYFlat x0 x1 := by
  funext i
  obtain ⟨b, n, rfl⟩ : ∃ b n, i = ix2 b n := ⟨i 0, i 1, eq_ix2 i⟩
  have hR : S2x8192x8192.Reduces [2] S2x8192 := by decide
  unfold val_main_v13
  refine (Host.reduce_eq_fold_single FloatOps.minimumf _ _ reducesTo_S2x8192x8192_S2x8192_d2 hR h_S_ (ix2 b n)).trans ?_
  show Finset.fold min top _ _ = Finset.fold min top (fun m => score x0 x1 b n m) Finset.univ
  refine congrArg (Finset.fold min top · Finset.univ) (funext fun m => ?_)
  have e : hR.lift (ix2 b n) m = ix3 b n m := funext fun a => Fin.ext (by
    match a with
    | ⟨0, _⟩ => rfl
    | ⟨1, _⟩ => rfl
    | ⟨2, _⟩ => rfl)
  show val_main_v12 (F := Ideal) x0 x1 (hR.lift (ix2 b n) m) = _
  rw [e]
  exact score_apply x0 x1 b n m

/-- The raw clouds' second row: each point of the second cloud against the first cloud. -/
theorem raw_toX (x0 x1 : (⟨S2x8192x3, .f32⟩ : BufTy).Contents (Elt Ideal)) :
    val_main_v14 (F := Ideal) x0 x1 = toXFlat x0 x1 := by
  funext i
  obtain ⟨b, m, rfl⟩ : ∃ b m, i = ix2 b m := ⟨i 0, i 1, eq_ix2 i⟩
  have hR : S2x8192x8192.Reduces [1] S2x8192 := by decide
  unfold val_main_v14
  refine (Host.reduce_eq_fold_single FloatOps.minimumf _ _ reducesTo_S2x8192x8192_S2x8192_d1 hR h_S_ (ix2 b m)).trans ?_
  show Finset.fold min top _ _ = Finset.fold min top (fun n => score x0 x1 b n m) Finset.univ
  refine congrArg (Finset.fold min top · Finset.univ) (funext fun n => ?_)
  have e : hR.lift (ix2 b m) n = ix3 b n m := funext fun a => Fin.ext (by
    match a with
    | ⟨0, _⟩ => rfl
    | ⟨1, _⟩ => rfl
    | ⟨2, _⟩ => rfl)
  show val_main_v12 (F := Ideal) x0 x1 (hR.lift (ix2 b m) n) = _
  rw [e]
  exact score_apply x0 x1 b n m

/-- The reference's voxel coordinates are the shared function of each cloud. -/
theorem vox_arg0 (x0 : (⟨S2x8192x3, .f32⟩ : BufTy).Contents (Elt Ideal)) : val_main_v29 (F := Ideal) x0 = vox x0 := by
  rfl
theorem vox_arg1 (x1 : (⟨S2x8192x3, .f32⟩ : BufTy).Contents (Elt Ideal)) : val_main_v39 (F := Ideal) x1 = vox x1 := by
  rfl

/-- The voxel clouds' two rows. -/
theorem vox_toY (x0 x1 : (⟨S2x8192x3, .f32⟩ : BufTy).Contents (Elt Ideal)) :
    val_main_v53 (F := Ideal) x0 x1 = toYFlat (vox x0) (vox x1) := by
  have e : val_main_v53 (F := Ideal) x0 x1 = val_main_v13 (F := Ideal) (val_main_v29 (F := Ideal) x0) (val_main_v39 (F := Ideal) x1) := rfl
  rw [e, raw_toY, vox_arg0, vox_arg1]
theorem vox_toX (x0 x1 : (⟨S2x8192x3, .f32⟩ : BufTy).Contents (Elt Ideal)) :
    val_main_v54 (F := Ideal) x0 x1 = toXFlat (vox x0) (vox x1) := by
  have e : val_main_v54 (F := Ideal) x0 x1 = val_main_v14 (F := Ideal) (val_main_v29 (F := Ideal) x0) (val_main_v39 (F := Ideal) x1) := rfl
  rw [e, raw_toX, vox_arg0, vox_arg1]

/-- THE REFERENCE'S RESULT. -/
theorem result (x0 x1 : (⟨S2x8192x3, .f32⟩ : BufTy).Contents (Elt Ideal)) :
    val_main_v60 (F := Ideal) x0 x1
      = total (toYFlat (vox x0) (vox x1)) (toXFlat (vox x0) (vox x1)) (toYFlat x0 x1) (toXFlat x0 x1) := by
  unfold val_main_v60 val_main_v59 val_main_v56 val_main_v58 val_main_v55 val_main_v57 val_main_v19 val_main_v16 val_main_v18
    val_main_v15 val_main_v17
  rw [vox_toY, vox_toX, raw_toY, raw_toX]
  rfl

end Cert.ReferenceIdeal.RefValue

end
-- ==== Proof.lean ====
/-
  The certificate of the double nearest-neighbour distance kernel against its reference.

  Both programs take two clouds of 8192 points in three dimensions per batch (two batches) and return one number: for
  the raw clouds and for their voxel coordinates, the mean over all points of the first cloud of the least squared
  distance to the second cloud plus the mean over all points of the second cloud of the least squared distance to the
  first, the voxel clouds' sum added to the raw clouds'. The kernel computes each pair of rows of least distances in one
  pallas_call per pair: per batch it keeps the first cloud's points resident, sweeps the second cloud in 64 tiles of 128
  points, keeps a running minimum per point of the first cloud in a scratch row, and stores each tile's column minima
  at once. The reference forms the whole [2, 8192, 8192] array of squared distances and reduces it along each axis.
  Over the extended reals the two agree because a minimum taken tile by tile is the minimum (no finiteness is needed:
  sums and minima of extended reals are taken in any order), and everything else — the squared distance's spelling, the
  voxel coordinates, the means — is the same arithmetic in both programs.

  The frames: each kernel program's frame is its launch over two regions among host operations, the body of each
  region run once on whole staging buffers with its outputs' stores stated in closed form (the loop over the tiles goes
  by its invariant); the reference's frame is its run with the result dropped. The idealization rewrote nothing, so
  the kernel's idealization is its own text read over the extended reals.
-/
import proofs.«176964_j13589276525289_1_alg».proof.Defs
import proofs.«176964_j13589276525289_1_alg».proof.Proof.Gen.Kernel
import proofs.«176964_j13589276525289_1_alg».proof.Proof.Gen.KernelIdeal
import proofs.«176964_j13589276525289_1_alg».proof.Proof.Gen.ReferenceIdeal
import proofs.«176964_j13589276525289_1_alg».proof.Proof.Gen.Pre_finite_inputs
import proofs.«176964_j13589276525289_1_alg».proof.Proof.Gen.ReferenceIdeal.Run
import proofs.«176964_j13589276525289_1_alg».proof.Proof.Gen.ReferenceIdeal.Read
import proofs.«176964_j13589276525289_1_alg».proof.Proof.FrameBits
import proofs.«176964_j13589276525289_1_alg».proof.Proof.FrameIdeal
import proofs.«176964_j13589276525289_1_alg».proof.Proof.KernelValue
import proofs.«176964_j13589276525289_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.GenP.frame m ρ

/-- So does the kernel program read over the extended reals. -/
theorem frame_kernelIdeal : Cert.frame_KernelIdeal := fun m ρ _ => Cert.KernelIdeal.GenP.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two clouds both programs end at the same number: the kernel's run ends at
    `final` of the clouds, the reference's at the same combination of the same four rows. -/
theorem algebraic : Cert.algebraic_KernelIdeal_ReferenceIdeal := by
  intro m ρ m' ρ' _ hagree
  refine ⟨fun c => Cert.KernelIdeal.KernelValue.final (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, Cert.ReferenceIdeal.RefValue.result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
